-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_10000" .f32 0x38D1B717#32 ((1 / 10000 : ℝ) : EReal)
  ∧ IdealRules.named_const.Statement Cert.KernelIdeal.κ "inv_10000" .f32 0x38D1B717#32 ((1 / 10000 : ℝ) : EReal)
  ∧ IdealRules.named_const.Statement Cert.KernelIdeal.κ "inv_10000" .f32 0x38D1B717#32 ((1 / 10000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x10000 : Shape := ⟨2, ![256, 10000]⟩
abbrev S256x6x10000 : Shape := ⟨3, ![256, 6, 10000]⟩
abbrev S256x6 : Shape := ⟨2, ![256, 6]⟩
abbrev S256 : Shape := ⟨1, ![256]⟩
abbrev S_ : Shape := ⟨0, ![]⟩

class Facts : Prop where
  bcast_S_S256x10000 : S_.BroadcastsInDim S256x10000 (![] : Fin 0 → Fin S256x10000.rank)
  reducesTo_S256x10000_S_d0_1 : S256x10000.ReducesTo [0, 1] S_
  h_S_ : 0 < S_.numel
  bcast_S_S256x6x10000 : S_.BroadcastsInDim S256x6x10000 (![] : Fin 0 → Fin S256x6x10000.rank)
  reducesTo_S256x6x10000_S_d0_1_2 : S256x6x10000.ReducesTo [0, 1, 2] S_
  bcast_S_S256x6 : S_.BroadcastsInDim S256x6 (![] : Fin 0 → Fin S256x6.rank)
  reducesTo_S256x6_S_d0_1 : S256x6.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : IVec S256 32) (main_v13 : IVec S_ 1) (main_v16 : IVec S256x6 1) : IVec S_ 1 :=
  let main_c_5 : IVec S_ 1 := constantI S_ 1 1#1
  let main_v17 : IVec S_ 1 := (fun x v => Host.reduce IntOp.andi x v reducesTo_S256x6_S_d0_1 h_S_) main_v16 main_c_5
  let main_v18 : IVec S_ 1 := andi main_v13 main_v17
  let main_c_6 : IVec S_ 32 := constantI S_ 32 0#32
  let main_v19 : IVec S256 32 := broadcastInDim S256 ![] bcast_S_S256 main_c_6
  let main_v20 : IVec S256 1 := cmpi .sge main_arg4 main_v19
  let main_c_7 : IVec S_ 1 := constantI S_ 1 1#1
  let main_v21 : IVec S_ 1 := (fun x v => Host.reduce IntOp.andi x v reducesTo_S256_S_d0 h_S_) main_v20 main_c_7
  let main_v22 : IVec S_ 1 := andi main_v18 main_v21
  let main_c_8 : IVec S_ 32 := constantI S_ 32 10000#32
  let main_v23 : IVec S256 32 := broadcastInDim S256 ![] bcast_S_S256 main_c_8
  let main_v24 : IVec S256 1 := cmpi .slt main_arg4 main_v23
  let main_c_9 : IVec S_ 1 := constantI S_ 1 1#1
  let main_v25 : IVec S_ 1 := (fun x v => Host.reduce IntOp.andi x v reducesTo_S256_S_d0 h_S_) main_v24 main_c_9
  let main_v26 : IVec S_ 1 := andi main_v22 main_v25
  main_v26

def fn {F : FTy → Type} [FloatOps F] (main_arg0 : FVec F S256x10000 .f32) (main_arg1 : FVec F S256x10000 .f32) (main_arg2 : FVec F S256x6x10000 .f32) (main_arg3 : FVec F S256x6 .f32) (main_arg4 : IVec S256 32) : IVec S_ 1 :=
  let main_v0 : FVec F S256x10000 .f32 := Host.absf main_arg0
  let main_cst : FVec F S_ .f32 := constant S_ .f32 0x7F800000#32
  let main_v1 : FVec F S256x10000 .f32 := broadcastInDim S256x10000 ![] bcast_S_S256x10000 main_cst
  let main_v2 : IVec S256x10000 1 := cmpf .olt main_v0 main_v1
  let main_c : IVec S_ 1 := constantI S_ 1 1#1
  let main_v3 : IVec S_ 1 := (fun x v => Host.reduce IntOp.andi x v reducesTo_S256x10000_S_d0_1 h_S_) main_v2 main_c
  let main_v4 : FVec F S256x10000 .f32 := Host.absf main_arg1
  let main_cst_0 : FVec F S_ .f32 := constant S_ .f32 0x7F800000#32
  let main_v5 : FVec F S256x10000 .f32 := broadcastInDim S256x10000 ![] bcast_S_S256x10000 main_cst_0
  let main_v6 : IVec S256x10000 1 := cmpf .olt main_v4 main_v5
  let main_c_1 : IVec S_ 1 := constantI S_ 1 1#1
  let main_v7 : IVec S_ 1 := (fun x v => Host.reduce IntOp.andi x v reducesTo_S256x10000_S_d0_1 h_S_) main_v6 main_c_1
  let main_v8 : IVec S_ 1 := andi main_v3 main_v7
  let main_v9 : FVec F S256x6x10000 .f32 := Host.absf main_arg2
  let main_cst_2 : FVec F S_ .f32 := constant S_ .f32 0x7F800000#32
  let main_v10 : FVec F S256x6x10000 .f32 := broadcastInDim S256x6x10000 ![] bcast_S_S256x6x10000 main_cst_2
  let main_v11 : IVec S256x6x10000 1 := cmpf .olt main_v9 main_v10
  let main_c_3 : IVec S_ 1 := constantI S_ 1 1#1
  let main_v12 : IVec S_ 1 := (fun x v => Host.reduce IntOp.andi x v reducesTo_S256x6x10000_S_d0_1_2 h_S_) main_v11 main_c_3
  let main_v13 : IVec S_ 1 := andi main_v8 main_v12
  let main_v14 : FVec F S256x6 .f32 := Host.absf main_arg3
  let main_cst_4 : FVec F S_ .f32 := constant S_ .f32 0x7F800000#32
  let main_v15 : FVec F S256x6 .f32 := broadcastInDim S256x6 ![] bcast_S_S256x6 main_cst_4
  let main_v16 : IVec S256x6 1 := cmpf .olt main_v14 main_v15
  fn_part1 (F := F) main_arg4 main_v13 main_v16
-- ==== Kernel.lean ====
abbrev S256x10000 : Shape := ⟨2, ![256, 10000]⟩
abbrev S256x6x10000 : Shape := ⟨3, ![256, 6, 10000]⟩
abbrev S256x6 : Shape := ⟨2, ![256, 6]⟩
abbrev S256 : Shape := ⟨1, ![256]⟩
abbrev S1536 : Shape := ⟨1, ![1536]⟩
abbrev S256x1 : Shape := ⟨2, ![256, 1]⟩
abbrev S2x256 : Shape := ⟨2, ![2, 256]⟩
abbrev S128x10000 : Shape := ⟨2, ![128, 10000]⟩
abbrev S128x1 : Shape := ⟨2, ![128, 1]⟩
abbrev S2x128 : Shape := ⟨2, ![2, 128]⟩
abbrev S128 : Shape := ⟨1, ![128]⟩
abbrev S128x2 : Shape := ⟨2, ![128, 2]⟩
abbrev S1536x10000 : Shape := ⟨2, ![1536, 10000]⟩
abbrev S1536x1 : Shape := ⟨2, ![1536, 1]⟩
abbrev S2x1536 : Shape := ⟨2, ![2, 1536]⟩
abbrev S1x256 : Shape := ⟨2, ![1, 256]⟩
abbrev S1x1536 : Shape := ⟨2, ![1, 1536]⟩
abbrev S_ : Shape := ⟨0, ![]⟩
abbrev S256x1x6 : Shape := ⟨3, ![256, 1, 6]⟩
abbrev S256x6x1 : Shape := ⟨3, ![256, 6, 1]⟩
abbrev S256x6x6 : Shape := ⟨3, ![256, 6, 6]⟩

abbrev nBuf : Space → Nat
  | .hbm => 84
  | .vmem => 16
  | .smem => 0
  | _ => 0

abbrev bufTy : (tb : Table) → Fin (tcTables nBuf tb) → BufTy
  | .hbm, ⟨0, _⟩ => ⟨S256x10000, .f32⟩
  | .hbm, ⟨1, _⟩ => ⟨S256x10000, .f32⟩
  | .hbm, ⟨2, _⟩ => ⟨S256x6x10000, .f32⟩
  | .hbm, ⟨3, _⟩ => ⟨S256x6, .f32⟩
  | .hbm, ⟨4, _⟩ => ⟨S256, .i32⟩
  | .hbm, ⟨5, _⟩ => ⟨S256x6, .i32⟩
  | .hbm, ⟨6, _⟩ => ⟨S1536, .i32⟩
  | .hbm, ⟨7, _⟩ => ⟨S256x1, .i32⟩
  | .hbm, ⟨8, _⟩ => ⟨S2x256, .f32⟩
  | .hbm, ⟨9, _⟩ => ⟨S2x256, .f32⟩
  | .hbm, ⟨10, _⟩ => ⟨S1536x10000, .f32⟩
  | .hbm, ⟨11, _⟩ => ⟨S1536x1, .i32⟩
  | .hbm, ⟨12, _⟩ => ⟨S2x1536, .f32⟩
  | .hbm, ⟨13, _⟩ => ⟨S1x256, .f32⟩
  | .hbm, ⟨14, _⟩ => ⟨S256, .f32⟩
  | .hbm, ⟨15, _⟩ => ⟨S1x256, .f32⟩
  | .hbm, ⟨16, _⟩ => ⟨S256, .f32⟩
  | .hbm, ⟨17, _⟩ => ⟨S1x256, .f32⟩
  | .hbm, ⟨18, _⟩ => ⟨S256, .f32⟩
  | .hbm, ⟨19, _⟩ => ⟨S1x256, .f32⟩
  | .hbm, ⟨20, _⟩ => ⟨S256, .f32⟩
  | .hbm, ⟨21, _⟩ => ⟨S1x1536, .f32⟩
  | .hbm, ⟨22, _⟩ => ⟨S1536, .f32⟩
  | .hbm, ⟨23, _⟩ => ⟨S1x1536, .f32⟩
  | .hbm, ⟨24, _⟩ => ⟨S1536, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S_, .f32⟩
  | .hbm, ⟨29, _⟩ => ⟨S256, .f32⟩
  | .hbm, ⟨30, _⟩ => ⟨S256, .f32⟩
  | .hbm, ⟨31, _⟩ => ⟨S256, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S256, .f32⟩
  | .hbm, ⟨38, _⟩ => ⟨S256, .f32⟩
  | .hbm, ⟨39, _⟩ => ⟨S_, .f32⟩
  | .hbm, ⟨40, _⟩ => ⟨S256, .f32⟩
  | .hbm, ⟨41, _⟩ => ⟨S256, .f32⟩
  | .hbm, ⟨42, _⟩ => ⟨S256, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S1536, .f32⟩
  | .hbm, ⟨49, _⟩ => ⟨S1536, .f32⟩
  | .hbm, ⟨50, _⟩ => ⟨S_, .f32⟩
  | .hbm, ⟨51, _⟩ => ⟨S1536, .f32⟩
  | .hbm, ⟨52, _⟩ => ⟨S1536, .f32⟩
  | .hbm, ⟨53, _⟩ => ⟨S1536, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S256x6, .f32⟩
  | .hbm, ⟨59, _⟩ => ⟨S256x1x6, .f32⟩
  | .hbm, ⟨60, _⟩ => ⟨S256x6x1, .f32⟩
  | .hbm, ⟨61, _⟩ => ⟨S256x6x6, .f32⟩
  | .hbm, ⟨62, _⟩ => ⟨S256x6x6, .f32⟩
  | .hbm, ⟨63, _⟩ => ⟨S256x6x6, .i1⟩
  | .hbm, ⟨64, _⟩ => ⟨S256x6x6, .f32⟩
  | .hbm, ⟨65, _⟩ => ⟨S256x6x1, .f32⟩
  | .hbm, ⟨66, _⟩ => ⟨S_, .f32⟩
  | .hbm, ⟨67, _⟩ => ⟨S256x6x1, .f32⟩
  | .hbm, ⟨68, _⟩ => ⟨S256x6x1, .f32⟩
  | .hbm, ⟨69, _⟩ => ⟨S256x1x6, .f32⟩
  | .hbm, ⟨70, _⟩ => ⟨S256x6x6, .f32⟩
  | .hbm, ⟨71, _⟩ => ⟨S256x6x6, .f32⟩
  | .hbm, ⟨72, _⟩ => ⟨S256x6x6, .f32⟩
  | .hbm, ⟨73, _⟩ => ⟨S256x6x6, .f32⟩
  | .hbm, ⟨74, _⟩ => ⟨S_, .f32⟩
  | .hbm, ⟨75, _⟩ => ⟨S256x6x6, .f32⟩
  | .hbm, ⟨76, _⟩ => ⟨S256x6x6, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .local _ .vmem, ⟨0, _⟩ => ⟨S128x10000, .f32⟩
  | .local _ .vmem, ⟨1, _⟩ => ⟨S128x10000, .f32⟩
  | .local _ .vmem, ⟨2, _⟩ => ⟨S128x10000, .f32⟩
  | .local _ .vmem, ⟨3, _⟩ => ⟨S128x10000, .f32⟩
  | .local _ .vmem, ⟨4, _⟩ => ⟨S128x1, .i32⟩
  | .local _ .vmem, ⟨5, _⟩ => ⟨S128x1, .i32⟩
  | .local _ .vmem, ⟨6, _⟩ => ⟨S2x128, .f32⟩
  | .local _ .vmem, ⟨7, _⟩ => ⟨S2x128, .f32⟩
  | .local _ .vmem, ⟨8, _⟩ => ⟨S2x128, .f32⟩
  | .local _ .vmem, ⟨9, _⟩ => ⟨S2x128, .f32⟩
  | .local _ .vmem, ⟨10, _⟩ => ⟨S128x10000, .f32⟩
  | .local _ .vmem, ⟨11, _⟩ => ⟨S128x10000, .f32⟩
  | .local _ .vmem, ⟨12, _⟩ => ⟨S128x1, .i32⟩
  | .local _ .vmem, ⟨13, _⟩ => ⟨S128x1, .i32⟩
  | .local _ .vmem, ⟨14, _⟩ => ⟨S2x128, .f32⟩
  | .local _ .vmem, ⟨15, _⟩ => ⟨S2x128, .f32⟩
  | _, _ => ⟨S256x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_call0_cst : Ref sig .tc := ⟨.hbm, 74, rfl⟩
abbrev main_call0_v0 : Ref sig .tc := ⟨.hbm, 75, rfl⟩
abbrev main_v55 : Ref sig .tc := ⟨.hbm, 76, rfl⟩
abbrev main_cst_12 : Ref sig .tc := ⟨.hbm, 77, rfl⟩
abbrev main_v56 : Ref sig .tc := ⟨.hbm, 78, rfl⟩
abbrev main_cst_13 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S128x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S256_S256x6_0 : S256.BroadcastsInDim S256x6 (![0] : Fin 1 → Fin S256x6.rank)
  shapeCasts_S256x6_S1536 : S256x6.ShapeCasts S1536
  bcast_S256_S256x1_0 : S256.BroadcastsInDim S256x1 (![0] : Fin 1 → Fin S256x1.rank)
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x10000_S128x10000_0_0 : ∀ a, (![0, 0] : Fin 2 → Nat) a + S128x10000.size a ≤ S128x10000.size a
  h_S128x10000 : 0 < S128x10000.numel
  reduces_S128x10000_S128 : S128x10000.Reduces [1] S128
  shapeCasts_S128_S128x1 : S128.ShapeCasts S128x1
  broadcasts_S128x1_S128x10000 : S128x1.Broadcasts S128x10000
  iota_S128x10000_d1_w32 : S128x10000.Iotas .tc 32 [1]
  concatenates_S128x1_S128x1_S128x2_d1 : Shape.Concatenates [S128x1, S128x1] S128x2 1
  transposes_S128x2_p1_0_S2x128 : S128x2.Transposes [1, 0] S2x128
  inb_S2x128_S2x128_0_0 : ∀ a, (![0, 0] : Fin 2 → Nat) a + S2x128.size a ≤ S2x128.size a
  h_S2x128 : 0 < S2x128.numel
  shapeCasts_S256x6x10000_S1536x10000 : S256x6x10000.ShapeCasts S1536x10000
  bcast_S1536_S1536x1_0 : S1536.BroadcastsInDim S1536x1 (![0] : Fin 1 → Fin S1536x1.rank)
  shapeCasts_S128x10000_S128x10000 : S128x10000.ShapeCasts S128x10000
  slices_S2x256_S1x256_0_0 : S2x256.Slices ![0, 0] S1x256
  shapeCasts_S1x256_S256 : S1x256.ShapeCasts S256
  slices_S2x256_S1x256_1_0 : S2x256.Slices ![1, 0] S1x256
  slices_S2x1536_S1x1536_0_0 : S2x1536.Slices ![0, 0] S1x1536
  shapeCasts_S1x1536_S1536 : S1x1536.ShapeCasts S1536
  slices_S2x1536_S1x1536_1_0 : S2x1536.Slices ![1, 0] S1x1536
  bcast_S_S256 : S_.BroadcastsInDim S256 (![] : Fin 0 → Fin S256.rank)
  reducesTo_S256_S_d0 : S256.ReducesTo [0] S_
  h_S_ : 0 < S_.numel
  bcast_S_S1536 : S_.BroadcastsInDim S1536 (![] : Fin 0 → Fin S1536.rank)
  reducesTo_S1536_S_d0 : S1536.ReducesTo [0] S_
  shapeCasts_S1536_S256x6 : S1536.ShapeCasts S256x6
  bcast_S256x6_S256x1x6_0_2 : S256x6.BroadcastsInDim S256x1x6 (![0, 2] : Fin 2 → Fin S256x1x6.rank)
  bcast_S256x6_S256x6x1_0_1 : S256x6.BroadcastsInDim S256x6x1 (![0, 1] : Fin 2 → Fin S256x6x1.rank)
  bcast_S256x1x6_S256x6x6_0_1_2 : S256x1x6.BroadcastsInDim S256x6x6 (![0, 1, 2] : Fin 3 → Fin S256x6x6.rank)
  bcast_S256x6x1_S256x6x6_0_1_2 : S256x6x1.BroadcastsInDim S256x6x6 (![0, 1, 2] : Fin 3 → Fin S256x6x6.rank)
  bcast_S_S256x6x1 : S_.BroadcastsInDim S256x6x1 (![] : Fin 0 → Fin S256x6x1.rank)
  bcast_S_S256x6x6 : S_.BroadcastsInDim S256x6x6 (![] : Fin 0 → Fin S256x6x6.rank)
  reducesTo_S256x6x6_S_d0_1_2 : S256x6x6.ReducesTo [0, 1, 2] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x10000.size a ≤ S256x10000.size a
  hwx0_0 : ∀ i : grid0.Coords, EltTy.bits .f32 = 32 ∨ (Rect.block (s := S256x10000) S128x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x10000.size a ≤ S256x10000.size a
  hwx0_1 : ∀ i : grid0.Coords, EltTy.bits .f32 = 32 ∨ (Rect.block (s := S256x10000) S128x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S256x1.size a
  hwx0_2 : ∀ i : grid0.Coords, EltTy.bits .i32 = 32 ∨ (Rect.block (s := S256x1) S128x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x128.size a ≤ S2x256.size a
  hwx0_3 : ∀ i : grid0.Coords, EltTy.bits .f32 = 32 ∨ (Rect.block (s := S2x256) S2x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x128.size a ≤ S2x256.size a
  hwx0_4 : ∀ i : grid0.Coords, EltTy.bits .f32 = 32 ∨ (Rect.block (s := S2x256) S2x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x10000.size a ≤ S1536x10000.size a
  hwx1_0 : ∀ i : grid1.Coords, EltTy.bits .f32 = 32 ∨ (Rect.block (s := S1536x10000) S128x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1.size a ≤ S1536x1.size a
  hwx1_1 : ∀ i : grid1.Coords, EltTy.bits .i32 = 32 ∨ (Rect.block (s := S1536x1) S128x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x128.size a ≤ S2x1536.size a
  hwx1_2 : ∀ i : grid1.Coords, EltTy.bits .f32 = 32 ∨ (Rect.block (s := S2x1536) S2x128.size (cc1_transform_2 i) (hinb1_2 i)).WholeWords (EltTy.packing .f32)

variable [Facts₀]

abbrev win0_0 : Pipeline.Window sig grid0 :=
  Pipeline.Window.ofSpec (Memref.whole main_arg0) S128x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S2x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S2x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v4) S128x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S128x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S2x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S256x10000 : Shape := ⟨2, ![256, 10000]⟩
abbrev S256x6x10000 : Shape := ⟨3, ![256, 6, 10000]⟩
abbrev S256x6 : Shape := ⟨2, ![256, 6]⟩
abbrev S256 : Shape := ⟨1, ![256]⟩
abbrev S1536x10000 : Shape := ⟨2, ![1536, 10000]⟩
abbrev S1536 : Shape := ⟨1, ![1536]⟩
abbrev S_ : Shape := ⟨0, ![]⟩
abbrev S1536x1 : Shape := ⟨2, ![1536, 1]⟩
abbrev S1536x1x1 : Shape := ⟨3, ![1536, 1, 1]⟩
abbrev S1 : Shape := ⟨1, ![1]⟩
abbrev S1x1x1 : Shape := ⟨3, ![1, 1, 1]⟩
abbrev S256x1 : Shape := ⟨2, ![256, 1]⟩
abbrev S256x1x1 : Shape := ⟨3, ![256, 1, 1]⟩
abbrev S256x1x6 : Shape := ⟨3, ![256, 1, 6]⟩
abbrev S256x6x1 : Shape := ⟨3, ![256, 6, 1]⟩
abbrev S256x6x6 : Shape := ⟨3, ![256, 6, 6]⟩

abbrev nBuf : Space → Nat
  | .hbm => 245
  | .vmem => 0
  | .smem => 0
  | _ => 0

abbrev hbmTy0_0 (i : Nat) : BufTy := match i % 128 with
  | 0 => ⟨S256x10000, .f32⟩
  | 1 => ⟨S256x10000, .f32⟩
  | 2 => ⟨S256x6x10000, .f32⟩
  | 3 => ⟨S256x6, .f32⟩
  | 4 => ⟨S256, .i32⟩
  | 5 => ⟨S1536x10000, .f32⟩
  | 6 => ⟨S256x6, .i32⟩
  | 7 => ⟨S1536, .i32⟩
  | 8 => ⟨S_, .f32⟩
  | 9 => ⟨S1536, .f32⟩
  | 10 => ⟨S_, .f32⟩
  | 11 => ⟨S1536, .f32⟩
  | 12 => ⟨S1536, .f32⟩
  | 13 => ⟨S1536x1, .f32⟩
  | 14 => ⟨S1536x10000, .f32⟩
  | 15 => ⟨S1536x10000, .f32⟩
  | 16 => ⟨S1536x10000, .f32⟩
  | 17 => ⟨S_, .f32⟩
  | 18 => ⟨S1536, .f32⟩
  | 19 => ⟨S1536x1, .f32⟩
  | 20 => ⟨S1536x1, .f32⟩
  | 21 => ⟨S1536x10000, .f32⟩
  | 22 => ⟨S1536x10000, .f32⟩
  | 23 => ⟨S1536x1, .i32⟩
  | 24 => ⟨S_, .i32⟩
  | 25 => ⟨S1536x1, .i32⟩
  | 26 => ⟨S1536x1, .i1⟩
  | 27 => ⟨S_, .i32⟩
  | 28 => ⟨S1536x1, .i32⟩
  | 29 => ⟨S1536x1, .i32⟩
  | 30 => ⟨S1536x1, .i32⟩
  | 31 => ⟨S1536x1x1, .i32⟩
  | 32 => ⟨S1, .i32⟩
  | 33 => ⟨S_, .i32⟩
  | 34 => ⟨S1536x1x1, .i32⟩
  | 35 => ⟨S1536x1x1, .i1⟩
  | 36 => ⟨S1x1x1, .i32⟩
  | 37 => ⟨S1536x1x1, .i32⟩
  | 38 => ⟨S1536x1x1, .i1⟩
  | 39 => ⟨S1536x1x1, .i1⟩
  | 40 => ⟨S_, .i1⟩
  | 41 => ⟨S1536x1, .i1⟩
  | 42 => ⟨S1536x1, .f32⟩
  | 43 => ⟨S_, .f32⟩
  | 44 => ⟨S1536x1, .f32⟩
  | 45 => ⟨S1536x1, .f32⟩
  | 46 => ⟨S1536, .f32⟩
  | 47 => ⟨S1536, .f32⟩
  | 48 => ⟨S256x6, .f32⟩
  | 49 => ⟨S_, .f32⟩
  | 50 => ⟨S256, .f32⟩
  | 51 => ⟨S_, .f32⟩
  | 52 => ⟨S256, .f32⟩
  | 53 => ⟨S256, .f32⟩
  | 54 => ⟨S256x1, .f32⟩
  | 55 => ⟨S256x10000, .f32⟩
  | 56 => ⟨S256x10000, .f32⟩
  | 57 => ⟨S256x10000, .f32⟩
  | 58 => ⟨S_, .f32⟩
  | 59 => ⟨S256, .f32⟩
  | 60 => ⟨S256x1, .f32⟩
  | 61 => ⟨S256x1, .f32⟩
  | 62 => ⟨S256x10000, .f32⟩
  | 63 => ⟨S256x10000, .f32⟩
  | 64 => ⟨S256x1, .i32⟩
  | 65 => ⟨S_, .i32⟩
  | 66 => ⟨S256x1, .i32⟩
  | 67 => ⟨S256x1, .i1⟩
  | 68 => ⟨S_, .i32⟩
  | 69 => ⟨S256x1, .i32⟩
  | 70 => ⟨S256x1, .i32⟩
  | 71 => ⟨S256x1, .i32⟩
  | 72 => ⟨S256x1x1, .i32⟩
  | 73 => ⟨S1, .i32⟩
  | 74 => ⟨S_, .i32⟩
  | 75 => ⟨S256x1x1, .i32⟩
  | 76 => ⟨S256x1x1, .i1⟩
  | 77 => ⟨S1x1x1, .i32⟩
  | 78 => ⟨S256x1x1, .i32⟩
  | 79 => ⟨S256x1x1, .i1⟩
  | 80 => ⟨S256x1x1, .i1⟩
  | 81 => ⟨S_, .i1⟩
  | 82 => ⟨S256x1, .i1⟩
  | 83 => ⟨S256x1, .f32⟩
  | 84 => ⟨S_, .f32⟩
  | 85 => ⟨S256x1, .f32⟩
  | 86 => ⟨S256x1, .f32⟩
  | 87 => ⟨S256, .f32⟩
  | 88 => ⟨S256, .f32⟩
  | 89 => ⟨S_, .f32⟩
  | 90 => ⟨S256, .f32⟩
  | 91 => ⟨S_, .f32⟩
  | 92 => ⟨S256, .f32⟩
  | 93 => ⟨S256, .f32⟩
  | 94 => ⟨S256, .f32⟩
  | 95 => ⟨S_, .f32⟩
  | 96 => ⟨S256, .f32⟩
  | 97 => ⟨S256, .f32⟩
  | 98 => ⟨S_, .f32⟩
  | 99 => ⟨S256, .f32⟩
  | 100 => ⟨S256, .f32⟩
  | 101 => ⟨S256, .f32⟩
  | 102 => ⟨S_, .f32⟩
  | 103 => ⟨S_, .f32⟩
  | 104 => ⟨S_, .f32⟩
  | 105 => ⟨S_, .f32⟩
  | 106 => ⟨S_, .f32⟩
  | 107 => ⟨S256, .f32⟩
  | 108 => ⟨S_, .f32⟩
  | 109 => ⟨S256, .f32⟩
  | 110 => ⟨S256, .f32⟩
  | 111 => ⟨S256x1, .f32⟩
  | 112 => ⟨S256x10000, .f32⟩
  | 113 => ⟨S256x10000, .f32⟩
  | 114 => ⟨S256x10000, .f32⟩
  | 115 => ⟨S_, .f32⟩
  | 116 => ⟨S256, .f32⟩
  | 117 => ⟨S256x1, .f32⟩
  | 118 => ⟨S256x1, .f32⟩
  | 119 => ⟨S256x10000, .f32⟩
  | 120 => ⟨S256x10000, .f32⟩
  | 121 => ⟨S256x1, .i32⟩
  | 122 => ⟨S_, .i32⟩
  | 123 => ⟨S256x1, .i32⟩
  | 124 => ⟨S256x1, .i1⟩
  | 125 => ⟨S_, .i32⟩
  | 126 => ⟨S256x1, .i32⟩
  | 127 => ⟨S256x1, .i32⟩
  | _ => ⟨S256x10000, .f32⟩

abbrev hbmTy0_1 (i : Nat) : BufTy := match i % 128 with
  | 0 => ⟨S256x1, .i32⟩
  | 1 => ⟨S256x1x1, .i32⟩
  | 2 => ⟨S1, .i32⟩
  | 3 => ⟨S_, .i32⟩
  | 4 => ⟨S256x1x1, .i32⟩
  | 5 => ⟨S256x1x1, .i1⟩
  | 6 => ⟨S1x1x1, .i32⟩
  | 7 => ⟨S256x1x1, .i32⟩
  | 8 => ⟨S256x1x1, .i1⟩
  | 9 => ⟨S256x1x1, .i1⟩
  | 10 => ⟨S_, .i1⟩
  | 11 => ⟨S256x1, .i1⟩
  | 12 => ⟨S256x1, .f32⟩
  | 13 => ⟨S_, .f32⟩
  | 14 => ⟨S256x1, .f32⟩
  | 15 => ⟨S256x1, .f32⟩
  | 16 => ⟨S256, .f32⟩
  | 17 => ⟨S256, .f32⟩
  | 18 => ⟨S_, .f32⟩
  | 19 => ⟨S256, .f32⟩
  | 20 => ⟨S_, .f32⟩
  | 21 => ⟨S256, .f32⟩
  | 22 => ⟨S256, .f32⟩
  | 23 => ⟨S256, .f32⟩
  | 24 => ⟨S_, .f32⟩
  | 25 => ⟨S256, .f32⟩
  | 26 => ⟨S256, .f32⟩
  | 27 => ⟨S_, .f32⟩
  | 28 => ⟨S256, .f32⟩
  | 29 => ⟨S256, .f32⟩
  | 30 => ⟨S256, .f32⟩
  | 31 => ⟨S_, .f32⟩
  | 32 => ⟨S_, .f32⟩
  | 33 => ⟨S_, .f32⟩
  | 34 => ⟨S_, .f32⟩
  | 35 => ⟨S_, .f32⟩
  | 36 => ⟨S1536, .f32⟩
  | 37 => ⟨S_, .f32⟩
  | 38 => ⟨S1536, .f32⟩
  | 39 => ⟨S1536, .f32⟩
  | 40 => ⟨S1536x1, .f32⟩
  | 41 => ⟨S1536x10000, .f32⟩
  | 42 => ⟨S1536x10000, .f32⟩
  | 43 => ⟨S1536x10000, .f32⟩
  | 44 => ⟨S_, .f32⟩
  | 45 => ⟨S1536, .f32⟩
  | 46 => ⟨S1536x1, .f32⟩
  | 47 => ⟨S1536x1, .f32⟩
  | 48 => ⟨S1536x10000, .f32⟩
  | 49 => ⟨S1536x10000, .f32⟩
  | 50 => ⟨S1536x1, .i32⟩
  | 51 => ⟨S_, .i32⟩
  | 52 => ⟨S1536x1, .i32⟩
  | 53 => ⟨S1536x1, .i1⟩
  | 54 => ⟨S_, .i32⟩
  | 55 => ⟨S1536x1, .i32⟩
  | 56 => ⟨S1536x1, .i32⟩
  | 57 => ⟨S1536x1, .i32⟩
  | 58 => ⟨S1536x1x1, .i32⟩
  | 59 => ⟨S1, .i32⟩
  | 60 => ⟨S_, .i32⟩
  | 61 => ⟨S1536x1x1, .i32⟩
  | 62 => ⟨S1536x1x1, .i1⟩
  | 63 => ⟨S1x1x1, .i32⟩
  | 64 => ⟨S1536x1x1, .i32⟩
  | 65 => ⟨S1536x1x1, .i1⟩
  | 66 => ⟨S1536x1x1, .i1⟩
  | 67 => ⟨S_, .i1⟩
  | 68 => ⟨S1536x1, .i1⟩
  | 69 => ⟨S1536x1, .f32⟩
  | 70 => ⟨S_, .f32⟩
  | 71 => ⟨S1536x1, .f32⟩
  | 72 => ⟨S1536x1, .f32⟩
  | 73 => ⟨S1536, .f32⟩
  | 74 => ⟨S1536, .f32⟩
  | 75 => ⟨S_, .f32⟩
  | 76 => ⟨S1536, .f32⟩
  | 77 => ⟨S_, .f32⟩
  | 78 => ⟨S1536, .f32⟩
  | 79 => ⟨S1536, .f32⟩
  | 80 => ⟨S1536, .f32⟩
  | 81 => ⟨S_, .f32⟩
  | 82 => ⟨S1536, .f32⟩
  | 83 => ⟨S1536, .f32⟩
  | 84 => ⟨S_, .f32⟩
  | 85 => ⟨S1536, .f32⟩
  | 86 => ⟨S1536, .f32⟩
  | 87 => ⟨S1536, .f32⟩
  | 88 => ⟨S_, .f32⟩
  | 89 => ⟨S_, .f32⟩
  | 90 => ⟨S_, .f32⟩
  | 91 => ⟨S_, .f32⟩
  | 92 => ⟨S256x1x6, .f32⟩
  | 93 => ⟨S256x6x1, .f32⟩
  | 94 => ⟨S256x6x6, .f32⟩
  | 95 => ⟨S256x6x6, .f32⟩
  | 96 => ⟨S256x6x6, .i1⟩
  | 97 => ⟨S256x6x6, .f32⟩
  | 98 => ⟨S256x6x1, .f32⟩
  | 99 => ⟨S_, .f32⟩
  | 100 => ⟨S256x6x1, .f32⟩
  | 101 => ⟨S256x6x1, .f32⟩
  | 102 => ⟨S256x1x6, .f32⟩
  | 103 => ⟨S256x6x6, .f32⟩
  | 104 => ⟨S256x6x6, .f32⟩
  | 105 => ⟨S256x6x6, .f32⟩
  | 106 => ⟨S256x6x6, .f32⟩
  | 107 => ⟨S_, .f32⟩
  | 108 => ⟨S256x6x6, .f32⟩
  | 109 => ⟨S256x6x6, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | _ => ⟨S256x10000, .f32⟩

abbrev hbmTy (i : Nat) : BufTy := match i / 128 with
  | 0 => hbmTy0_0 i
  | 1 => hbmTy0_1 i
  | _ => ⟨S256x10000, .f32⟩

abbrev bufTy : (tb : Table) → Fin (tcTables nBuf tb) → BufTy
  | .hbm, ⟨i, _⟩ => hbmTy i
  | _, _ => ⟨S256x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v3 : Ref sig .tc := ⟨.hbm, 22, rfl⟩
abbrev main_v4 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_cst : Ref sig .tc := ⟨.hbm, 43, rfl⟩
abbrev main_call1_v14 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_call2_cst : Ref sig .tc := ⟨.hbm, 49, rfl⟩
abbrev main_call2_v0 : Ref sig .tc := ⟨.hbm, 50, rfl⟩
abbrev main_call2_cst_0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_cst_1 : Ref sig .tc := ⟨.hbm, 58, rfl⟩
abbrev main_call2_v7 : Ref sig .tc := ⟨.hbm, 59, rfl⟩
abbrev main_call2_v8 : Ref sig .tc := ⟨.hbm, 60, rfl⟩
abbrev main_call2_v9 : Ref sig .tc := ⟨.hbm, 61, rfl⟩
abbrev main_call2_v10 : Ref sig .tc := ⟨.hbm, 62, rfl⟩
abbrev main_v9 : Ref sig .tc := ⟨.hbm, 63, rfl⟩
abbrev main_v10 : Ref sig .tc := ⟨.hbm, 64, rfl⟩
abbrev main_call3_c : Ref sig .tc := ⟨.hbm, 65, rfl⟩
abbrev main_call3_v0 : Ref sig .tc := ⟨.hbm, 66, rfl⟩
abbrev main_call3_v1 : Ref sig .tc := ⟨.hbm, 67, rfl⟩
abbrev main_call3_c_0 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_v5 : Ref sig .tc := ⟨.hbm, 72, rfl⟩
abbrev main_call3_c_1 : Ref sig .tc := ⟨.hbm, 73, rfl⟩
abbrev main_call3_c_2 : Ref sig .tc := ⟨.hbm, 74, rfl⟩
abbrev main_call3_v6 : Ref sig .tc := ⟨.hbm, 75, rfl⟩
abbrev main_call3_v7 : Ref sig .tc := ⟨.hbm, 76, rfl⟩
abbrev main_call3_v8 : Ref sig .tc := ⟨.hbm, 77, rfl⟩
abbrev main_call3_v9 : Ref sig .tc := ⟨.hbm, 78, rfl⟩
abbrev main_call3_v10 : Ref sig .tc := ⟨.hbm, 79, rfl⟩
abbrev main_call3_v11 : Ref sig .tc := ⟨.hbm, 80, rfl⟩
abbrev main_call3_c_3 : Ref sig .tc := ⟨.hbm, 81, rfl⟩
abbrev main_call3_v12 : Ref sig .tc := ⟨.hbm, 82, rfl⟩
abbrev main_call3_v13 : Ref sig .tc := ⟨.hbm, 83, rfl⟩
abbrev main_call3_cst : Ref sig .tc := ⟨.hbm, 84, rfl⟩
abbrev main_call3_v14 : Ref sig .tc := ⟨.hbm, 85, rfl⟩
abbrev main_v11 : Ref sig .tc := ⟨.hbm, 86, rfl⟩
abbrev main_v12 : Ref sig .tc := ⟨.hbm, 87, rfl⟩
abbrev main_v13 : Ref sig .tc := ⟨.hbm, 88, rfl⟩
abbrev main_cst : Ref sig .tc := ⟨.hbm, 89, rfl⟩
abbrev main_v14 : Ref sig .tc := ⟨.hbm, 90, rfl⟩
abbrev main_cst_0 : Ref sig .tc := ⟨.hbm, 91, rfl⟩
abbrev main_v15 : Ref sig .tc := ⟨.hbm, 92, rfl⟩
abbrev main_v16 : Ref sig .tc := ⟨.hbm, 93, rfl⟩
abbrev main_v17 : Ref sig .tc := ⟨.hbm, 94, rfl⟩
abbrev main_cst_1 : Ref sig .tc := ⟨.hbm, 95, rfl⟩
abbrev main_v18 : Ref sig .tc := ⟨.hbm, 96, rfl⟩
abbrev main_v19 : Ref sig .tc := ⟨.hbm, 97, rfl⟩
abbrev main_cst_2 : Ref sig .tc := ⟨.hbm, 98, rfl⟩
abbrev main_v20 : Ref sig .tc := ⟨.hbm, 99, rfl⟩
abbrev main_v21 : Ref sig .tc := ⟨.hbm, 100, rfl⟩
abbrev main_v22 : Ref sig .tc := ⟨.hbm, 101, rfl⟩
abbrev main_cst_3 : Ref sig .tc := ⟨.hbm, 102, rfl⟩
abbrev main_v23 : Ref sig .tc := ⟨.hbm, 103, rfl⟩
abbrev main_cst_4 : Ref sig .tc := ⟨.hbm, 104, rfl⟩
abbrev main_v24 : Ref sig .tc := ⟨.hbm, 105, rfl⟩
abbrev main_call4_cst : Ref sig .tc := ⟨.hbm, 106, rfl⟩
abbrev main_call4_v0 : Ref sig .tc := ⟨.hbm, 107, rfl⟩
abbrev main_call4_cst_0 : Ref sig .tc := ⟨.hbm, 108, rfl⟩
abbrev main_call4_v1 : Ref sig .tc := ⟨.hbm, 109, rfl⟩
abbrev main_call4_v2 : Ref sig .tc := ⟨.hbm, 110, rfl⟩
abbrev main_call4_v3 : Ref sig .tc := ⟨.hbm, 111, rfl⟩
abbrev main_call4_v4 : Ref sig .tc := ⟨.hbm, 112, rfl⟩
abbrev main_call4_v5 : Ref sig .tc := ⟨.hbm, 113, rfl⟩
abbrev main_call4_v6 : Ref sig .tc := ⟨.hbm, 114, rfl⟩
abbrev main_call4_cst_1 : Ref sig .tc := ⟨.hbm, 115, rfl⟩
abbrev main_call4_v7 : Ref sig .tc := ⟨.hbm, 116, rfl⟩
abbrev main_call4_v8 : Ref sig .tc := ⟨.hbm, 117, rfl⟩
abbrev main_call4_v9 : Ref sig .tc := ⟨.hbm, 118, rfl⟩
abbrev main_call4_v10 : Ref sig .tc := ⟨.hbm, 119, rfl⟩
abbrev main_v25 : Ref sig .tc := ⟨.hbm, 120, rfl⟩
abbrev main_v26 : Ref sig .tc := ⟨.hbm, 121, rfl⟩
abbrev main_call5_c : Ref sig .tc := ⟨.hbm, 122, rfl⟩
abbrev main_call5_v0 : Ref sig .tc := ⟨.hbm, 123, rfl⟩
abbrev main_call5_v1 : Ref sig .tc := ⟨.hbm, 124, rfl⟩
abbrev main_call5_c_0 : Ref sig .tc := ⟨.hbm, 125, rfl⟩
abbrev main_call5_v2 : Ref sig .tc := ⟨.hbm, 126, rfl⟩
abbrev main_call5_v3 : Ref sig .tc := ⟨.hbm, 127, rfl⟩
abbrev main_call5_v4 : Ref sig .tc := ⟨.hbm, 128, rfl⟩
abbrev main_call5_v5 : Ref sig .tc := ⟨.hbm, 129, rfl⟩
abbrev main_call5_c_1 : Ref sig .tc := ⟨.hbm, 130, rfl⟩
abbrev main_call5_c_2 : Ref sig .tc := ⟨.hbm, 131, rfl⟩
abbrev main_call5_v6 : Ref sig .tc := ⟨.hbm, 132, rfl⟩
abbrev main_call5_v7 : Ref sig .tc := ⟨.hbm, 133, rfl⟩
abbrev main_call5_v8 : Ref sig .tc := ⟨.hbm, 134, rfl⟩
abbrev main_call5_v9 : Ref sig .tc := ⟨.hbm, 135, rfl⟩
abbrev main_call5_v10 : Ref sig .tc := ⟨.hbm, 136, rfl⟩
abbrev main_call5_v11 : Ref sig .tc := ⟨.hbm, 137, rfl⟩
abbrev main_call5_c_3 : Ref sig .tc := ⟨.hbm, 138, rfl⟩
abbrev main_call5_v12 : Ref sig .tc := ⟨.hbm, 139, rfl⟩
abbrev main_call5_v13 : Ref sig .tc := ⟨.hbm, 140, rfl⟩
abbrev main_call5_cst : Ref sig .tc := ⟨.hbm, 141, rfl⟩
abbrev main_call5_v14 : Ref sig .tc := ⟨.hbm, 142, rfl⟩
abbrev main_v27 : Ref sig .tc := ⟨.hbm, 143, rfl⟩
abbrev main_v28 : Ref sig .tc := ⟨.hbm, 144, rfl⟩
abbrev main_v29 : Ref sig .tc := ⟨.hbm, 145, rfl⟩
abbrev main_cst_5 : Ref sig .tc := ⟨.hbm, 146, rfl⟩
abbrev main_v30 : Ref sig .tc := ⟨.hbm, 147, rfl⟩
abbrev main_cst_6 : Ref sig .tc := ⟨.hbm, 148, rfl⟩
abbrev main_v31 : Ref sig .tc := ⟨.hbm, 149, rfl⟩
abbrev main_v32 : Ref sig .tc := ⟨.hbm, 150, rfl⟩
abbrev main_v33 : Ref sig .tc := ⟨.hbm, 151, rfl⟩
abbrev main_cst_7 : Ref sig .tc := ⟨.hbm, 152, rfl⟩
abbrev main_v34 : Ref sig .tc := ⟨.hbm, 153, rfl⟩
abbrev main_v35 : Ref sig .tc := ⟨.hbm, 154, rfl⟩
abbrev main_cst_8 : Ref sig .tc := ⟨.hbm, 155, rfl⟩
abbrev main_v36 : Ref sig .tc := ⟨.hbm, 156, rfl⟩
abbrev main_v37 : Ref sig .tc := ⟨.hbm, 157, rfl⟩
abbrev main_v38 : Ref sig .tc := ⟨.hbm, 158, rfl⟩
abbrev main_cst_9 : Ref sig .tc := ⟨.hbm, 159, rfl⟩
abbrev main_v39 : Ref sig .tc := ⟨.hbm, 160, rfl⟩
abbrev main_cst_10 : Ref sig .tc := ⟨.hbm, 161, rfl⟩
abbrev main_v40 : Ref sig .tc := ⟨.hbm, 162, rfl⟩
abbrev main_call6_cst : Ref sig .tc := ⟨.hbm, 163, rfl⟩
abbrev main_call6_v0 : Ref sig .tc := ⟨.hbm, 164, rfl⟩
abbrev main_call6_cst_0 : Ref sig .tc := ⟨.hbm, 165, rfl⟩
abbrev main_call6_v1 : Ref sig .tc := ⟨.hbm, 166, rfl⟩
abbrev main_call6_v2 : Ref sig .tc := ⟨.hbm, 167, rfl⟩
abbrev main_call6_v3 : Ref sig .tc := ⟨.hbm, 168, rfl⟩
abbrev main_call6_v4 : Ref sig .tc := ⟨.hbm, 169, rfl⟩
abbrev main_call6_v5 : Ref sig .tc := ⟨.hbm, 170, rfl⟩
abbrev main_call6_v6 : Ref sig .tc := ⟨.hbm, 171, rfl⟩
abbrev main_call6_cst_1 : Ref sig .tc := ⟨.hbm, 172, rfl⟩
abbrev main_call6_v7 : Ref sig .tc := ⟨.hbm, 173, rfl⟩
abbrev main_call6_v8 : Ref sig .tc := ⟨.hbm, 174, rfl⟩
abbrev main_call6_v9 : Ref sig .tc := ⟨.hbm, 175, rfl⟩
abbrev main_call6_v10 : Ref sig .tc := ⟨.hbm, 176, rfl⟩
abbrev main_v41 : Ref sig .tc := ⟨.hbm, 177, rfl⟩
abbrev main_v42 : Ref sig .tc := ⟨.hbm, 178, rfl⟩
abbrev main_call7_c : Ref sig .tc := ⟨.hbm, 179, rfl⟩
abbrev main_call7_v0 : Ref sig .tc := ⟨.hbm, 180, rfl⟩
abbrev main_call7_v1 : Ref sig .tc := ⟨.hbm, 181, rfl⟩
abbrev main_call7_c_0 : Ref sig .tc := ⟨.hbm, 182, rfl⟩
abbrev main_call7_v2 : Ref sig .tc := ⟨.hbm, 183, rfl⟩
abbrev main_call7_v3 : Ref sig .tc := ⟨.hbm, 184, rfl⟩
abbrev main_call7_v4 : Ref sig .tc := ⟨.hbm, 185, rfl⟩
abbrev main_call7_v5 : Ref sig .tc := ⟨.hbm, 186, rfl⟩
abbrev main_call7_c_1 : Ref sig .tc := ⟨.hbm, 187, rfl⟩
abbrev main_call7_c_2 : Ref sig .tc := ⟨.hbm, 188, rfl⟩
abbrev main_call7_v6 : Ref sig .tc := ⟨.hbm, 189, rfl⟩
abbrev main_call7_v7 : Ref sig .tc := ⟨.hbm, 190, rfl⟩
abbrev main_call7_v8 : Ref sig .tc := ⟨.hbm, 191, rfl⟩
abbrev main_call7_v9 : Ref sig .tc := ⟨.hbm, 192, rfl⟩
abbrev main_call7_v10 : Ref sig .tc := ⟨.hbm, 193, rfl⟩
abbrev main_call7_v11 : Ref sig .tc := ⟨.hbm, 194, rfl⟩
abbrev main_call7_c_3 : Ref sig .tc := ⟨.hbm, 195, rfl⟩
abbrev main_call7_v12 : Ref sig .tc := ⟨.hbm, 196, rfl⟩
abbrev main_call7_v13 : Ref sig .tc := ⟨.hbm, 197, rfl⟩
abbrev main_call7_cst : Ref sig .tc := ⟨.hbm, 198, rfl⟩
abbrev main_call7_v14 : Ref sig .tc := ⟨.hbm, 199, rfl⟩
abbrev main_v43 : Ref sig .tc := ⟨.hbm, 200, rfl⟩
abbrev main_v44 : Ref sig .tc := ⟨.hbm, 201, rfl⟩
abbrev main_v45 : Ref sig .tc := ⟨.hbm, 202, rfl⟩
abbrev main_cst_11 : Ref sig .tc := ⟨.hbm, 203, rfl⟩
abbrev main_v46 : Ref sig .tc := ⟨.hbm, 204, rfl⟩
abbrev main_cst_12 : Ref sig .tc := ⟨.hbm, 205, rfl⟩
abbrev main_v47 : Ref sig .tc := ⟨.hbm, 206, rfl⟩
abbrev main_v48 : Ref sig .tc := ⟨.hbm, 207, rfl⟩
abbrev main_v49 : Ref sig .tc := ⟨.hbm, 208, rfl⟩
abbrev main_cst_13 : Ref sig .tc := ⟨.hbm, 209, rfl⟩
abbrev main_v50 : Ref sig .tc := ⟨.hbm, 210, rfl⟩
abbrev main_v51 : Ref sig .tc := ⟨.hbm, 211, rfl⟩
abbrev main_cst_14 : Ref sig .tc := ⟨.hbm, 212, rfl⟩
abbrev main_v52 : Ref sig .tc := ⟨.hbm, 213, rfl⟩
abbrev main_v53 : Ref sig .tc := ⟨.hbm, 214, rfl⟩
abbrev main_v54 : Ref sig .tc := ⟨.hbm, 215, rfl⟩
abbrev main_cst_15 : Ref sig .tc := ⟨.hbm, 216, rfl⟩
abbrev main_v55 : Ref sig .tc := ⟨.hbm, 217, rfl⟩
abbrev main_cst_16 : Ref sig .tc := ⟨.hbm, 218, rfl⟩
abbrev main_v56 : Ref sig .tc := ⟨.hbm, 219, rfl⟩
abbrev main_v57 : Ref sig .tc := ⟨.hbm, 220, rfl⟩
abbrev main_v58 : Ref sig .tc := ⟨.hbm, 221, rfl⟩
abbrev main_v59 : Ref sig .tc := ⟨.hbm, 222, rfl⟩
abbrev main_v60 : Ref sig .tc := ⟨.hbm, 223, rfl⟩
abbrev main_v61 : Ref sig .tc := ⟨.hbm, 224, rfl⟩
abbrev main_v62 : Ref sig .tc := ⟨.hbm, 225, rfl⟩
abbrev main_v63 : Ref sig .tc := ⟨.hbm, 226, rfl⟩
abbrev main_cst_17 : Ref sig .tc := ⟨.hbm, 227, rfl⟩
abbrev main_v64 : Ref sig .tc := ⟨.hbm, 228, rfl⟩
abbrev main_v65 : Ref sig .tc := ⟨.hbm, 229, rfl⟩
abbrev main_v66 : Ref sig .tc := ⟨.hbm, 230, rfl⟩
abbrev main_v67 : Ref sig .tc := ⟨.hbm, 231, rfl⟩
abbrev main_v68 : Ref sig .tc := ⟨.hbm, 232, rfl⟩
abbrev main_v69 : Ref sig .tc := ⟨.hbm, 233, rfl⟩
abbrev main_v70 : Ref sig .tc := ⟨.hbm, 234, rfl⟩
abbrev main_call8_cst : Ref sig .tc := ⟨.hbm, 235, rfl⟩
abbrev main_call8_v0 : Ref sig .tc := ⟨.hbm, 236, rfl⟩
abbrev main_v71 : Ref sig .tc := ⟨.hbm, 237, rfl⟩
abbrev main_cst_18 : Ref sig .tc := ⟨.hbm, 238, rfl⟩
abbrev main_v72 : Ref sig .tc := ⟨.hbm, 239, rfl⟩
abbrev main_cst_19 : Ref sig .tc := ⟨.hbm, 240, rfl⟩
abbrev main_v73 : Ref sig .tc := ⟨.hbm, 241, rfl⟩
abbrev main_v74 : Ref sig .tc := ⟨.hbm, 242, rfl⟩
abbrev main_v75 : Ref sig .tc := ⟨.hbm, 243, rfl⟩
abbrev main_v76 : Ref sig .tc := ⟨.hbm, 244, rfl⟩

abbrev nD : Nat := 1
abbrev τ : Topo := Topo.v7x

variable {F : FTy → Type} [FloatOps F]

class Facts₀ : Prop where
  shapeCasts_S256x6x10000_S1536x10000 : S256x6x10000.ShapeCasts S1536x10000
  bcast_S256_S256x6_0 : S256.BroadcastsInDim S256x6 (![0] : Fin 1 → Fin S256x6.rank)
  shapeCasts_S256x6_S1536 : S256x6.ShapeCasts S1536
  reducesTo_S1536x10000_S1536_d1 : S1536x10000.ReducesTo [1] S1536
  h_S_ : 0 < S_.numel
  bcast_S_S1536 : S_.BroadcastsInDim S1536 (![] : Fin 0 → Fin S1536.rank)
  bcast_S1536_S1536x1_0 : S1536.BroadcastsInDim S1536x1 (![0] : Fin 1 → Fin S1536x1.rank)
  bcast_S1536x1_S1536x10000_0_1 : S1536x1.BroadcastsInDim S1536x10000 (![0, 1] : Fin 2 → Fin S1536x10000.rank)
  bcast_S_S1536x1 : S_.BroadcastsInDim S1536x1 (![] : Fin 0 → Fin S1536x1.rank)
  shapeCasts_S1536x1_S1536x1x1 : S1536x1.ShapeCasts S1536x1x1
  bcast_S_S1536x1x1 : S_.BroadcastsInDim S1536x1x1 (![] : Fin 0 → Fin S1536x1x1.rank)
  bcast_S1_S1x1x1_2 : S1.BroadcastsInDim S1x1x1 (![2] : Fin 1 → Fin S1x1x1.rank)
  bcast_S1x1x1_S1536x1x1_0_1_2 : S1x1x1.BroadcastsInDim S1536x1x1 (![0, 1, 2] : Fin 3 → Fin S1536x1x1.rank)
  reducesTo_S1536x1x1_S1536x1_d2 : S1536x1x1.ReducesTo [2] S1536x1
  shapeCasts_S1536x1_S1536 : S1536x1.ShapeCasts S1536
  shapeCasts_S1536_S256x6 : S1536.ShapeCasts S256x6
  reducesTo_S256x10000_S256_d1 : S256x10000.ReducesTo [1] S256
  bcast_S_S256 : S_.BroadcastsInDim S256 (![] : Fin 0 → Fin S256.rank)
  bcast_S256_S256x1_0 : S256.BroadcastsInDim S256x1 (![0] : Fin 1 → Fin S256x1.rank)
  bcast_S256x1_S256x10000_0_1 : S256x1.BroadcastsInDim S256x10000 (![0, 1] : Fin 2 → Fin S256x10000.rank)
  bcast_S_S256x1 : S_.BroadcastsInDim S256x1 (![] : Fin 0 → Fin S256x1.rank)
  shapeCasts_S256x1_S256x1x1 : S256x1.ShapeCasts S256x1x1
  bcast_S_S256x1x1 : S_.BroadcastsInDim S256x1x1 (![] : Fin 0 → Fin S256x1x1.rank)
  bcast_S1x1x1_S256x1x1_0_1_2 : S1x1x1.BroadcastsInDim S256x1x1 (![0, 1, 2] : Fin 3 → Fin S256x1x1.rank)
  reducesTo_S256x1x1_S256x1_d2 : S256x1x1.ReducesTo [2] S256x1
  shapeCasts_S256x1_S256 : S256x1.ShapeCasts S256
  reducesTo_S256_S_d0 : S256.ReducesTo [0] S_
  reducesTo_S1536_S_d0 : S1536.ReducesTo [0] S_
  bcast_S256x6_S256x1x6_0_2 : S256x6.BroadcastsInDim S256x1x6 (![0, 2] : Fin 2 → Fin S256x1x6.rank)
  bcast_S256x6_S256x6x1_0_1 : S256x6.BroadcastsInDim S256x6x1 (![0, 1] : Fin 2 → Fin S256x6x1.rank)
  bcast_S256x1x6_S256x6x6_0_1_2 : S256x1x6.BroadcastsInDim S256x6x6 (![0, 1, 2] : Fin 3 → Fin S256x6x6.rank)
  bcast_S256x6x1_S256x6x6_0_1_2 : S256x6x1.BroadcastsInDim S256x6x6 (![0, 1, 2] : Fin 3 → Fin S256x6x6.rank)
  bcast_S_S256x6x1 : S_.BroadcastsInDim S256x6x1 (![] : Fin 0 → Fin S256x6x1.rank)
  bcast_S_S256x6x6 : S_.BroadcastsInDim S256x6x6 (![] : Fin 0 → Fin S256x6x6.rank)
  reducesTo_S256x6x6_S_d0_1_2 : S256x6x6.ReducesTo [0, 1, 2] S_
  gather_S1536x10000_S1536x1x1_S1536x1_n_1_0_0_1_2_11_wf : GatherDims.WF S1536x10000 S1536x1x1 S1536x1 [] [1] [0] [1] [0] 2 ![1, 1]
  gather_S256x10000_S256x1x1_S256x1_n_1_0_0_1_2_11_wf : GatherDims.WF S256x10000 S256x1x1 S256x1 [] [1] [0] [1] [0] 2 ![1, 1]

variable [Facts₀]

def gather_S1536x10000_S1536x1x1_S1536x1_n_1_0_0_1_2_11 : GatherDims S1536x10000 S1536x1x1 S1536x1 where
  offsetDims := []
  collapsedSliceDims := [1]
  operandBatchingDims := [0]
  startIndicesBatchingDims := [0]
  startIndexMap := [1]
  indexVectorDim := 2
  sliceSizes := ![1, 1]
  wf := gather_S1536x10000_S1536x1x1_S1536x1_n_1_0_0_1_2_11_wf
def gather_S256x10000_S256x1x1_S256x1_n_1_0_0_1_2_11 : GatherDims S256x10000 S256x1x1 S256x1 where
  offsetDims := []
  collapsedSliceDims := [1]
  operandBatchingDims := [0]
  startIndicesBatchingDims := [0]
  startIndexMap := [1]
  indexVectorDim := 2
  sliceSizes := ![1, 1]
  wf := gather_S256x10000_S256x1x1_S256x1_n_1_0_0_1_2_11_wf

class Facts : Prop extends Facts₀ where

variable [Facts]
-- ==== Proof.Spec.lean ====
/-
  The mathematics of one row.  For a row x of 10000 extended reals, with M = max_k x_k and S = Σ_k exp(x_k − M):
    the kernel's statistics     nllK x t  = (log S + M) − x_t            smoothK x = (log S + M) − (Σ_k x_k)·(1/10000)
    the reference's statistics  nllR x t  = −((x_t − M) − log S)         smoothR x = −((Σ_k ((x_k − M) − log S)) / 10000)
  The reference takes the log-softmax row first and then reads one entry, or averages the row; the kernel never forms
  that row.  On a row of finite reals M is a real, S is a positive real, log S is a real, and both pairs agree by
  arithmetic in ℝ (for the smoothing term: Σ_k ((x_k − M) − log S) = Σ_k x_k − 10000·M − 10000·log S).  On rows with
  an infinite entry the subtractions are not cancellable, which is why finiteness is assumed.
-/
import Idealize.ShloMosaic.PureOps.Ideal
import Idealize.ShloMosaic.Lib.ValueIdx

noncomputable section

namespace Cert.NTS

open Idealize.ShloMosaic Idealize.ShloMosaic.ValueIdx

/-- One row of logits. -/
abbrev Row := Fin 10000 → EReal

/-- The row's maximum, as both programs take it: the fold of `max` from −∞. -/
def rowMax (x : Row) : EReal := (Finset.univ : Finset (Fin 10000)).fold max (⊥ : EReal) x

/-- The sum of the shifted exponentials. -/
def sumExp (x : Row) : EReal := ∑ k : Fin 10000, Ideal.exp (x k - rowMax x)

/-- The kernel's log-sum-exp: the logarithm of the shifted sum, with the shift added back. -/
def lse (x : Row) : EReal := Ideal.log (sumExp x) + rowMax x

/-- The kernel's negative log-likelihood of class `t`. -/
def nllK (x : Row) (t : Fin 10000) : EReal := lse x - x t

/-- The kernel's label-smoothing term: log-sum-exp minus the row's mean, the mean taken as a product with 1/10000. -/
def smoothK (x : Row) : EReal := lse x - (∑ k : Fin 10000, x k) * ((1 / 10000 : ℝ) : EReal)

/-- The reference's negative log-likelihood: minus the log-softmax row's entry `t`. -/
def nllR (x : Row) (t : Fin 10000) : EReal := -((x t - rowMax x) - Ideal.log (sumExp x))

/-- The reference's label-smoothing term: minus the log-softmax row's mean, the host sum starting from 0 and the mean a
    quotient by 10000. -/
def smoothR (x : Row) : EReal :=
  -(Ideal.div (0 + ∑ k : Fin 10000, ((x k - rowMax x) - Ideal.log (sumExp x))) ((10000 : ℝ) : EReal))

/-- Every entry of the row is a real number. -/
def Finite (x : Row) : Prop := ∀ k, ∃ r : ℝ, x k = (r : EReal)

/-- A finite sum of coerced reals is the coerced real sum. -/
theorem coe_sum {ι : Type*} (s : Finset ι) (f : ι → ℝ) :
    (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- On a row of reals the maximum is a real: it is at least the entry 0 (so not −∞) and every entry is below +∞ (so
    the fold of `max` from −∞ is below +∞). -/
theorem rowMax_real (x : Row) (hx : Finite x) : ∃ M : ℝ, rowMax x = (M : EReal) := by
  have hbot : rowMax x ≠ ⊥ := by
    obtain ⟨r0, h0⟩ := hx 0
    have hle : x 0 ≤ rowMax x := (Finset.le_fold_max _).2 (Or.inr ⟨0, Finset.mem_univ _, le_rfl⟩)
    intro h
    rw [h, h0] at hle
    exact absurd hle (not_le.2 (EReal.bot_lt_coe r0))
  have htop : rowMax x ≠ ⊤ := by
    have hlt : rowMax x < ⊤ := (Finset.fold_max_lt _).2 ⟨bot_lt_top, fun k _ => by
      obtain ⟨rk, hk⟩ := hx k
      rw [hk]; exact EReal.coe_lt_top rk⟩
    exact ne_of_lt hlt
  exact ⟨(rowMax x).toReal, (EReal.coe_toReal htop hbot).symm⟩

/-- On a row of reals `r` with maximum `M`, the shifted sum is the positive real Σ_k exp(r_k − M) and its logarithm is
    the real logarithm. -/
theorem log_sumExp_real (x : Row) (r : Fin 10000 → ℝ) (M : ℝ) (hr : ∀ k, x k = (r k : EReal))
    (hM : rowMax x = (M : EReal)) :
    Ideal.log (sumExp x) = ((Real.log (∑ k : Fin 10000, Real.exp (r k - M)) : ℝ) : EReal) := by
  have hS : sumExp x = ((∑ k : Fin 10000, Real.exp (r k - M) : ℝ) : EReal) := by
    unfold sumExp
    rw [← coe_sum]
    refine Finset.sum_congr rfl (fun k _ => ?_)
    rw [hr k, hM, ← EReal.coe_sub, Ideal.exp_coe]
  have hpos : 0 < ∑ k : Fin 10000, Real.exp (r k - M) :=
    Finset.sum_pos (fun k _ => Real.exp_pos _) Finset.univ_nonempty
  rw [hS, Ideal.log_coe, if_neg (not_le.2 hpos)]

theorem nll_eq (x : Row) (hx : Finite x) (t : Fin 10000) : nllK x t = nllR x t := by
  obtain ⟨M, hM⟩ := rowMax_real x hx
  choose r hr using hx
  unfold nllK nllR lse
  rw [log_sumExp_real x r M hr hM, hM, hr t]
  norm_cast
  ring

theorem smooth_eq (x : Row) (hx : Finite x) : smoothK x = smoothR x := by
  obtain ⟨M, hM⟩ := rowMax_real x hx
  choose r hr using hx
  unfold smoothK smoothR lse
  rw [log_sumExp_real x r M hr hM, hM, Ideal.div_coe (by norm_num : (10000 : ℝ) ≠ 0)]
  have h1 : (∑ k : Fin 10000, x k) = ((∑ k : Fin 10000, r k : ℝ) : EReal) := by
    rw [← coe_sum]; exact Finset.sum_congr rfl (fun k _ => hr k)
  have h2 : (∑ k : Fin 10000, ((x k - (M : EReal)) - ((Real.log (∑ j : Fin 10000, Real.exp (r j - M)) : ℝ) : EReal)))
      = ((∑ k : Fin 10000, ((r k - M) - Real.log (∑ j : Fin 10000, Real.exp (r j - M))) : ℝ) : EReal) := by
    rw [← coe_sum]
    refine Finset.sum_congr rfl (fun k _ => ?_)
    rw [hr k, ← EReal.coe_sub, ← EReal.coe_sub]
  rw [h1, h2]
  norm_cast
  rw [Finset.sum_sub_distrib, Finset.sum_sub_distrib, Finset.sum_const, Finset.sum_const, Finset.card_univ,
    Fintype.card_fin]
  simp only [nsmul_eq_mul]
  push_cast
  ring

/-! ## Rows of the argument arrays, and a target word as a class -/

/-- Row `j` of an N × 10000 array. -/
def rowOf {N : ℕ} (X : (⟨2, ![N, 10000]⟩ : Shape).Idx → EReal) (j : Fin N) : Row := fun k => X (ix2 j k)

/-- Row `j` (of 1536) of the 256 × 6 × 10000 array flattened to 1536 × 10000: batch `j / 6`, proposal `j % 6`. -/
def partRow (X : (⟨3, ![256, 6, 10000]⟩ : Shape).Idx → EReal) (j : Fin 1536) : Row :=
  fun k => X (ix3 (⟨j.val / 6, by have := j.isLt; omega⟩ : Fin 256) (⟨j.val % 6, Nat.mod_lt _ (by norm_num)⟩ : Fin 6) k)

/-- A 32-bit target word as a class index (words below 10000 are their own value). -/
def tgtOf (v : BitVec 32) : Fin 10000 := ⟨v.toNat % 10000, Nat.mod_lt _ (by norm_num)⟩

/-- The class of batch row `b`. -/
def tgt (T : (⟨1, ![256]⟩ : Shape).Idx → BitVec 32) (b : Fin 256) : Fin 10000 := tgtOf (T (ix1 b))

/-- The class of flattened part row `j`: its batch row's. -/
def tgtPart (T : (⟨1, ![256]⟩ : Shape).Idx → BitVec 32) (j : Fin 1536) : Fin 10000 :=
  tgt T (⟨j.val / 6, by have := j.isLt; omega⟩ : Fin 256)

end Cert.NTS

end
-- ==== Proof.Tail.lean ====
/-
  The common last stretch of both programs.  Each program first produces six vectors — the per-row negative
  log-likelihood and the per-row label-smoothing term of the raw logits (256 rows), of the concat logits (256 rows)
  and of the flattened part logits (1536 rows) — and then both do the same arithmetic on them:
    loss(n, s)  = (Σ_i (0.9·n_i + 0.1·s_i)) / N                       (N = 256 or 1536)
    rank(p, q)  = (Σ_{b,i,j} max(((1 − q_{b,i}) + q_{b,j}) · [p_{b,j} > p_{b,i}], 0)) / 256
    result      = ((loss(n_raw, s_raw) + rank(p, top_n_prob)) + loss(n_cat, s_cat)) + loss(n_part, s_part)
  where p is the part rows' negative log-likelihood re-laid as 256 × 6.  The definition below is that arithmetic,
  operation for operation as both programs print it, so that each program's result is `tail` of its own six
  vectors by unfolding alone, and the comparison of the two programs reduces to the six vectors.
-/
import proofs.«430306_j64080912056667_3_alg».proof.ReferenceIdeal
import proofs.«430306_j64080912056667_3_alg».proof.Proof.Gen.ReferenceIdeal
import Idealize.ShloMosaic.PureOps.Ideal

noncomputable section

namespace Cert.ReferenceIdeal.Tail

open Cert.ReferenceIdeal Cert.ReferenceIdeal.Gen Idealize.ShloMosaic Idealize.ShloMosaic.TcCoe Idealize.SL.Sem Idealize.ShloMosaic.StableHlo

/-- The label-smoothed cross-entropy of 256 rows from their two statistics: the mean of `0.9·n + 0.1·s`. -/
def loss256 (n s : FVec Ideal S256 .f32) : FVec Ideal S_ .f32 :=
  Host.divf
    (Host.reduceAdd
      (addf (mulf (broadcastInDim S256 ![] bcast_S_S256 (constant (F := Ideal) S_ .f32 0x3F666666#32)) n)
            (mulf (broadcastInDim S256 ![] bcast_S_S256 (constant (F := Ideal) S_ .f32 0x3DCCCCCD#32)) s))
      (constant (F := Ideal) S_ .f32 0x00000000#32) reducesTo_S256_S_d0 h_S_)
    (constant (F := Ideal) S_ .f32 0x43800000#32)

/-- The same of 1536 rows. -/
def loss1536 (n s : FVec Ideal S1536 .f32) : FVec Ideal S_ .f32 :=
  Host.divf
    (Host.reduceAdd
      (addf (mulf (broadcastInDim S1536 ![] bcast_S_S1536 (constant (F := Ideal) S_ .f32 0x3F666666#32)) n)
            (mulf (broadcastInDim S1536 ![] bcast_S_S1536 (constant (F := Ideal) S_ .f32 0x3DCCCCCD#32)) s))
      (constant (F := Ideal) S_ .f32 0x00000000#32) reducesTo_S1536_S_d0 h_S_)
    (constant (F := Ideal) S_ .f32 0x44C00000#32)

/-- The pairwise ranking hinge over the six proposals of each of the 256 rows: `p` the 1536 part rows' negative
    log-likelihoods (re-laid 256 × 6 inside), `q` the proposals' scores. -/
def rank (p : FVec Ideal S1536 .f32) (q : FVec Ideal S256x6 .f32) : FVec Ideal S_ .f32 :=
  Host.divf
    (Host.reduceAdd
      (maximumf
        (mulf
          (addf
            (broadcastInDim S256x6x6 ![0, 1, 2] bcast_S256x6x1_S256x6x6_0_1_2
              (subf (broadcastInDim S256x6x1 ![] bcast_S_S256x6x1 (constant (F := Ideal) S_ .f32 0x3F800000#32))
                    (broadcastInDim S256x6x1 ![0, 1] bcast_S256x6_S256x6x1_0_1 q)))
            (broadcastInDim S256x6x6 ![0, 1, 2] bcast_S256x1x6_S256x6x6_0_1_2
              (broadcastInDim S256x1x6 ![0, 2] bcast_S256x6_S256x1x6_0_2 q)))
          (uitofp .f32
            (cmpf .ogt
              (broadcastInDim S256x6x6 ![0, 1, 2] bcast_S256x1x6_S256x6x6_0_1_2
                (broadcastInDim S256x1x6 ![0, 2] bcast_S256x6_S256x1x6_0_2 (shapeCast S256x6 p shapeCasts_S1536_S256x6)))
              (broadcastInDim S256x6x6 ![0, 1, 2] bcast_S256x6x1_S256x6x6_0_1_2
                (broadcastInDim S256x6x1 ![0, 1] bcast_S256x6_S256x6x1_0_1 (shapeCast S256x6 p shapeCasts_S1536_S256x6))))))
        (broadcastInDim S256x6x6 ![] bcast_S_S256x6x6 (constant (F := Ideal) S_ .f32 0x00000000#32)))
      (constant (F := Ideal) S_ .f32 0x00000000#32) reducesTo_S256x6x6_S_d0_1_2 h_S_)
    (constant (F := Ideal) S_ .f32 0x43800000#32)

/-- The result from the six statistics vectors, the part rows' negative log-likelihoods a second time (the ranking
    term reads them) and the proposals' scores. -/
def tail (nRaw sRaw nCat sCat : FVec Ideal S256 .f32) (nPart sPart pPart : FVec Ideal S1536 .f32)
    (q : FVec Ideal S256x6 .f32) : FVec Ideal S_ .f32 :=
  addf (addf (addf (loss256 nRaw sRaw) (rank pPart q)) (loss256 nCat sCat)) (loss1536 nPart sPart)

end Cert.ReferenceIdeal.Tail

end
-- ==== Proof.KPayload.lean ====
/-
  The three stored values of the two kernel bodies, read entry by entry.  Each body takes a 128 × 10000 block of
  logits and the 128 target words of its rows and stores a 2 × 128 block: entry (0, j) is row j's negative
  log-likelihood (log-sum-exp minus the target entry, the target entry picked out as the sum of the row masked by
  "column = target"), entry (1, j) is row j's label-smoothing term (log-sum-exp minus the row sum times the named
  1/10000).  The body builds the two columns as 128 × 1 vectors, joins them into 128 × 2 and transposes.
-/
import proofs.«430306_j64080912056667_3_alg».proof.Proof.Gen.KernelIdeal.Skeleton
import proofs.«430306_j64080912056667_3_alg».proof.Proof.Spec
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Cert.NTS Idealize.ShloMosaic Idealize.ShloMosaic.ValueIdx

/-- Row `j` of a 128 × 10000 block. -/
def brow (x : Vec Ideal S128x10000 .f32) (j : Fin 128) : Row := fun k => x (ix2 j k)

/-! ## The layout operations of the body, read at an entry -/

section Layout
variable {α : Type}

/-- The transposed 2 × 128 block at (r, j) is the 128 × 2 block at (j, r). -/
theorem tr_apply (v : S128x2.Idx → α) (r : Fin 2) (j : Fin 128) :
    transpose S2x128 [1, 0] v transposes_S128x2_p1_0_S2x128 (ix2 r j) = v (ix2 j r) :=
  transpose_ix2_apply v transposes_S128x2_p1_0_S2x128 r j

/-- Two columns joined side by side: column 0 of the result is the first column. -/
theorem cat_apply0 (a b : S128x1.Idx → α) (j : Fin 128) :
    concatenate S128x2 1 [⟨S128x1, a⟩, ⟨S128x1, b⟩] concatenates_S128x1_S128x1_S128x2_d1 (ix2 j (0 : Fin 2))
      = a (ix2 j (0 : Fin 1)) :=
  concatenate_pair_apply_left 1 a b concatenates_S128x1_S128x1_S128x2_d1 (ix2 j (0 : Fin 2)) rfl (ix2 j (0 : Fin 1))
    fun c => match c with | ⟨0, _⟩ => rfl | ⟨1, _⟩ => rfl

/-- … and column 1 of the result is the second column. -/
theorem cat_apply1 (a b : S128x1.Idx → α) (j : Fin 128) :
    concatenate S128x2 1 [⟨S128x1, a⟩, ⟨S128x1, b⟩] concatenates_S128x1_S128x1_S128x2_d1 (ix2 j (1 : Fin 2))
      = b (ix2 j (0 : Fin 1)) :=
  concatenate_pair_apply_right 1 a b concatenates_S128x1_S128x1_S128x2_d1 (ix2 j (1 : Fin 2)) rfl rfl (ix2 j (0 : Fin 1))
    (fun c => match c with | ⟨0, _⟩ => fun _ => rfl | ⟨1, _⟩ => fun h => absurd rfl h) rfl

/-- A 128-vector viewed as a 128 × 1 column: entry (j, 0) is entry j (both sit at row-major position j). -/
theorem col_apply (v : S128.Idx → α) (j : Fin 128) :
    shapeCast S128x1 v shapeCasts_S128_S128x1 (ix2 j (0 : Fin 1)) = v (ix1 j) :=
  shapeCast_apply v shapeCasts_S128_S128x1 _ _ (by
    rw [Shape.rowMajor_val_two, Shape.rowMajor_val_one]
    show j.val = j.val * 1 + 0
    omega)

/-- A 128 × 1 column spread over the 10000 columns: entry (j, k) is the column's entry (j, 0). -/
theorem spread_apply (v : S128x1.Idx → α) (j : Fin 128) (k : Fin 10000) :
    broadcastTo S128x10000 v broadcasts_S128x1_S128x10000 (ix2 j k) = v (ix2 j (0 : Fin 1)) :=
  broadcastTo_apply v broadcasts_S128x1_S128x10000 (ix2 j k) (ix2 j (0 : Fin 1)) fun a =>
    match a with | ⟨0, _⟩ => rfl | ⟨1, _⟩ => rfl

end Layout

/-! ## The reductions along a row -/

/-- The index a reduction along the columns reads: row j with column k put back. -/
theorem lift_eq (j : Fin 128) (k : Fin 10000) :
    reduces_S128x10000_S128.lift (ix1 j) k = ix2 j k :=
  funext fun a => Fin.ext (match a with | ⟨0, _⟩ => rfl | ⟨1, _⟩ => rfl)

/-- A sum along the columns, at row j: the sum of the row's 10000 entries. -/
theorem rowSum_apply (v : FVec Ideal S128x10000 .f32) (hφ : FKind.Formats .f32)
    (hacc : (0x00000000#32 : BitVec 32) = FKind.add.neutral .f32 hφ) (j : Fin 128) :
    multiReduction (F := Ideal) .add [1] S128 v 0x00000000#32 reduces_S128x10000_S128 hφ hacc (ix1 j)
      = ∑ k : Fin 10000, v (ix2 j k) :=
  (Ideal.multiReduction_add_single v _ reduces_S128x10000_S128 hφ hacc (ix1 j)).trans
    (Finset.sum_congr rfl fun k _ => congrArg v (lift_eq j k))

/-- The word the maximum starts from denotes −∞. -/
theorem negInf_word : Ideal.ofBits .f32 0xFF800000#32 = (⊥ : EReal) := by
  simp [Ideal.ofBits, Ideal.ieee]

/-- A maximum along the columns, at row j: the fold of `max` from −∞ over the row's 10000 entries. -/
theorem rowMax_apply (v : FVec Ideal S128x10000 .f32) (hφ : FKind.Formats .f32)
    (hacc : (0xFF800000#32 : BitVec 32) = FKind.maximumf.neutral .f32 hφ) (j : Fin 128) :
    multiReduction (F := Ideal) .maximumf [1] S128 v 0xFF800000#32 reduces_S128x10000_S128 hφ hacc (ix1 j)
      = (Finset.univ : Finset (Fin 10000)).fold max (⊥ : EReal) (fun k => v (ix2 j k)) := by
  refine (Ideal.multiReduction_maximumf_single v _ reduces_S128x10000_S128 hφ hacc (ix1 j)).trans ?_
  have e : (v ∘ reduces_S128x10000_S128.lift (ix1 j)) = fun k : Fin 10000 => v (ix2 j k) :=
    funext fun k => congrArg v (lift_eq j k)
  rw [e]
  show Finset.fold max (Ideal.ofBits .f32 0xFF800000#32) _ _ = _
  rw [negInf_word]
  rfl

/-- The named constant is the rational 1/10000. -/
theorem inv_named : Named.named (F := Ideal) κ "inv_10000" (φ := .f32) 0x38D1B717#32 = ((1 / 10000 : ℝ) : EReal) :=
  IdealRules.named_const.ideal_named_scalar _ _ _ _ rfl

/-- The zero word denotes 0. -/
theorem zero_word : (Scalar.ofBits (F := Ideal) .f32 0x00000000#32 : EReal) = 0 := Ideal.ofBits_zero_f32

/-! ## The target entry as a masked row sum -/

/-- Entry (j, k) of the column counter is the word of k. -/
theorem colIota_apply (j : Fin 128) (k : Fin 10000) :
    iota .tc S128x10000 32 [1] iota_S128x10000_d1_w32 (ix2 j k) = BitVec.ofNat 32 k.val :=
  iota_single_apply .tc S128x10000 32 1 iota_S128x10000_d1_w32 (ix2 j k)

/-- A target word below 10000 equals the word of column k exactly when k is its class: both are below 2³², so the
    words are equal when the numbers are. -/
theorem word_eq_iff (v : BitVec 32) (hv : v.toNat < 10000) (k : Fin 10000) :
    BitVec.ofNat 32 k.val = v ↔ k = tgtOf v := by
  have hk := k.isLt
  constructor
  · intro e
    have h1 := congrArg BitVec.toNat e
    rw [BitVec.toNat_ofNat, Nat.mod_eq_of_lt (by omega)] at h1
    apply Fin.ext
    show k.val = v.toNat % 10000
    rw [Nat.mod_eq_of_lt hv]; exact h1
  · intro e
    apply BitVec.eq_of_toNat_eq
    rw [BitVec.toNat_ofNat, e]
    show (v.toNat % 10000) % 2 ^ 32 = v.toNat
    rw [Nat.mod_eq_of_lt hv]; exact Nat.mod_eq_of_lt v.isLt

/-- The equality test of two words, as a one-bit word. -/
theorem cmpi_eq_word (a b : BitVec 32) : IntOp.cmpi .eq a b = if a = b then 1#1 else 0#1 := by
  unfold IntOp.cmpi
  by_cases e : a = b
  · rw [if_pos e]; subst e
    show BitVec.ofBool (a == a) = 1#1
    rw [beq_self_eq_true]; rfl
  · rw [if_neg e]
    show BitVec.ofBool (a == b) = 0#1
    rw [beq_eq_false_iff_ne.2 e]; rfl

/-- The masked block: the logits where the column is the row's target, 0 elsewhere. -/
def masked (t : IVec S128x1 32) (x : FVec Ideal S128x10000 .f32) : FVec Ideal S128x10000 .f32 :=
  select (cmpi .eq (iota .tc S128x10000 32 [1] iota_S128x10000_d1_w32)
      (broadcastTo S128x10000 t broadcasts_S128x1_S128x10000)) x
    (broadcast S128x10000 (Scalar.ofBits (F := Ideal) .f32 0x00000000#32))

/-- Entry (j, k) of the masked block. -/
theorem masked_apply (t : IVec S128x1 32) (x : FVec Ideal S128x10000 .f32) (j : Fin 128)
    (h : (t (ix2 j (0 : Fin 1))).toNat < 10000) (k : Fin 10000) :
    masked t x (ix2 j k) = if k = tgtOf (t (ix2 j (0 : Fin 1))) then x (ix2 j k) else 0 := by
  show Scalar.select (IntOp.cmpi .eq (iota .tc S128x10000 32 [1] iota_S128x10000_d1_w32 (ix2 j k))
      (broadcastTo S128x10000 t broadcasts_S128x1_S128x10000 (ix2 j k))) (x (ix2 j k))
      (Scalar.ofBits (F := Ideal) .f32 0x00000000#32) = _
  rw [colIota_apply, spread_apply, zero_word, cmpi_eq_word]
  by_cases e : k = tgtOf (t (ix2 j (0 : Fin 1)))
  · rw [if_pos e, if_pos ((word_eq_iff _ h k).2 e)]; exact select_one _ _
  · rw [if_neg e, if_neg (fun e' => e ((word_eq_iff _ h k).1 e'))]; exact select_zero _ _

/-- The row sum of the masked block is the row's target entry. -/
theorem masked_sum (t : IVec S128x1 32) (x : FVec Ideal S128x10000 .f32) (j : Fin 128)
    (h : (t (ix2 j (0 : Fin 1))).toNat < 10000) :
    ∑ k : Fin 10000, masked t x (ix2 j k) = x (ix2 j (tgtOf (t (ix2 j (0 : Fin 1))))) := by
  rw [Finset.sum_congr rfl fun k _ => masked_apply t x j h k]
  rw [Finset.sum_ite_eq' Finset.univ (tgtOf (t (ix2 j (0 : Fin 1)))) fun k => x (ix2 j k)]
  rw [if_pos (Finset.mem_univ _)]

/-! ## The columns of the body -/

/-- The column of row maxima. -/
def maxCol (x : FVec Ideal S128x10000 .f32) : FVec Ideal S128x1 .f32 :=
  shapeCast S128x1 (multiReduction (F := Ideal) .maximumf [1] S128 x 0xFF800000#32 reduces_S128x10000_S128 (.inl rfl) rfl)
    shapeCasts_S128_S128x1

theorem maxCol_apply (x : FVec Ideal S128x10000 .f32) (j : Fin 128) :
    maxCol x (ix2 j (0 : Fin 1)) = rowMax (brow x j) :=
  (col_apply _ j).trans (rowMax_apply x _ _ j)

/-- The block of exponentials of the logits shifted by their row's maximum. -/
def expBlock (x : FVec Ideal S128x10000 .f32) : FVec Ideal S128x10000 .f32 :=
  exp (subf x (broadcastTo S128x10000 (maxCol x) broadcasts_S128x1_S128x10000))

theorem expBlock_apply (x : FVec Ideal S128x10000 .f32) (j : Fin 128) (k : Fin 10000) :
    expBlock x (ix2 j k) = Ideal.exp (brow x j k - rowMax (brow x j)) := by
  show Ideal.exp (x (ix2 j k) - broadcastTo S128x10000 (maxCol x) broadcasts_S128x1_S128x10000 (ix2 j k)) = _
  rw [spread_apply, maxCol_apply]
  rfl

/-- The log-sum-exp column: the logarithm of the row sums of the shifted exponentials, the maxima added back. -/
def lseCol (x : FVec Ideal S128x10000 .f32) : FVec Ideal S128x1 .f32 :=
  addf (log (shapeCast S128x1
      (multiReduction (F := Ideal) .add [1] S128 (expBlock x) 0x00000000#32 reduces_S128x10000_S128 (.inl rfl) rfl)
      shapeCasts_S128_S128x1)) (maxCol x)

theorem lseCol_apply (x : FVec Ideal S128x10000 .f32) (j : Fin 128) :
    lseCol x (ix2 j (0 : Fin 1)) = lse (brow x j) := by
  have h1 : shapeCast S128x1
      (multiReduction (F := Ideal) .add [1] S128 (expBlock x) 0x00000000#32 reduces_S128x10000_S128 (.inl rfl) rfl)
      shapeCasts_S128_S128x1 (ix2 j (0 : Fin 1)) = sumExp (brow x j) :=
    ((col_apply _ j).trans (rowSum_apply (expBlock x) _ _ j)).trans
      (Finset.sum_congr rfl fun k _ => expBlock_apply x j k)
  exact congrArg₂ (fun a b : EReal => Ideal.log a + b) h1 (maxCol_apply x j)

/-- The column of row sums. -/
def sumCol (x : FVec Ideal S128x10000 .f32) : FVec Ideal S128x1 .f32 :=
  shapeCast S128x1 (multiReduction (F := Ideal) .add [1] S128 x 0x00000000#32 reduces_S128x10000_S128 (.inl rfl) rfl)
    shapeCasts_S128_S128x1

theorem sumCol_apply (x : FVec Ideal S128x10000 .f32) (j : Fin 128) :
    sumCol x (ix2 j (0 : Fin 1)) = ∑ k : Fin 10000, brow x j k :=
  (col_apply _ j).trans (rowSum_apply x _ _ j)

/-- The column of target entries: the row sums of the masked block. -/
def tgtCol (t : IVec S128x1 32) (x : FVec Ideal S128x10000 .f32) : FVec Ideal S128x1 .f32 :=
  shapeCast S128x1
    (multiReduction (F := Ideal) .add [1] S128 (masked t x) 0x00000000#32 reduces_S128x10000_S128 (.inl rfl) rfl)
    shapeCasts_S128_S128x1

theorem tgtCol_apply (t : IVec S128x1 32) (x : FVec Ideal S128x10000 .f32) (j : Fin 128)
    (h : (t (ix2 j (0 : Fin 1))).toNat < 10000) :
    tgtCol t x (ix2 j (0 : Fin 1)) = brow x j (tgtOf (t (ix2 j (0 : Fin 1)))) :=
  ((col_apply _ j).trans (rowSum_apply _ _ _ j)).trans (masked_sum t x j h)

/-- The stored block from a log-sum-exp column `L`, a target-entry column `T`, a row-sum column `S` and a scale `c`:
    the columns `L − T` and `L − S·c` side by side, transposed. -/
def outBlock (L T S : FVec Ideal S128x1 .f32) (c : EReal) : FVec Ideal S2x128 .f32 :=
  transpose S2x128 [1, 0]
    (concatenate S128x2 1 [⟨S128x1, subf L T⟩, ⟨S128x1, subf L (mulf S (broadcast S128x1 c))⟩]
      concatenates_S128x1_S128x1_S128x2_d1) transposes_S128x2_p1_0_S2x128

theorem outBlock_apply0 (L T S : FVec Ideal S128x1 .f32) (c : EReal) (j : Fin 128) :
    outBlock L T S c (ix2 (0 : Fin 2) j) = L (ix2 j (0 : Fin 1)) - T (ix2 j (0 : Fin 1)) :=
  (tr_apply _ 0 j).trans (cat_apply0 _ _ j)

theorem outBlock_apply1 (L T S : FVec Ideal S128x1 .f32) (c : EReal) (j : Fin 128) :
    outBlock L T S c (ix2 (1 : Fin 2) j) = L (ix2 j (0 : Fin 1)) - S (ix2 j (0 : Fin 1)) * c :=
  (tr_apply _ 1 j).trans (cat_apply1 _ _ j)

/-- The negative log-likelihood entry of a stored block. -/
theorem outBlock_nll (t : IVec S128x1 32) (x : FVec Ideal S128x10000 .f32) (S : FVec Ideal S128x1 .f32) (c : EReal)
    (j : Fin 128) (h : (t (ix2 j (0 : Fin 1))).toNat < 10000) :
    outBlock (lseCol x) (tgtCol t x) S c (ix2 (0 : Fin 2) j) = nllK (brow x j) (tgtOf (t (ix2 j (0 : Fin 1)))) := by
  rw [outBlock_apply0, lseCol_apply, tgtCol_apply t x j h]
  rfl

/-- The label-smoothing entry of a stored block. -/
theorem outBlock_smooth (T : FVec Ideal S128x1 .f32) (x : FVec Ideal S128x10000 .f32) (j : Fin 128) :
    outBlock (lseCol x) T (sumCol x) (Named.named (F := Ideal) κ "inv_10000" (φ := .f32) 0x38D1B717#32) (ix2 (1 : Fin 2) j)
      = smoothK (brow x j) := by
  rw [outBlock_apply1, lseCol_apply, sumCol_apply, inv_named]
  rfl

/-! ## The payloads are such blocks -/

/-- The target words pass through a cast to their own shape. -/
theorem pay2_eq (idx : Vec Ideal S128x1 .i32) : k0_pay2 (F := Ideal) idx = idx := shapeCast_self idx _

theorem pay4_eq (x : Vec Ideal S128x10000 .f32) : k0_pay4 (F := Ideal) x = lseCol x := rfl

theorem pay5_eq (x : Vec Ideal S128x10000 .f32) : k0_pay5 (F := Ideal) x = sumCol x := rfl

theorem pay3_eq (idx : Vec Ideal S128x1 .i32) (x : Vec Ideal S128x10000 .f32) :
    k0_pay3 (F := Ideal) idx x
      = outBlock (lseCol x) (tgtCol (k0_pay2 (F := Ideal) idx) x) (sumCol x)
          (Named.named (F := Ideal) κ "inv_10000" (φ := .f32) 0x38D1B717#32) := rfl

theorem pay1_eq (t : IVec S128x1 32) (x : Vec Ideal S128x10000 .f32) (L S : FVec Ideal S128x1 .f32) (c : EReal) :
    k0_pay1 (F := Ideal) t x L S c = outBlock L (tgtCol t x) S c := rfl

/-- The one-input body casts its block and its target words to their own shapes and then does as the two-input
    body does with its first block. -/
theorem k1pay1_eq (x : Vec Ideal S128x10000 .f32) (idx : Vec Ideal S128x1 .i32) :
    k1_pay1 (F := Ideal) x idx = k0_pay3 (F := Ideal) idx x := by
  have e : k1_pay1 (F := Ideal) x idx
      = k0_pay3 (F := Ideal) idx (shapeCast S128x10000 x shapeCasts_S128x10000_S128x10000) := rfl
  rw [e, shapeCast_self]

/-- The first output of the two-input body (the statistics of its first logits block). -/
theorem pay3_nll (idx : Vec Ideal S128x1 .i32) (x : Vec Ideal S128x10000 .f32) (j : Fin 128)
    (h : (idx (ix2 j (0 : Fin 1)) : BitVec 32).toNat < 10000) :
    k0_pay3 (F := Ideal) idx x (ix2 (0 : Fin 2) j) = nllK (brow x j) (tgtOf (idx (ix2 j (0 : Fin 1)))) := by
  rw [pay3_eq, pay2_eq]
  exact outBlock_nll idx x _ _ j h

theorem pay3_smooth (idx : Vec Ideal S128x1 .i32) (x : Vec Ideal S128x10000 .f32) (j : Fin 128) :
    k0_pay3 (F := Ideal) idx x (ix2 (1 : Fin 2) j) = smoothK (brow x j) := by
  rw [pay3_eq]
  exact outBlock_smooth _ x j

/-- The second output of the two-input body (the statistics of its second logits block), with the values the body
    carries into it: the target words, the block, its log-sum-exp column, its row-sum column, the named 1/10000. -/
theorem pay1_nll (idx : Vec Ideal S128x1 .i32) (x : Vec Ideal S128x10000 .f32) (j : Fin 128)
    (h : (idx (ix2 j (0 : Fin 1)) : BitVec 32).toNat < 10000) :
    k0_pay1 (F := Ideal) (k0_pay2 (F := Ideal) idx) x (k0_pay4 (F := Ideal) x) (k0_pay5 (F := Ideal) x)
        (Named.named (F := Ideal) κ "inv_10000" (φ := .f32) 0x38D1B717#32) (ix2 (0 : Fin 2) j)
      = nllK (brow x j) (tgtOf (idx (ix2 j (0 : Fin 1)))) := by
  rw [pay1_eq, pay2_eq, pay4_eq]
  exact outBlock_nll idx x _ _ j h

theorem pay1_smooth (idx : Vec Ideal S128x1 .i32) (x : Vec Ideal S128x10000 .f32) (j : Fin 128) :
    k0_pay1 (F := Ideal) (k0_pay2 (F := Ideal) idx) x (k0_pay4 (F := Ideal) x) (k0_pay5 (F := Ideal) x)
        (Named.named (F := Ideal) κ "inv_10000" (φ := .f32) 0x38D1B717#32) (ix2 (1 : Fin 2) j)
      = smoothK (brow x j) := by
  rw [pay1_eq, pay4_eq, pay5_eq]
  exact outBlock_smooth _ x j

/-- The output of the one-input body. -/
theorem k1pay1_nll (x : Vec Ideal S128x10000 .f32) (idx : Vec Ideal S128x1 .i32) (j : Fin 128)
    (h : (idx (ix2 j (0 : Fin 1)) : BitVec 32).toNat < 10000) :
    k1_pay1 (F := Ideal) x idx (ix2 (0 : Fin 2) j) = nllK (brow x j) (tgtOf (idx (ix2 j (0 : Fin 1)))) := by
  rw [k1pay1_eq]
  exact pay3_nll idx x j h

theorem k1pay1_smooth (x : Vec Ideal S128x10000 .f32) (idx : Vec Ideal S128x1 .i32) (j : Fin 128) :
    k1_pay1 (F := Ideal) x idx (ix2 (1 : Fin 2) j) = smoothK (brow x j) := by
  rw [k1pay1_eq]
  exact pay3_smooth idx x j

end Cert.KernelIdeal.Pay

end
-- ==== Proof.KRegion0.lean ====
/-
  The first region (the two-input body over a grid of 2 points, 128 rows a point) read as whole arrays.  Its two
  outputs are 2 × 256: entry (0, j) of the first is the negative log-likelihood of row j of the raw logits at the
  row's target class, entry (1, j) that row's label-smoothing term; the second output is the same of the concat
  logits.  Point t writes columns 128·t … 128·t + 127 from rows 128·t … 128·t + 127 of the inputs, so the two points
  cover each output; nothing after the region writes these two arrays before the last stretch of host operations.

  The route.  Each output is written as ONE 2 × 256 array: the two points' stored 2 × 128 blocks side by side, where the
  block of point t is the body's store applied to rows 128·t … 128·t + 127 of the logits and of the target column (the
  256 target words broadcast to 256 × 1 by the host before the region).  Every point writes back its block of that
  array, and the point j / 128 covers column j, so the array after the region is that one.  Entry (p, j) is then entry
  (p, j % 128) of block j / 128, whose row j % 128 is row j of the logits and whose target word is word j: the stored
  values read entry by entry give the two statistics of row j.
-/
import proofs.«430306_j64080912056667_3_alg».proof.Proof.Gen.KernelIdeal.Frame
import proofs.«430306_j64080912056667_3_alg».proof.Proof.KPayload
import Idealize.ShloMosaic.Lib.ValueIdx
import Idealize.ShloMosaic.Lib.Pipeline.Value
import Idealize.ShloMosaic.Lib.StableHlo.Run

set_option maxRecDepth 16384

noncomputable section

namespace Cert.KernelIdeal.Reg0

open Cert.KernelIdeal Cert.KernelIdeal.Gen Cert.NTS
open Idealize.ShloMosaic Idealize.ShloMosaic.TcCoe Idealize.SL.Sem Idealize.ShloMosaic.ValueIdx

variable (m : (ℓ : Loc nD τ sig) → Buf (Elt Ideal) ℓ) (ρ : Dev nD → PrngReg)

/-- The first output's array after the second region is what the first region's write-backs left. -/
theorem out3_walk (c : Dev nD) :
    W4 (F := Ideal) m ρ c (Proc.devRef .tc main_v3_0) = (dat0 (V1 (F := Ideal) m ρ) c).arrAt 3 cfg0.N :=
  calc W4 (F := Ideal) m ρ c (Proc.devRef .tc main_v3_0)
    _ = W3 (F := Ideal) m ρ c (Proc.devRef .tc main_v3_0) := W4_of_ne m ρ c main_v3_0 (by decide)
    _ = W2 (F := Ideal) m ρ c (Proc.devRef .tc main_v3_0) := StableHlo.after_of_forall_not_mem (b := Proc.devRef .tc main_v3_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 (F := Ideal) m ρ) c).arrAt 3 cfg0.N := W2_arr m ρ c 3

theorem out4_walk (c : Dev nD) :
    W4 (F := Ideal) m ρ c (Proc.devRef .tc main_v3_1) = (dat0 (V1 (F := Ideal) m ρ) c).arrAt 4 cfg0.N :=
  calc W4 (F := Ideal) m ρ c (Proc.devRef .tc main_v3_1)
    _ = W3 (F := Ideal) m ρ c (Proc.devRef .tc main_v3_1) := W4_of_ne m ρ c main_v3_1 (by decide)
    _ = W2 (F := Ideal) m ρ c (Proc.devRef .tc main_v3_1) := StableHlo.after_of_forall_not_mem (b := Proc.devRef .tc main_v3_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 (F := Ideal) m ρ) c).arrAt 4 cfg0.N := W2_arr m ρ c 4

/-- The region finds the raw logits as launched. -/
theorem entry_arg0 (c : Dev nD) : V1 (F := Ideal) m ρ c main_arg0 = m ((c : Thread nD τ).loc main_arg0) :=
  calc W1 (F := Ideal) m ρ c (Proc.devRef .tc main_arg0)
    _ = W0 (F := Ideal) m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem entry_arg1 (c : Dev nD) : V1 (F := Ideal) m ρ c main_arg1 = m ((c : Thread nD τ).loc main_arg1) :=
  calc W1 (F := Ideal) m ρ c (Proc.devRef .tc main_arg1)
    _ = W0 (F := Ideal) m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- The target column the region finds: the 256 target words broadcast to 256 × 1. -/
theorem entry_tgt (c : Dev nD) : (V1 (F := Ideal) m ρ c main_v2 : S256x1.Idx → BitVec 32)
    = broadcastInDim S256x1 ![0] Facts₀.bcast_S256_S256x1_0 (m ((c : Thread nD τ).loc main_arg4) : S256.Idx → BitVec 32) := by
  show StableHlo.after hostOps0 (W0 (F := Ideal) m ρ c) (Proc.devRef .tc main_v2) = _
  after_results

/-! ## The blocks of a point, as functions of the whole arrays -/

theorem hz : (![0, 0] : Fin 2 → Nat) = fun _ => 0 := funext fun a => by fin_cases a <;> rfl

/-- Rows 128·t … 128·t + 127 of a 256 × 10000 array. -/
def rowsBlk (X : S256x10000.Idx → EReal) (t : Fin 2) : Vec Ideal S128x10000 .f32 :=
  fun y => X (ix2 (⟨128 * t.val + (y 0).val, by have := t.isLt; have := idx2_lt0 y; omega⟩ : Fin 256)
    (⟨(y 1).val, idx2_lt1 y⟩ : Fin 10000))

/-- Rows 128·t … 128·t + 127 of the 256 × 1 target column. -/
def tgtBlk (T : S256x1.Idx → BitVec 32) (t : Fin 2) : Vec Ideal S128x1 .i32 :=
  fun y => T (ix2 (⟨128 * t.val + (y 0).val, by have := t.isLt; have := idx2_lt0 y; omega⟩ : Fin 256)
    (⟨(y 1).val, idx2_lt1 y⟩ : Fin 1))

/-- Two 2 × 128 blocks side by side as one 2 × 256 array: column j is column j % 128 of block j / 128. -/
def joinCols (B : Fin 2 → Vec Ideal S2x128 .f32) : S2x256.Idx → EReal :=
  fun i => B (⟨(i 1).val / 128, by have := idx2_lt1 i; omega⟩ : Fin 2)
    (ix2 (⟨(i 0).val, idx2_lt0 i⟩ : Fin 2) (⟨(i 1).val % 128, Nat.mod_lt _ (by norm_num)⟩ : Fin 128))

/-- Entry (p, 128·t + q) of the joined array is entry (p, q) of block t. -/
theorem joinCols_at (B : Fin 2 → Vec Ideal S2x128 .f32) (t : Fin 2) (j : S2x128.Idx) (i : S2x256.Idx)
    (h0 : (i 0).val = (j 0).val) (h1 : (i 1).val = 128 * t.val + (j 1).val) :
    joinCols B i = B t j := by
  have hj1 := idx2_lt1 j
  unfold joinCols
  congr 1
  · exact Fin.ext (by show (i 1).val / 128 = t.val; omega)
  · funext a
    match a with
    | ⟨0, _⟩ => exact Fin.ext h0
    | ⟨1, _⟩ => exact Fin.ext (by show (i 1).val % 128 = (j 1).val; omega)

/-- What the body stores for the first logits at block t: its first store, of the target rows and the logits rows. -/
def blkStats3 (X : S256x10000.Idx → EReal) (T : S256x1.Idx → BitVec 32) (t : Fin 2) : Vec Ideal S2x128 .f32 :=
  k0_pay3 (F := Ideal) (tgtBlk T t) (rowsBlk X t)

/-- What the body stores for the second logits at block t: its second store, with the values the body carries into it. -/
def blkStats4 (X : S256x10000.Idx → EReal) (T : S256x1.Idx → BitVec 32) (t : Fin 2) : Vec Ideal S2x128 .f32 :=
  k0_pay1 (F := Ideal) (k0_pay2 (F := Ideal) (tgtBlk T t)) (rowsBlk X t) (k0_pay4 (F := Ideal) (rowsBlk X t))
    (k0_pay5 (F := Ideal) (rowsBlk X t)) (Named.named (F := Ideal) κ "inv_10000" (φ := .f32) 0x38D1B717#32)

/-- The index maps over the grid of two points: point t takes block t of the rows of each input, and writes block t of
    the columns of each output. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

theorem pt_lt (t : Fin cfg0.N) : t.val < 2 := by
  have h : t.val < grid0.N := t.isLt
  rwa [N_0] at h

section Entry
variable (V : (c : Dev nD) → (b : Ref sig .tc) → Buf (Elt Ideal) ((c : Thread nD τ).loc b))

/-- The first window's block at point t is rows 128·t … of the raw logits. -/
theorem rows0_read (c : Dev nD) (t : Fin cfg0.N) :
    (iblk0 V c 0 t : Vec Ideal S128x10000 .f32) = rowsBlk (V c main_arg0) ⟨t.val, pt_lt t⟩ := by
  obtain ⟨e0, e1, -⟩ := idx_facts t
  funext y
  unfold iblk0 rowsBlk
  rw [View.read_apply]
  show V c main_arg0 (((cfg0.win 0).blk t).view.emb y) = V c main_arg0 _
  congr 1
  funext a; apply Fin.ext
  match a with
  | ⟨0, _⟩ => show win0_0.index t (0 : Fin 2) * 128 + 1 * (y 0).val = 128 * t.val + (y 0).val; rw [e0]; omega
  | ⟨1, _⟩ => show win0_0.index t (1 : Fin 2) * 10000 + 1 * (y 1).val = (y 1).val; rw [e1]; omega

/-- The second window's block at point t is rows 128·t … of the concat logits. -/
theorem rows1_read (c : Dev nD) (t : Fin cfg0.N) :
    (iblk0 V c 1 t : Vec Ideal S128x10000 .f32) = rowsBlk (V c main_arg1) ⟨t.val, pt_lt t⟩ := by
  obtain ⟨-, -, e0, e1, -⟩ := idx_facts t
  funext y
  unfold iblk0 rowsBlk
  rw [View.read_apply]
  show V c main_arg1 (((cfg0.win 1).blk t).view.emb y) = V c main_arg1 _
  congr 1
  funext a; apply Fin.ext
  match a with
  | ⟨0, _⟩ => show win0_1.index t (0 : Fin 2) * 128 + 1 * (y 0).val = 128 * t.val + (y 0).val; rw [e0]; omega
  | ⟨1, _⟩ => show win0_1.index t (1 : Fin 2) * 10000 + 1 * (y 1).val = (y 1).val; rw [e1]; omega

/-- The third window's block at point t is rows 128·t … of the target column. -/
theorem tgt_read (c : Dev nD) (t : Fin cfg0.N) :
    (iblk0 V c 2 t : Vec Ideal S128x1 .i32) = tgtBlk (V c main_v2) ⟨t.val, pt_lt t⟩ := by
  obtain ⟨-, -, -, -, e0, e1, -⟩ := idx_facts t
  funext y
  unfold iblk0 tgtBlk
  rw [View.read_apply]
  show V c main_v2 (((cfg0.win 2).blk t).view.emb y) = V c main_v2 _
  congr 1
  funext a; apply Fin.ext
  match a with
  | ⟨0, _⟩ => show win0_2.index t (0 : Fin 2) * 128 + 1 * (y 0).val = 128 * t.val + (y 0).val; rw [e0]; omega
  | ⟨1, _⟩ => show win0_2.index t (1 : Fin 2) * 1 + 1 * (y 1).val = (y 1).val; rw [e1]; omega

/-- WHAT POINT t WRITES BACK to the first output: columns 128·t … of the two blocks' stores joined. -/
theorem flushed3_eq (c : Dev nD) (t : Fin cfg0.N) :
    (dat0 V c).flushed 3 t
      = ((cfg0.win 3).blk t).view.read (Elt Ideal) (joinCols (blkStats3 (V c main_arg0) (V c main_v2))) := by
  show (cfg0.win 3).cut (grid0.coords t) ((dat0 V c).after 3 t) = _
  rw [after0_3]
  unfold out0_3
  rw [View.canon_unit_zero hz]
  simp only [View.ld_unit_zero (S := S128x1) hz, View.ld_unit_zero (S := S128x10000) hz]
  rw [rows0_read, tgt_read]
  obtain ⟨-, -, -, -, -, -, e0, e1, -⟩ := idx_facts t
  funext j
  rw [View.read_apply]
  refine (joinCols_at (blkStats3 (V c main_arg0) (V c main_v2)) ⟨t.val, pt_lt t⟩ j _ ?_ ?_).symm
  · show win0_3.index t (0 : Fin 2) * 2 + 1 * (j 0).val = (j 0).val; rw [e0]; omega
  · show win0_3.index t (1 : Fin 2) * 128 + 1 * (j 1).val = 128 * t.val + (j 1).val; rw [e1]; omega

/-- WHAT POINT t WRITES BACK to the second output. -/
theorem flushed4_eq (c : Dev nD) (t : Fin cfg0.N) :
    (dat0 V c).flushed 4 t
      = ((cfg0.win 4).blk t).view.read (Elt Ideal) (joinCols (blkStats4 (V c main_arg1) (V c main_v2))) := by
  show (cfg0.win 4).cut (grid0.coords t) ((dat0 V c).after 4 t) = _
  rw [after0_4]
  unfold out0_4
  rw [View.canon_unit_zero hz]
  simp only [View.ld_unit_zero (S := S128x1) hz, View.ld_unit_zero (S := S128x10000) hz]
  rw [rows1_read, tgt_read]
  obtain ⟨-, -, -, -, -, -, -, -, e0, e1⟩ := idx_facts t
  funext j
  rw [View.read_apply]
  refine (joinCols_at (blkStats4 (V c main_arg1) (V c main_v2)) ⟨t.val, pt_lt t⟩ j _ ?_ ?_).symm
  · show win0_4.index t (0 : Fin 2) * 2 + 1 * (j 0).val = (j 0).val; rw [e0]; omega
  · show win0_4.index t (1 : Fin 2) * 128 + 1 * (j 1).val = 128 * t.val + (j 1).val; rw [e1]; omega

/-- An index of the first output is in point t's block iff each coordinate is in the block's range on its axis. -/
theorem mem_blk3 (t : Fin cfg0.N) (i : S2x256.Idx) :
    i ∈ ((cfg0.win 3).blk t).view.set ↔ ∀ a : Fin 2, win0_3.index t a * S2x128.size a ≤ (i a).val ∧ (i a).val < win0_3.index t a * S2x128.size a + S2x128.size a := by
  show i ∈ ((View.whole main_v3_0).slice (win0_3.rect t)).set ↔ _
  rw [View.set_slice_whole, Rect.mem_set_unit]
  exact Iff.rfl

theorem mem_blk4 (t : Fin cfg0.N) (i : S2x256.Idx) :
    i ∈ ((cfg0.win 4).blk t).view.set ↔ ∀ a : Fin 2, win0_4.index t a * S2x128.size a ≤ (i a).val ∧ (i a).val < win0_4.index t a * S2x128.size a + S2x128.size a := by
  show i ∈ ((View.whole main_v3_1).slice (win0_4.rect t)).set ↔ _
  rw [View.set_slice_whole, Rect.mem_set_unit]
  exact Iff.rfl

/-- The point whose block holds column j is j / 128. -/
def ptOf (i : S2x256.Idx) : Fin cfg0.N := ⟨(i 1).val / 128, by show _ < grid0.N; rw [N_0]; have := idx2_lt1 i; omega⟩

theorem cover3 (i : S2x256.Idx) : ∃ t : Fin cfg0.N, (cfg0.win 3).flush t = true ∧ i ∈ ((cfg0.win 3).blk t).view.set := by
  refine ⟨ptOf i, flush0_3 _, ?_⟩
  obtain ⟨-, -, -, -, -, -, e0, e1, -⟩ := idx_facts (ptOf i)
  have h0 := idx2_lt0 i
  have h1 := idx2_lt1 i
  have ht : (ptOf i).val = (i 1).val / 128 := rfl
  rw [mem_blk3]
  intro a
  match a with
  | ⟨0, _⟩ => show win0_3.index (ptOf i) (0 : Fin 2) * 2 ≤ (i 0).val ∧ (i 0).val < win0_3.index (ptOf i) (0 : Fin 2) * 2 + 2; rw [e0]; omega
  | ⟨1, _⟩ => show win0_3.index (ptOf i) (1 : Fin 2) * 128 ≤ (i 1).val ∧ (i 1).val < win0_3.index (ptOf i) (1 : Fin 2) * 128 + 128; rw [e1, ht]; omega

theorem cover4 (i : S2x256.Idx) : ∃ t : Fin cfg0.N, (cfg0.win 4).flush t = true ∧ i ∈ ((cfg0.win 4).blk t).view.set := by
  refine ⟨ptOf i, flush0_4 _, ?_⟩
  obtain ⟨-, -, -, -, -, -, -, -, e0, e1⟩ := idx_facts (ptOf i)
  have h0 := idx2_lt0 i
  have h1 := idx2_lt1 i
  have ht : (ptOf i).val = (i 1).val / 128 := rfl
  rw [mem_blk4]
  intro a
  match a with
  | ⟨0, _⟩ => show win0_4.index (ptOf i) (0 : Fin 2) * 2 ≤ (i 0).val ∧ (i 0).val < win0_4.index (ptOf i) (0 : Fin 2) * 2 + 2; rw [e0]; omega
  | ⟨1, _⟩ => show win0_4.index (ptOf i) (1 : Fin 2) * 128 ≤ (i 1).val ∧ (i 1).val < win0_4.index (ptOf i) (1 : Fin 2) * 128 + 128; rw [e1, ht]; omega

/-- THE FIRST OUTPUT after the region: the two blocks' stores side by side. -/
theorem final3 (c : Dev nD) : (dat0 V c).arrAt 3 cfg0.N = joinCols (blkStats3 (V c main_arg0) (V c main_v2)) :=
  (dat0 V c).arrAt_eq_of_cover 3 _ (fun t _ => flushed3_eq V c t) cover3

/-- THE SECOND OUTPUT after the region. -/
theorem final4 (c : Dev nD) : (dat0 V c).arrAt 4 cfg0.N = joinCols (blkStats4 (V c main_arg1) (V c main_v2)) :=
  (dat0 V c).arrAt_eq_of_cover 4 _ (fun t _ => flushed4_eq V c t) cover4

end Entry

/-! ## The entries -/

/-- Row q of block t of an array is its row 128·t + q. -/
theorem brow_rowsBlk (X : S256x10000.Idx → EReal) (t : Fin 2) (q : Fin 128) (b : Fin 256) (hb : b.val = 128 * t.val + q.val) :
    Pay.brow (rowsBlk X t) q = rowOf X b := by
  funext k
  unfold Pay.brow rowsBlk rowOf
  refine congrArg X (funext fun a => ?_)
  match a with
  | ⟨0, _⟩ => exact Fin.ext hb.symm
  | ⟨1, _⟩ => rfl

/-- Entry q of block t of the broadcast target column is target word 128·t + q. -/
theorem tgtBlk_bcast (T : S256.Idx → BitVec 32) (t : Fin 2) (q : Fin 128) (b : Fin 256) (hb : b.val = 128 * t.val + q.val) :
    tgtBlk (broadcastInDim S256x1 ![0] Facts₀.bcast_S256_S256x1_0 T) t (ix2 q (0 : Fin 1)) = T (ix1 b) := by
  unfold tgtBlk
  refine broadcastInDim_apply _ _ _ _ (ix1 b) (fun a => ?_)
  obtain rfl : a = (0 : Fin 1) := Subsingleton.elim _ _
  rw [if_neg (by decide)]
  exact hb

/-- Column j sits in block j / 128 at column j % 128. -/
theorem col_split (j : Fin 256) : ∃ (t : Fin 2) (q : Fin 128), j.val = 128 * t.val + q.val :=
  ⟨⟨j.val / 128, by have := j.isLt; omega⟩, ⟨j.val % 128, Nat.mod_lt _ (by norm_num)⟩, by
    show j.val = 128 * (j.val / 128) + j.val % 128; omega⟩

/-- The first output at (0, j): row j of the raw logits, at the class of target j. -/
theorem raw_nll (c : Dev nD) (j : Fin 256)
    (hT : ∀ b : Fin 256, ((m ((c : Thread nD τ).loc main_arg4) : S256.Idx → BitVec 32) (ix1 b)).toNat < 10000) :
    (W4 (F := Ideal) m ρ c (Proc.devRef .tc main_v3_0) : S2x256.Idx → EReal) (ix2 (0 : Fin 2) j)
      = nllK (rowOf (m ((c : Thread nD τ).loc main_arg0)) j) (tgt (m ((c : Thread nD τ).loc main_arg4)) j) := by
  obtain ⟨t, q, hb⟩ := col_split j
  have e := tgtBlk_bcast (m ((c : Thread nD τ).loc main_arg4)) t q j hb
  refine (congrFun (out3_walk m ρ c) (ix2 (0 : Fin 2) j)).trans ?_
  rw [final3, entry_arg0, entry_tgt]
  rw [joinCols_at _ t (ix2 (0 : Fin 2) q) (ix2 (0 : Fin 2) j) rfl hb]
  unfold blkStats3
  rw [Pay.pay3_nll _ _ q (by rw [e]; exact hT j), brow_rowsBlk _ t q j hb, e]
  rfl

theorem raw_smooth (c : Dev nD) (j : Fin 256) :
    (W4 (F := Ideal) m ρ c (Proc.devRef .tc main_v3_0) : S2x256.Idx → EReal) (ix2 (1 : Fin 2) j)
      = smoothK (rowOf (m ((c : Thread nD τ).loc main_arg0)) j) := by
  obtain ⟨t, q, hb⟩ := col_split j
  refine (congrFun (out3_walk m ρ c) (ix2 (1 : Fin 2) j)).trans ?_
  rw [final3, entry_arg0]
  rw [joinCols_at _ t (ix2 (1 : Fin 2) q) (ix2 (1 : Fin 2) j) rfl hb]
  unfold blkStats3
  rw [Pay.pay3_smooth _ _ q, brow_rowsBlk _ t q j hb]

/-- The second output: the same of the concat logits. -/
theorem cat_nll (c : Dev nD) (j : Fin 256)
    (hT : ∀ b : Fin 256, ((m ((c : Thread nD τ).loc main_arg4) : S256.Idx → BitVec 32) (ix1 b)).toNat < 10000) :
    (W4 (F := Ideal) m ρ c (Proc.devRef .tc main_v3_1) : S2x256.Idx → EReal) (ix2 (0 : Fin 2) j)
      = nllK (rowOf (m ((c : Thread nD τ).loc main_arg1)) j) (tgt (m ((c : Thread nD τ).loc main_arg4)) j) := by
  obtain ⟨t, q, hb⟩ := col_split j
  have e := tgtBlk_bcast (m ((c : Thread nD τ).loc main_arg4)) t q j hb
  refine (congrFun (out4_walk m ρ c) (ix2 (0 : Fin 2) j)).trans ?_
  rw [final4, entry_arg1, entry_tgt]
  rw [joinCols_at _ t (ix2 (0 : Fin 2) q) (ix2 (0 : Fin 2) j) rfl hb]
  unfold blkStats4
  rw [Pay.pay1_nll _ _ q (by rw [e]; exact hT j), brow_rowsBlk _ t q j hb, e]
  rfl

theorem cat_smooth (c : Dev nD) (j : Fin 256) :
    (W4 (F := Ideal) m ρ c (Proc.devRef .tc main_v3_1) : S2x256.Idx → EReal) (ix2 (1 : Fin 2) j)
      = smoothK (rowOf (m ((c : Thread nD τ).loc main_arg1)) j) := by
  obtain ⟨t, q, hb⟩ := col_split j
  refine (congrFun (out4_walk m ρ c) (ix2 (1 : Fin 2) j)).trans ?_
  rw [final4, entry_arg1]
  rw [joinCols_at _ t (ix2 (1 : Fin 2) q) (ix2 (1 : Fin 2) j) rfl hb]
  unfold blkStats4
  rw [Pay.pay1_smooth _ _ q, brow_rowsBlk _ t q j hb]

end Cert.KernelIdeal.Reg0

end
-- ==== Proof.KRegion1.lean ====
/-
  The second region (the one-input body over a grid of 12 points, 128 rows a point) read as a whole array.  Its
  input is the part logits re-laid 1536 × 10000 (row j is batch j / 6, proposal j % 6) and the targets repeated six
  times each (entry j is target j / 6); its output is 2 × 1536: entry (0, j) the negative log-likelihood of part row j
  at its batch row's target class, entry (1, j) that row's label-smoothing term.  Point t writes columns
  128·t … 128·t + 127, so the twelve points cover the output; nothing after the region writes it.

  The road: the two input arrays are host operations of the launch contents (a re-laying of the part logits; the
  targets broadcast along a new axis of 6, flattened, and stood up as a column), read at an index by comparing
  row-major positions.  The output is ONE function of those two arrays: column j is column j % 128 of what the body
  stores for the block of rows 128·(j / 128) … .  Each point writes back its block of that function, the blocks cover
  the array, so the array ends as that function; its two rows are then the body's two stored rows at row j % 128 of
  block j / 128, which is part row j with the target word of batch row j / 6.
-/
import proofs.«430306_j64080912056667_3_alg».proof.Proof.Gen.KernelIdeal.Frame
import proofs.«430306_j64080912056667_3_alg».proof.Proof.KPayload
import Idealize.ShloMosaic.Lib.ValueIdx
import Idealize.ShloMosaic.Lib.Pipeline.Value
import Idealize.ShloMosaic.Lib.StableHlo.Run

set_option maxRecDepth 16384

noncomputable section

namespace Cert.KernelIdeal.Reg1

open Cert.KernelIdeal Cert.KernelIdeal.Gen Cert.NTS
open Idealize.ShloMosaic Idealize.ShloMosaic.TcCoe Idealize.SL.Sem Idealize.ShloMosaic.ValueIdx

variable (m : (ℓ : Loc nD τ sig) → Buf (Elt Ideal) ℓ) (ρ : Dev nD → PrngReg)

/-! ## The region's two input arrays, from the launch contents -/

/-- The part logits are as launched when the second region is entered: neither the first host stretch nor the first
    region writes them. -/
theorem W2_arg2 (c : Dev nD) : W2 (F := Ideal) m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg2) := rfl

/-- The region's first input array is the part logits re-laid as 1536 × 10000. -/
theorem v4_eq (c : Dev nD) :
    (V3 (F := Ideal) m ρ c main_v4 : S1536x10000.Idx → EReal)
      = shapeCast S1536x10000 (m ((c : Thread nD τ).loc main_arg2) : S256x6x10000.Idx → EReal) Facts₀.shapeCasts_S256x6x10000_S1536x10000 := by
  show StableHlo.after hostOps1 (W2 m ρ c) (Proc.devRef .tc main_v4) = _
  after_results
  rw [W2_arg2]
  rfl

/-- The targets repeated six times each, written by the first host stretch, pass the first region unchanged. -/
theorem W2_v1 (c : Dev nD) : (W2 (F := Ideal) m ρ c (Proc.devRef .tc main_v1) : S1536.Idx → BitVec 32)
    = shapeCast S1536 (broadcastInDim S256x6 ![0] Facts₀.bcast_S256_S256x6_0 (m ((c : Thread nD τ).loc main_arg4) : S256.Idx → BitVec 32)) Facts₀.shapeCasts_S256x6_S1536 := by
  rw [W2_of_ne m ρ c main_v1 (by decide)]
  show StableHlo.after hostOps0 (W0 m ρ c) (Proc.devRef .tc main_v1) = _
  after_results
  rfl

/-- The region's second input array is that vector as a column. -/
theorem v5_eq (c : Dev nD) :
    (V3 (F := Ideal) m ρ c main_v5 : S1536x1.Idx → BitVec 32)
      = broadcastInDim S1536x1 ![0] Facts₀.bcast_S1536_S1536x1_0 (shapeCast S1536 (broadcastInDim S256x6 ![0] Facts₀.bcast_S256_S256x6_0 (m ((c : Thread nD τ).loc main_arg4) : S256.Idx → BitVec 32)) Facts₀.shapeCasts_S256x6_S1536) := by
  show StableHlo.after hostOps1 (W2 m ρ c) (Proc.devRef .tc main_v5) = _
  after_results
  rw [W2_v1]

/-! ## The two input arrays read at an index -/

/-- Row j of the first input array is part row j: batch j / 6, proposal j % 6 (the two row-major positions agree). -/
theorem v4_row (c : Dev nD) (j : Fin 1536) (k : Fin 10000) :
    (V3 (F := Ideal) m ρ c main_v4 : S1536x10000.Idx → EReal) (ix2 j k) = partRow (m ((c : Thread nD τ).loc main_arg2)) j k := by
  rw [v4_eq]
  unfold partRow
  refine shapeCast_apply _ _ (ix2 j k) (ix3 (⟨j.val / 6, by have := j.isLt; omega⟩ : Fin 256) (⟨j.val % 6, Nat.mod_lt _ (by norm_num)⟩ : Fin 6) k) ?_
  rw [Shape.rowMajor_val_three, Shape.rowMajor_val_two]
  show (j.val / 6 * 6 + j.val % 6) * 10000 + k.val = j.val * 10000 + k.val
  have := Nat.div_add_mod j.val 6
  omega

/-- Entry (j, 0) of the second input array is the target word of batch row j / 6. -/
theorem v5_entry (c : Dev nD) (j : Fin 1536) :
    (V3 (F := Ideal) m ρ c main_v5 : S1536x1.Idx → BitVec 32) (ix2 j (0 : Fin 1))
      = (m ((c : Thread nD τ).loc main_arg4) : S256.Idx → BitVec 32) (ix1 (⟨j.val / 6, by have := j.isLt; omega⟩ : Fin 256)) := by
  rw [v5_eq]
  refine (broadcastInDim_apply _ _ _ (ix2 j (0 : Fin 1)) (ix1 j) fun a => ?_).trans ?_
  · match a with
    | ⟨0, _⟩ => rfl
  refine (shapeCast_apply _ _ (ix1 j) (ix2 (⟨j.val / 6, by have := j.isLt; omega⟩ : Fin 256) (⟨j.val % 6, Nat.mod_lt _ (by norm_num)⟩ : Fin 6)) ?_).trans ?_
  · rw [Shape.rowMajor_val_two, Shape.rowMajor_val_one]
    show j.val / 6 * 6 + j.val % 6 = j.val
    have := Nat.div_add_mod j.val 6
    omega
  refine broadcastInDim_apply _ _ _ _ (ix1 (⟨j.val / 6, by have := j.isLt; omega⟩ : Fin 256)) fun a => ?_
  match a with
  | ⟨0, _⟩ => rfl

/-! ## The output array as one function of the two input arrays -/

/-- Rows 128·t … 128·t + 127 of a 1536 × 10000 array, as a 128 × 10000 block. -/
def rowsBlock (A : S1536x10000.Idx → EReal) (t : Fin 12) : Vec Ideal S128x10000 .f32 :=
  fun y => A (ix2 (⟨128 * t.val + (y 0).val, by have := t.isLt; have := idx2_lt0 y; omega⟩ : Fin 1536) (⟨(y 1).val, idx2_lt1 y⟩ : Fin 10000))

/-- Rows 128·t … 128·t + 127 of a 1536 × 1 column of words, as a 128 × 1 block. -/
def wordsBlock (B : S1536x1.Idx → BitVec 32) (t : Fin 12) : Vec Ideal S128x1 .i32 :=
  fun y => B (ix2 (⟨128 * t.val + (y 0).val, by have := t.isLt; have := idx2_lt0 y; omega⟩ : Fin 1536) (⟨(y 1).val, idx2_lt1 y⟩ : Fin 1))

/-- The 2 × 1536 array the region leaves: column j is column j % 128 of what the body stores for the block of
    128 rows that holds row j, block j / 128. -/
def stats (A : S1536x10000.Idx → EReal) (B : S1536x1.Idx → BitVec 32) : S2x1536.Idx → EReal :=
  fun i => k1_pay1 (F := Ideal)
    (rowsBlock A (⟨(i 1).val / 128, by have := idx2_lt1 i; omega⟩ : Fin 12))
    (wordsBlock B (⟨(i 1).val / 128, by have := idx2_lt1 i; omega⟩ : Fin 12))
    (ix2 (⟨(i 0).val, idx2_lt0 i⟩ : Fin 2) (⟨(i 1).val % 128, Nat.mod_lt _ (by norm_num)⟩ : Fin 128))

/-- Entry z of what the body stores for block t is entry (z₀, 128·t + z₁) of that array. -/
theorem stats_at (A : S1536x10000.Idx → EReal) (B : S1536x1.Idx → BitVec 32) (t : Fin 12) (z : S2x128.Idx) (i : S2x1536.Idx)
    (hi0 : (i 0).val = (z 0).val) (hi1 : (i 1).val = 128 * t.val + (z 1).val) :
    k1_pay1 (F := Ideal) (rowsBlock A t) (wordsBlock B t) z = stats A B i := by
  have hz1 := idx2_lt1 z
  have et : (⟨(i 1).val / 128, by have := idx2_lt1 i; omega⟩ : Fin 12) = t := Fin.ext (by show (i 1).val / 128 = t.val; omega)
  have ez : z = ix2 (⟨(i 0).val, idx2_lt0 i⟩ : Fin 2) (⟨(i 1).val % 128, Nat.mod_lt _ (by norm_num)⟩ : Fin 128) := by
    funext a; apply Fin.ext
    match a with
    | ⟨0, _⟩ => exact hi0.symm
    | ⟨1, _⟩ => show (z 1).val = (i 1).val % 128; omega
  unfold stats
  rw [et, ← ez]

/-! ## What each grid point writes back -/

theorem hz : (![0, 0] : Fin 2 → Nat) = fun _ => 0 := funext fun a => by fin_cases a <;> rfl

/-- The index maps over the grid: point t takes block row t of each input and block column t of the output. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val :=
  (by decide +kernel : ∀ t : Fin grid1.N, _)

/-- The grid point as a block number. -/
abbrev pt (t : Fin cfg1.N) : Fin 12 := ⟨t.val, by have h := t.isLt; have hN : cfg1.N = 12 := N_1; omega⟩

/-- The logits block at point t is rows 128·t … of the first input array. -/
theorem logits_block (c : Dev nD) (t : Fin cfg1.N) :
    (iblk1 (V3 (F := Ideal) m ρ) c 0 t : Vec Ideal S128x10000 .f32) = rowsBlock (V3 m ρ c main_v4) (pt t) := by
  obtain ⟨e0, e1, -⟩ := idx_facts t
  funext y
  unfold iblk1 rowsBlock
  rw [View.read_apply]
  show V3 m ρ c main_v4 _ = V3 m ρ c main_v4 _
  congr 1
  funext a; apply Fin.ext
  match a with
  | ⟨0, _⟩ => show win1_0.index t (0 : Fin 2) * 128 + 1 * (y 0).val = 128 * t.val + (y 0).val; rw [e0]; omega
  | ⟨1, _⟩ => show win1_0.index t (1 : Fin 2) * 10000 + 1 * (y 1).val = (y 1).val; rw [e1]; omega

/-- The target block at point t is rows 128·t … of the second input array. -/
theorem words_block (c : Dev nD) (t : Fin cfg1.N) :
    (iblk1 (V3 (F := Ideal) m ρ) c 1 t : Vec Ideal S128x1 .i32) = wordsBlock (V3 m ρ c main_v5) (pt t) := by
  obtain ⟨-, -, e0, e1, -⟩ := idx_facts t
  funext y
  unfold iblk1 wordsBlock
  rw [View.read_apply]
  show V3 m ρ c main_v5 _ = V3 m ρ c main_v5 _
  congr 1
  funext a; apply Fin.ext
  match a with
  | ⟨0, _⟩ => show win1_1.index t (0 : Fin 2) * 128 + 1 * (y 0).val = 128 * t.val + (y 0).val; rw [e0]; omega
  | ⟨1, _⟩ => show win1_1.index t (1 : Fin 2) * 1 + 1 * (y 1).val = (y 1).val; rw [e1]; omega

/-- Row q of block t is row 128·t + q of the array. -/
theorem rowsBlock_apply (A : S1536x10000.Idx → EReal) (t : Fin 12) (q : Fin 128) (k : Fin 10000) (j : Fin 1536)
    (hj : j.val = 128 * t.val + q.val) : rowsBlock A t (ix2 q k) = A (ix2 j k) :=
  congrArg A (Shape.idx_ext₂ hj.symm rfl)

theorem wordsBlock_apply (B : S1536x1.Idx → BitVec 32) (t : Fin 12) (q : Fin 128) (j : Fin 1536)
    (hj : j.val = 128 * t.val + q.val) : wordsBlock B t (ix2 q (0 : Fin 1)) = B (ix2 j (0 : Fin 1)) :=
  congrArg B (Shape.idx_ext₂ hj.symm rfl)

/-- What point t writes back is block t of `stats` of the two input arrays: the body stores, through its whole staging
    buffers, its payload of the two input blocks, and entry z of that sits at (z₀, 128·t + z₁) of the output. -/
theorem flushed_eq (c : Dev nD) (t : Fin cfg1.N) :
    (dat1 (V3 (F := Ideal) m ρ) c).flushed 2 t
      = ((cfg1.win 2).blk t).view.read (Elt Ideal) (stats (V3 m ρ c main_v4) (V3 m ρ c main_v5)) := by
  show (cfg1.win 2).cut (grid1.coords t) ((dat1 (V3 m ρ) c).after 2 t) = _
  rw [after1_2]
  unfold out1_2
  rw [View.canon_unit_zero hz]
  simp only [View.ld_unit_zero (S := S128x10000) hz, View.ld_unit_zero (S := S128x1) hz]
  rw [logits_block, words_block]
  obtain ⟨-, -, -, -, e0, e1⟩ := idx_facts t
  funext y
  show k1_pay1 (F := Ideal) (rowsBlock (V3 m ρ c main_v4) (pt t)) (wordsBlock (V3 m ρ c main_v5) (pt t)) ((cfg1.win 2).xinj (grid1.coords t) y)
    = stats (V3 m ρ c main_v4) (V3 m ρ c main_v5) (((cfg1.win 2).blk t).view.emb y)
  refine stats_at (V3 m ρ c main_v4) (V3 m ρ c main_v5) (pt t) ((cfg1.win 2).xinj (grid1.coords t) y) (((cfg1.win 2).blk t).view.emb y) ?_ ?_
  · show win1_2.index t (0 : Fin 2) * 2 + 1 * (y 0).val = (y 0).val
    rw [e0]; omega
  · show win1_2.index t (1 : Fin 2) * 128 + 1 * (y 1).val = 128 * t.val + (y 1).val
    rw [e1]; omega

/-- An index of the output array is in point t's block iff each coordinate is in the block's range on its axis. -/
theorem mem_blk (t : Fin cfg1.N) (i : S2x1536.Idx) :
    i ∈ ((cfg1.win 2).blk t).view.set ↔ ∀ a : Fin 2, win1_2.index t a * S2x128.size a ≤ (i a).val ∧ (i a).val < win1_2.index t a * S2x128.size a + S2x128.size a := by
  show i ∈ ((View.whole main_v6).slice (win1_2.rect t)).set ↔ _
  rw [View.set_slice_whole, Rect.mem_set_unit]
  exact Iff.rfl

/-- Column j of the output is in the block of point j / 128: the twelve points cover the array. -/
theorem covered (i : S2x1536.Idx) :
    ∃ t : Fin cfg1.N, (cfg1.win 2).flush t = true ∧ i ∈ ((cfg1.win 2).blk t).view.set := by
  have h0 := idx2_lt0 i
  have h1 := idx2_lt1 i
  have hN : cfg1.N = 12 := N_1
  refine ⟨⟨(i 1).val / 128, by omega⟩, flush1_2 _, ?_⟩
  obtain ⟨-, -, -, -, e0, e1⟩ := idx_facts ⟨(i 1).val / 128, by omega⟩
  rw [mem_blk]
  intro a
  match a with
  | ⟨0, _⟩ =>
    show win1_2.index ⟨(i 1).val / 128, _⟩ (0 : Fin 2) * 2 ≤ (i 0).val ∧ (i 0).val < win1_2.index ⟨(i 1).val / 128, _⟩ (0 : Fin 2) * 2 + 2
    rw [e0]; omega
  | ⟨1, _⟩ =>
    show win1_2.index ⟨(i 1).val / 128, _⟩ (1 : Fin 2) * 128 ≤ (i 1).val ∧ (i 1).val < win1_2.index ⟨(i 1).val / 128, _⟩ (1 : Fin 2) * 128 + 128
    rw [e1]
    show (i 1).val / 128 * 128 ≤ (i 1).val ∧ (i 1).val < (i 1).val / 128 * 128 + 128
    omega

/-- The output array after the region is `stats` of the two input arrays. -/
theorem out_eq (c : Dev nD) :
    (W4 (F := Ideal) m ρ c (Proc.devRef .tc main_v6) : S2x1536.Idx → EReal) = stats (V3 m ρ c main_v4) (V3 m ρ c main_v5) :=
  (W4_arr m ρ c 2).trans
    ((dat1 (V3 m ρ) c).arrAt_eq_of_cover 2 (stats (V3 m ρ c main_v4) (V3 m ρ c main_v5)) (fun t _ => flushed_eq m ρ c t) covered)

/-! ## The two rows of the output -/

/-- Entry (p, j) of the output is entry (p, j % 128) of what the body stores for block j / 128. -/
theorem out_entry (c : Dev nD) (p : Fin 2) (j : Fin 1536) :
    (W4 (F := Ideal) m ρ c (Proc.devRef .tc main_v6) : S2x1536.Idx → EReal) (ix2 p j)
      = k1_pay1 (F := Ideal) (rowsBlock (V3 m ρ c main_v4) (⟨j.val / 128, by have := j.isLt; omega⟩ : Fin 12))
          (wordsBlock (V3 m ρ c main_v5) (⟨j.val / 128, by have := j.isLt; omega⟩ : Fin 12))
          (ix2 p (⟨j.val % 128, Nat.mod_lt _ (by norm_num)⟩ : Fin 128)) := by
  rw [out_eq]
  exact (stats_at (V3 m ρ c main_v4) (V3 m ρ c main_v5) (⟨j.val / 128, by have := j.isLt; omega⟩ : Fin 12)
    (ix2 p (⟨j.val % 128, Nat.mod_lt _ (by norm_num)⟩ : Fin 128)) (ix2 p j) rfl
    (by show j.val = 128 * (j.val / 128) + j.val % 128; omega)).symm

/-- Row j % 128 of block j / 128 of the first input array is part row j. -/
theorem block_row (c : Dev nD) (j : Fin 1536) :
    Pay.brow (rowsBlock (V3 (F := Ideal) m ρ c main_v4) (⟨j.val / 128, by have := j.isLt; omega⟩ : Fin 12))
        (⟨j.val % 128, Nat.mod_lt _ (by norm_num)⟩ : Fin 128)
      = partRow (m ((c : Thread nD τ).loc main_arg2)) j :=
  funext fun k => (rowsBlock_apply (V3 m ρ c main_v4) _ _ k j
    (by show j.val = 128 * (j.val / 128) + j.val % 128; omega)).trans (v4_row m ρ c j k)

/-- The target word of row j % 128 of block j / 128 is the word of batch row j / 6. -/
theorem block_word (c : Dev nD) (j : Fin 1536) :
    wordsBlock (V3 (F := Ideal) m ρ c main_v5) (⟨j.val / 128, by have := j.isLt; omega⟩ : Fin 12)
        (ix2 (⟨j.val % 128, Nat.mod_lt _ (by norm_num)⟩ : Fin 128) (0 : Fin 1))
      = (m ((c : Thread nD τ).loc main_arg4) : S256.Idx → BitVec 32) (ix1 (⟨j.val / 6, by have := j.isLt; omega⟩ : Fin 256)) :=
  (wordsBlock_apply (V3 m ρ c main_v5) _ _ j
    (by show j.val = 128 * (j.val / 128) + j.val % 128; omega)).trans (v5_entry m ρ c j)

theorem part_nll (c : Dev nD) (j : Fin 1536)
    (hT : ∀ b : Fin 256, ((m ((c : Thread nD τ).loc main_arg4) : S256.Idx → BitVec 32) (ix1 b)).toNat < 10000) :
    (W4 (F := Ideal) m ρ c (Proc.devRef .tc main_v6) : S2x1536.Idx → EReal) (ix2 (0 : Fin 2) j)
      = nllK (partRow (m ((c : Thread nD τ).loc main_arg2)) j) (tgtPart (m ((c : Thread nD τ).loc main_arg4)) j) := by
  rw [out_entry]
  refine (Pay.k1pay1_nll _ _ _ (by rw [block_word]; exact hT _)).trans ?_
  rw [block_word, block_row]
  rfl

theorem part_smooth (c : Dev nD) (j : Fin 1536) :
    (W4 (F := Ideal) m ρ c (Proc.devRef .tc main_v6) : S2x1536.Idx → EReal) (ix2 (1 : Fin 2) j)
      = smoothK (partRow (m ((c : Thread nD τ).loc main_arg2)) j) := by
  rw [out_entry]
  refine (Pay.k1pay1_smooth _ _ _).trans ?_
  rw [block_row]

end Cert.KernelIdeal.Reg1

end
-- ==== Proof.KTail.lean ====
/-
  The last stretch of the kernel program's host operations.  After the two regions the program slices each 2 × N
  statistics array into its two rows, re-lays each 1 × N row as a vector of N, and from these six vectors and the
  proposals' scores does the arithmetic of `Tail.tail`.  So the result buffer holds `tail` of the six row vectors
  (the part rows' negative log-likelihoods a second time for the ranking term) and of the scores as launched.
-/
import proofs.«430306_j64080912056667_3_alg».proof.Proof.Gen.KernelIdeal.Frame
import proofs.«430306_j64080912056667_3_alg».proof.Proof.Spec
import proofs.«430306_j64080912056667_3_alg».proof.Proof.Tail
import Idealize.ShloMosaic.Lib.ValueIdx
import Idealize.ShloMosaic.Lib.Pipeline.Value
import Idealize.ShloMosaic.Lib.StableHlo.Run
import Idealize.ShloMosaic.Lib.ValueLayout

set_option maxRecDepth 16384

noncomputable section

namespace Cert.KernelIdeal.KTail

open Cert.KernelIdeal Cert.KernelIdeal.Gen Cert.NTS
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- Row 0 of a 2 × 256 array as a vector of 256: the slice [0:1, 0:256] re-laid. -/
def row0_256 (A : FVec Ideal S2x256 .f32) : FVec Ideal S256 .f32 :=
  shapeCast S256 (extractStridedSlice S1x256 ![0, 0] A slices_S2x256_S1x256_0_0) shapeCasts_S1x256_S256
/-- Row 1 of a 2 × 256 array as a vector of 256. -/
def row1_256 (A : FVec Ideal S2x256 .f32) : FVec Ideal S256 .f32 :=
  shapeCast S256 (extractStridedSlice S1x256 ![1, 0] A slices_S2x256_S1x256_1_0) shapeCasts_S1x256_S256
/-- Row 0 of a 2 × 1536 array as a vector of 1536. -/
def row0_1536 (A : FVec Ideal S2x1536 .f32) : FVec Ideal S1536 .f32 :=
  shapeCast S1536 (extractStridedSlice S1x1536 ![0, 0] A slices_S2x1536_S1x1536_0_0) shapeCasts_S1x1536_S1536
/-- Row 1 of a 2 × 1536 array as a vector of 1536. -/
def row1_1536 (A : FVec Ideal S2x1536 .f32) : FVec Ideal S1536 .f32 :=
  shapeCast S1536 (extractStridedSlice S1x1536 ![1, 0] A slices_S2x1536_S1x1536_1_0) shapeCasts_S1x1536_S1536

/-! Each row vector read at j: the re-laid 1 × N array is read at row-major position 0·N + j = j, that is at
    (0, j), and the slice that starts at row r reads there the array's (r + 0, 0 + j). -/

theorem row0_256_apply (A : FVec Ideal S2x256 .f32) (j : Fin 256) : row0_256 A (ix1 j) = A (ix2 (0 : Fin 2) j) := by
  unfold row0_256
  refine (shapeCast_1a_a_apply _ _ j).trans ?_
  exact slice2_axis0_apply 0 A _ (0 : Fin 1) j (0 : Fin 2) rfl
theorem row1_256_apply (A : FVec Ideal S2x256 .f32) (j : Fin 256) : row1_256 A (ix1 j) = A (ix2 (1 : Fin 2) j) := by
  unfold row1_256
  refine (shapeCast_1a_a_apply _ _ j).trans ?_
  exact slice2_axis0_apply 1 A _ (0 : Fin 1) j (1 : Fin 2) rfl
theorem row0_1536_apply (A : FVec Ideal S2x1536 .f32) (j : Fin 1536) : row0_1536 A (ix1 j) = A (ix2 (0 : Fin 2) j) := by
  unfold row0_1536
  refine (shapeCast_1a_a_apply _ _ j).trans ?_
  exact slice2_axis0_apply 0 A _ (0 : Fin 1) j (0 : Fin 2) rfl
theorem row1_1536_apply (A : FVec Ideal S2x1536 .f32) (j : Fin 1536) : row1_1536 A (ix1 j) = A (ix2 (1 : Fin 2) j) := by
  unfold row1_1536
  refine (shapeCast_1a_a_apply _ _ j).trans ?_
  exact slice2_axis0_apply 1 A _ (0 : Fin 1) j (1 : Fin 2) rfl

/-- The proposals' scores at the second region's exit are the scores as launched: neither region has the scores among
    its arrays and no host operation before the second region writes them. -/
theorem W4_main_arg3 (c : Dev nD) :
    W4 (F := Ideal) m ρ c (Proc.devRef .tc main_arg3) = m ((c : Thread nD τ).loc main_arg3) := by
  -- the second region leaves every buffer that is not one of its arrays as it found it
  rw [W4_of_ne m ρ c main_arg3 (by decide)]
  -- the two host operations before it write other buffers
  dsimp only [W3]
  after_results_simp
  -- likewise the first region, and the three host operations before it; what is left is the launch memory
  rw [W2_of_ne m ρ c main_arg3 (by decide)]
  dsimp only [W1]
  after_results_simp

set_option maxHeartbeats 40000000 in
/-- The result buffer after the last host operation: `tail` of the rows of the three statistics arrays as the
    regions left them and of the scores as launched. -/
theorem result_eq (c : Dev nD) :
    W7 (F := Ideal) m ρ c (Proc.devRef .tc main_v60)
      = Cert.ReferenceIdeal.Tail.tail
          (row0_256 (W4 (F := Ideal) m ρ c (Proc.devRef .tc main_v3_0))) (row1_256 (W4 (F := Ideal) m ρ c (Proc.devRef .tc main_v3_0)))
          (row0_256 (W4 (F := Ideal) m ρ c (Proc.devRef .tc main_v3_1))) (row1_256 (W4 (F := Ideal) m ρ c (Proc.devRef .tc main_v3_1)))
          (row0_1536 (W4 (F := Ideal) m ρ c (Proc.devRef .tc main_v6))) (row1_1536 (W4 (F := Ideal) m ρ c (Proc.devRef .tc main_v6)))
          (row0_1536 (W4 (F := Ideal) m ρ c (Proc.devRef .tc main_v6)))
          (m ((c : Thread nD τ).loc main_arg3)) := by
  -- read the result back through the three last stretches of host operations: each operation's buffer holds its
  -- function of its operands' buffers, every other buffer what it held, down to the contents at the second region's exit
  dsimp only [W7, W6, W5]
  after_results_simp
  -- the scores were never written
  rw [W4_main_arg3 m ρ c]
  -- the clamp at zero is the callee's maximum against a broadcast zero; its typed views of the buffers are the identity
  simp only [TRef.ofBuf, TRef.toBuf, cast_eq]
  -- what is left is the arithmetic of the common last stretch on the six row vectors, name for name
  rfl

end Cert.KernelIdeal.KTail

end
-- ==== Proof.Ref256.lean ====
/-
  The reference's statistics of a 256 × 10000 logits array, read entry by entry.  The reference forms the
  log-softmax array L (L_{j,k} = (x_{j,k} − M_j) − log S_j, M_j the row's maximum from −∞, S_j the sum of the shifted
  exponentials), then takes −L_{j,t_j} through a gather whose index is the target normalised (a negative index has
  10000 added) and whose out-of-range entries are filled: with 0 ≤ t_j < 10000 the normalisation does nothing and the
  range test passes, so the entry is L_{j,t_j}.  The smoothing term is −(Σ_k L_{j,k}) / 10000.  The two call sites
  (raw logits, concat logits) are the same operations on different arrays.
-/
import proofs.«430306_j64080912056667_3_alg».proof.Proof.RefRead
import proofs.«430306_j64080912056667_3_alg».proof.Proof.Spec
import Idealize.ShloMosaic.Lib.ValueIdx
import Idealize.ShloMosaic.Lib.Pipeline.Value
import Idealize.ShloMosaic.Lib.StableHlo.Predicate
import Idealize.ShloMosaic.PureOps.Ideal.Laws

set_option maxRecDepth 16384

noncomputable section

namespace Cert.ReferenceIdeal.Ref256

open Cert.ReferenceIdeal Cert.ReferenceIdeal.Gen Cert.ReferenceIdeal.ReadP Cert.NTS
open Idealize.ShloMosaic Idealize.ShloMosaic.TcCoe Idealize.SL.Sem Idealize.ShloMosaic.StableHlo Idealize.ShloMosaic.ValueIdx

/-! ## Two literals -/

/-- The word 0xFF800000 (sign 1, exponent field all ones, fraction 0) is −∞. -/
theorem ofBits_negInf : Ideal.ofBits .f32 0xFF800000#32 = (⊥ : EReal) := by
  simp [Ideal.ofBits, Ideal.ieee]

/-- The word 0x461C4000 is 10000: exponent field 140, fraction field 1851392, and
    (2²³ + 1851392) · 2^(140 − 127 − 23) = 10240000 / 1024. -/
theorem ofBits_tenThousand : Ideal.ofBits .f32 0x461C4000#32 = ((10000 : ℝ) : EReal) := by
  simp [Ideal.ofBits, Ideal.ieee, -EReal.coe_mul]
  norm_num

/-! ## A conjunction of ones -/

/-- A fold of one-bit conjunction from 1 over entries that are all 1 is 1. -/
theorem fold_andi_one {ι : Type} [DecidableEq ι] (s : Finset ι) (f : ι → BitVec 1) (hf : ∀ k ∈ s, f k = 1#1) :
    s.fold IntOp.andi 1#1 f = 1#1 := by
  induction s using Finset.induction_on with
  | empty => rfl
  | insert a s ha ih =>
    rw [Finset.fold_insert ha, hf a (Finset.mem_insert_self a s), ih (fun k hk => hf k (Finset.mem_insert_of_mem hk))]
    rfl

/-! ## The gather's operand index

  Operand axis 0 is a batching axis paired with axis 0 of the start indices, operand axis 1 is collapsed and is the
  one the start index names; the slice is 1 × 1.  So result entry (j, 0) reads the operand at row j and at the column
  the start index at (j, 0, 0) names, read signed and clamped into [0, 9999]. -/

abbrev gd : GatherDims S256x10000 S256x1x1 S256x1 := gather_S256x10000_S256x1x1_S256x1_n_1_0_0_1_2_11

theorem gather_row (v : IVec S256x1x1 32) (j : Fin 256) :
    (gd.operandIdx (ix2 j (0 : Fin 1)) v 0).val = j.val := by
  show gd.start (ix2 j (0 : Fin 1)) v 0 + gd.batchCoord (ix2 j (0 : Fin 1)) 0 + gd.offCoord (ix2 j (0 : Fin 1)) 0 = j.val
  rw [GatherDims.start_batching gd _ _ 0 (List.mem_singleton.mpr rfl),
    GatherDims.offCoord_eq_zero gd _ 0 (by decide), Nat.zero_add, Nat.add_zero]
  unfold GatherDims.batchCoord
  rw [dif_pos (show (0 : Fin S256x10000.rank) ∈ gd.operandBatchingDims from List.mem_singleton.mpr rfl)]
  rfl

theorem gather_col (v : IVec S256x1x1 32) (j : Fin 256) :
    (gd.operandIdx (ix2 j (0 : Fin 1)) v 1).val = min (v (ix3 j (0 : Fin 1) (0 : Fin 1))).toInt.toNat 9999 := by
  show gd.start (ix2 j (0 : Fin 1)) v 1 + gd.batchCoord (ix2 j (0 : Fin 1)) 1 + gd.offCoord (ix2 j (0 : Fin 1)) 1 = _
  rw [GatherDims.batchCoord_eq_zero gd _ 1 (by decide), GatherDims.offCoord_eq_zero gd _ 1 (by decide)]
  simp only [Nat.add_zero]
  unfold GatherDims.start
  rw [dif_pos (show (1 : Fin S256x10000.rank) ∈ gd.startIndexMap from List.mem_singleton.mpr rfl)]
  have hsi : gd.siIdx (ix2 j (0 : Fin 1)) ⟨List.idxOf (1 : Fin S256x10000.rank) gd.startIndexMap,
      List.idxOf_lt_length_iff.2 (List.mem_singleton.mpr rfl)⟩ = ix3 j (0 : Fin 1) (0 : Fin 1) := by
    funext b; refine Fin.ext ?_
    match b with
    | ⟨0, _⟩ => rfl
    | ⟨1, _⟩ => rfl
    | ⟨2, _⟩ => rfl
  rw [hsi]
  rfl

/-! ## Raw logits (the first call site) -/

section Raw

variable (x0 : FVec Ideal S256x10000 .f32) (x4 : IVec S256 32) (j : Fin 256)

/-- The row maximum: the fold of max from −∞ over the row, then max with −∞ once more. -/
theorem rowMax_apply : val_main_call2_v2 (F := Ideal) x0 (ix1 j) = rowMax (rowOf x0 j) := by
  have hR : S256x10000.Reduces [1] S256 := by decide
  rw [val_main_call2_v2_apply, val_main_call2_v1_apply, val_main_call2_cst_0_apply]
  unfold val_main_call2_v0
  rw [Host.reduce_eq_fold_single (FloatOps.maximumf (F := Ideal) (φ := .f32)) x0 _ reducesTo_S256x10000_S256_d1 hR h_S_ (ix1 j),
    val_main_call2_cst_apply, Ideal.maximumf_def, Ideal.ofBits_def, ofBits_negInf, max_eq_right bot_le]
  unfold rowMax rowOf
  exact Finset.fold_congr (fun k _ => congrArg x0 (funext fun a => Fin.ext (by
    match a with
    | ⟨0, _⟩ => rfl
    | ⟨1, _⟩ => rfl)))

theorem idx_max (k : Fin 10000) : idx_main_call2_v3 (idx_main_call2_v4 (ix2 j k)) = ix1 j := by
  funext a; match a with | ⟨0, _⟩ => rfl

theorem idx_log (k : Fin 10000) : idx_main_call2_v8 (idx_main_call2_v10 (ix2 j k)) = ix1 j := by
  funext a; match a with | ⟨0, _⟩ => rfl

theorem idx_sum (k : Fin 10000) : idx_main_call2_v7 (ix1 j) k = ix2 j k := by
  funext a; match a with | ⟨0, _⟩ => rfl | ⟨1, _⟩ => rfl

theorem idx_mean (k : Fin 10000) : idx_main_v14 (ix1 j) k = ix2 j k := by
  funext a; match a with | ⟨0, _⟩ => rfl | ⟨1, _⟩ => rfl

/-- The shifted entry x_{j,k} − M_j. -/
theorem shifted_apply (k : Fin 10000) :
    val_main_call2_v5 (F := Ideal) x0 (ix2 j k) = x0 (ix2 j k) - rowMax (rowOf x0 j) := by
  rw [val_main_call2_v5_apply, val_main_call2_v4_apply, val_main_call2_v3_apply, idx_max j k, rowMax_apply x0 j,
    Ideal.subf_def]

/-- The row's sum of shifted exponentials (the host sum starts from the word 0). -/
theorem sumExp_apply : val_main_call2_v7 (F := Ideal) x0 (ix1 j) = sumExp (rowOf x0 j) := by
  rw [val_main_call2_v7_apply, val_main_call2_cst_1_apply, Ideal.ofBits_def, Ideal.ofBits_zero_f32, zero_add]
  unfold sumExp
  refine Finset.sum_congr rfl (fun k _ => ?_)
  rw [idx_sum j k, val_main_call2_v6_apply, shifted_apply x0 j k, Ideal.hostUnary_exp_def]
  rfl

/-- The log-softmax entry L_{j,k} = (x_{j,k} − M_j) − log S_j. -/
theorem logSoftmax_apply (k : Fin 10000) :
    val_main_v9 (F := Ideal) x0 (ix2 j k)
      = (x0 (ix2 j k) - rowMax (rowOf x0 j)) - Ideal.log (sumExp (rowOf x0 j)) := by
  rw [val_main_v9_apply, shifted_apply x0 j k, val_main_call2_v10_apply, val_main_call2_v9_apply,
    val_main_call2_v8_apply, idx_log j k, sumExp_apply x0 j, Ideal.hostUnary_log_def, Ideal.subf_def]

/-- The normalised index at any position of row j: the target word is below 10000, so it is not negative as a signed
    number, the branch that adds 10000 is not taken, and the index is the word itself. -/
theorem index_apply (h : (x4 (ix1 j)).toNat < 10000) (i : S256x1x1.Idx) (hi : (i 0).val = j.val) :
    val_main_call3_v5 (F := Ideal) x4 i = x4 (ix1 j) := by
  have hidx : idx_main_v10 (idx_main_call3_v5 i) = ix1 j := by
    funext a
    match a with
    | ⟨0, _⟩ =>
      refine Fin.ext ?_
      have h1 : (i 1).val < 1 := (i 1).isLt
      have h2 : (i 2).val < 1 := (i 2).isLt
      show (((i 0).val * 1 + (i 1).val) * 1 + (i 2).val) / 1 = j.val
      omega
  have hneg : ¬ IntOp.cmpi .slt (x4 (ix1 j)) 0#32 = 1#1 := by
    intro hc
    rw [Predicate.slt_iff_toNat (by omega) (by decide)] at hc
    simp at hc
  rw [val_main_call3_v5_apply, val_main_call3_v4_apply, val_main_call3_v1_apply, val_main_v10_apply, hidx,
    val_main_call3_v0_apply, val_main_call3_c_apply, eq_zero_of_ne_one hneg, select_zero]

/-- Both range tests (0 ≤ index, index ≤ 9999) pass at every position of row j. -/
theorem inRange_apply (h : (x4 (ix1 j)).toNat < 10000) (i : S256x1x1.Idx) (hi : (i 0).val = j.val) :
    val_main_call3_v11 (F := Ideal) x4 i = 1#1 := by
  have hge : IntOp.cmpi .sge (x4 (ix1 j)) 0#32 = 1#1 :=
    (Predicate.sge_iff_toNat (by omega) (by decide)).2 (by simp)
  have h9 : (9999#32 : BitVec 32).toNat = 9999 := by decide
  have hle : IntOp.cmpi .sle (x4 (ix1 j)) 9999#32 = 1#1 :=
    (Predicate.sle_iff_toNat (by omega) (by decide)).2 (by omega)
  rw [val_main_call3_v11_apply, val_main_call3_v7_apply, val_main_call3_v10_apply, index_apply x4 j h i hi,
    val_main_call3_v6_apply, val_main_call3_c_2_apply, val_main_call3_v9_apply, val_main_call3_v8_apply,
    val_main_call3_c_1_apply, hge, hle]
  rfl

/-- The conjunction over the unit axis of the range tests, from 1, is 1 at (j, 0). -/
theorem inRangeAll_apply (h : (x4 (ix1 j)).toNat < 10000) :
    val_main_call3_v12 (F := Ideal) x4 (ix2 j (0 : Fin 1)) = 1#1 := by
  have hR : S256x1x1.Reduces [2] S256x1 := by decide
  unfold val_main_call3_v12
  rw [Host.reduce_eq_fold_single IntOp.andi _ _ reducesTo_S256x1x1_S256x1_d2 hR h_S_ (ix2 j (0 : Fin 1)),
    val_main_call3_c_3_apply]
  exact fold_andi_one _ _ (fun k _ => inRange_apply x4 j h _ rfl)

/-- The gathered entry at (j, 0) is the log-softmax entry at (j, t_j): the start index is the target word, which read
    signed is its value and is not clamped. -/
theorem gathered_apply (h : (x4 (ix1 j)).toNat < 10000) :
    val_main_call3_v13 (F := Ideal) x0 x4 (ix2 j (0 : Fin 1)) = val_main_v9 (F := Ideal) x0 (ix2 j (tgt x4 j)) := by
  show val_main_v9 (F := Ideal) x0 (gd.operandIdx (ix2 j (0 : Fin 1)) (val_main_call3_v5 (F := Ideal) x4)) = _
  refine congrArg (val_main_v9 (F := Ideal) x0) (funext fun a => Fin.ext ?_)
  match a with
  | ⟨0, _⟩ => exact gather_row _ j
  | ⟨1, _⟩ =>
    refine (gather_col _ j).trans ?_
    rw [index_apply x4 j h (ix3 j (0 : Fin 1) (0 : Fin 1)) rfl, Predicate.toInt_eq_toNat_of_lt (by omega),
      Int.toNat_natCast, Nat.min_eq_left (by omega)]
    exact (Nat.mod_eq_of_lt h).symm

theorem idx_squeeze : idx_main_v12 (ix1 j) = ix2 j (0 : Fin 1) := by
  funext a
  match a with
  | ⟨0, _⟩ => exact Fin.ext (Nat.div_one _)
  | ⟨1, _⟩ => rfl

end Raw

/-- Raw logits: the negated gathered log-softmax entry of row j, for an in-range target. -/
theorem v13_apply (x0 : FVec Ideal S256x10000 .f32) (x4 : IVec S256 32) (j : Fin 256)
    (h : (x4 (ix1 j)).toNat < 10000) :
    val_main_v13 (F := Ideal) x0 x4 (ix1 j) = nllR (rowOf x0 j) (tgt x4 j) := by
  rw [val_main_v13_apply, val_main_v12_apply, idx_squeeze j, val_main_v11_apply, inRangeAll_apply x4 j h, select_one,
    gathered_apply x0 x4 j h, logSoftmax_apply x0 j, Ideal.hostNegf_def, Ideal.negf_def]
  rfl

/-- Raw logits: minus the log-softmax row's mean. -/
theorem v17_apply (x0 : FVec Ideal S256x10000 .f32) (j : Fin 256) :
    val_main_v17 (F := Ideal) x0 (ix1 j) = smoothR (rowOf x0 j) := by
  have hsum : ∑ k : Fin 10000, val_main_v9 (F := Ideal) x0 (idx_main_v14 (ix1 j) k)
      = ∑ k : Fin 10000, ((rowOf x0 j k - rowMax (rowOf x0 j)) - Ideal.log (sumExp (rowOf x0 j))) :=
    Finset.sum_congr rfl (fun k _ =>
      (congrArg (val_main_v9 (F := Ideal) x0) (idx_mean j k)).trans (logSoftmax_apply x0 j k))
  rw [val_main_v17_apply, val_main_v16_apply, val_main_v14_apply, hsum, val_main_v15_apply, val_main_cst_0_apply,
    val_main_cst_apply, Ideal.hostNegf_def, Ideal.negf_def, Ideal.hostDivf_def, Ideal.ofBits_def, Ideal.ofBits_def,
    Ideal.ofBits_zero_f32, ofBits_tenThousand]
  rfl

/-! ## Concat logits (the second call site): the same operations, stage for stage -/

theorem v29_eq (x1 : FVec Ideal S256x10000 .f32) (x4 : IVec S256 32) :
    val_main_v29 (F := Ideal) x1 x4 = val_main_v13 (F := Ideal) x1 x4 := rfl

theorem v33_eq (x1 : FVec Ideal S256x10000 .f32) :
    val_main_v33 (F := Ideal) x1 = val_main_v17 (F := Ideal) x1 := rfl

/-- Concat logits: the same two readings at the second call site. -/
theorem v29_apply (x1 : FVec Ideal S256x10000 .f32) (x4 : IVec S256 32) (j : Fin 256)
    (h : (x4 (ix1 j)).toNat < 10000) :
    val_main_v29 (F := Ideal) x1 x4 (ix1 j) = nllR (rowOf x1 j) (tgt x4 j) := by
  rw [v29_eq]; exact v13_apply x1 x4 j h

theorem v33_apply (x1 : FVec Ideal S256x10000 .f32) (j : Fin 256) :
    val_main_v33 (F := Ideal) x1 (ix1 j) = smoothR (rowOf x1 j) := by
  rw [v33_eq]; exact v17_apply x1 j

end Cert.ReferenceIdeal.Ref256

end
-- ==== Proof.Ref1536.lean ====
/-
  The reference's statistics of the part logits, read entry by entry.  The 256 × 6 × 10000 array is re-laid
  1536 × 10000 (row j is batch j / 6, proposal j % 6) and the targets are repeated six times each (entry j is target
  j / 6); on that array the reference does what it does on the raw logits: the log-softmax array, the gathered entry
  negated (in range, so the index normalisation and the fill do nothing), and minus the row's mean.  The program
  computes the part rows' negative log-likelihoods twice, once for the ranking term and once for the cross-entropy:
  the two are the same operations of the same arrays.

  Three facts do not depend on the program and come first: a reduction by maximum from −∞ along the rows of a matrix is,
  at row j, the fold of max from −∞ over the row; a reduction by conjunction over a unit axis is 1 where its one operand
  entry is 1; and a gather with one batching axis (the rows), one collapsed axis (the columns) and one start index per
  row reads, in row j, the column the row's start index names, clamped into the row.  A 32-bit word whose value is below
  10000 is non-negative as a signed number, lies in [0, 9999], and is its own clamp.
-/
import proofs.«430306_j64080912056667_3_alg».proof.Proof.RefRead
import proofs.«430306_j64080912056667_3_alg».proof.Proof.Spec
import Idealize.ShloMosaic.Lib.ValueIdx
import Idealize.ShloMosaic.Lib.Pipeline.Value
import Idealize.ShloMosaic.PureOps.Ideal.Laws
import Idealize.ShloMosaic.Lib.StableHlo.Predicate

set_option maxRecDepth 16384

noncomputable section

namespace Cert.ReferenceIdeal.Ref1536

open Cert.ReferenceIdeal Cert.ReferenceIdeal.Gen Cert.ReferenceIdeal.ReadP Cert.NTS
open Idealize.ShloMosaic Idealize.ShloMosaic.TcCoe Idealize.SL.Sem Idealize.ShloMosaic.StableHlo Idealize.ShloMosaic.ValueIdx

/-! ## A row's maximum -/

/-- Row index j with column k put back is (j, k). -/
theorem lift_row {R N : Nat} (h : (⟨2, ![R, N]⟩ : Shape).Reduces [1] (⟨1, ![R]⟩ : Shape)) (j : Fin R)
    (k : Fin ((⟨2, ![R, N]⟩ : Shape).size 1)) : h.lift (ix1 j) k = ix2 j (⟨k.val, k.isLt⟩ : Fin N) := by
  funext c; apply Fin.ext
  fin_cases c <;> rfl

/-- The f32 pattern of −∞. -/
theorem ofBits_negInf : Ideal.ofBits .f32 0xFF800000#32 = (⊥ : EReal) := by simp [Ideal.ofBits, Ideal.ieee]

/-- The f32 pattern of 10000 = (2²³ + 1851392) · 2⁻¹⁰. -/
theorem ofBits_tenThousand : Ideal.ofBits .f32 0x461C4000#32 = ((10000 : ℝ) : EReal) := by
  simp [Ideal.ofBits, Ideal.ieee, -EReal.coe_mul]; norm_num

/-- From −∞ the reduction by maximum along the rows is, at row j, the fold of max over the row. -/
theorem hostMax_row {R N : Nat} (x : FVec Ideal ⟨2, ![R, N]⟩ .f32) (init : (⟨0, ![]⟩ : Shape).Idx → EReal)
    (h' : (⟨2, ![R, N]⟩ : Shape).ReducesTo [1] (⟨1, ![R]⟩ : Shape))
    (h : (⟨2, ![R, N]⟩ : Shape).Reduces [1] (⟨1, ![R]⟩ : Shape)) (hu : 0 < (⟨0, ![]⟩ : Shape).numel)
    (hi : init (Shape.Idx.first hu) = (⊥ : EReal)) (j : Fin R) :
    Host.reduce (FloatOps.maximumf (F := Ideal) (φ := .f32)) x init h' hu (ix1 j)
      = (Finset.univ : Finset (Fin N)).fold max (⊥ : EReal) (fun k => x (ix2 j k)) := by
  rw [Host.reduce_eq_fold_single FloatOps.maximumf x _ h' h hu]
  have hf : (x ∘ h.lift (ix1 j)) = fun k : Fin N => x (ix2 j k) := funext fun k => congrArg x (lift_row h j k)
  rw [hf, hi]
  rfl

/-! ## A conjunction over a unit axis -/

/-- A fold by conjunction from 1 over ones is 1. -/
theorem fold_andi_one {ι : Type} [DecidableEq ι] (S : Finset ι) (f : ι → BitVec 1) (hf : ∀ k ∈ S, f k = 1#1) :
    S.fold IntOp.andi 1#1 f = 1#1 := by
  induction S using Finset.induction_on with
  | empty => rfl
  | insert a S ha ih =>
    rw [Finset.fold_insert ha, hf a (Finset.mem_insert_self a S), ih (fun k hk => hf k (Finset.mem_insert_of_mem hk))]
    rfl

/-- Over (j, 0), the one index of the dropped unit axis gives (j, 0, 0). -/
theorem lift_unit {R : Nat} (h : (⟨3, ![R, 1, 1]⟩ : Shape).Reduces [2] (⟨2, ![R, 1]⟩ : Shape)) (j : Fin R)
    (k : Fin ((⟨3, ![R, 1, 1]⟩ : Shape).size 2)) : h.lift (ix2 j (0 : Fin 1)) k = ix3 j (0 : Fin 1) (0 : Fin 1) := by
  funext c; apply Fin.ext
  have hk : k.val = 0 := by have := k.isLt; change k.val < 1 at this; omega
  fin_cases c
  · rfl
  · rfl
  · show k.val = 0; exact hk

/-- From 1 the reduction by conjunction over the last, unit axis is 1 at (j, 0) when the operand is 1 at (j, 0, 0). -/
theorem hostAnd_unit {R : Nat} (p : IVec ⟨3, ![R, 1, 1]⟩ 1) (init : (⟨0, ![]⟩ : Shape).Idx → BitVec 1)
    (h' : (⟨3, ![R, 1, 1]⟩ : Shape).ReducesTo [2] (⟨2, ![R, 1]⟩ : Shape))
    (h : (⟨3, ![R, 1, 1]⟩ : Shape).Reduces [2] (⟨2, ![R, 1]⟩ : Shape)) (hu : 0 < (⟨0, ![]⟩ : Shape).numel)
    (hi : init (Shape.Idx.first hu) = 1#1) (j : Fin R) (hp : p (ix3 j (0 : Fin 1) (0 : Fin 1)) = 1#1) :
    Host.reduce IntOp.andi p init h' hu (ix2 j (0 : Fin 1)) = 1#1 := by
  rw [Host.reduce_eq_fold_single IntOp.andi p _ h' h hu, hi]
  exact fold_andi_one _ _ (fun k _ => by show p (h.lift (ix2 j (0 : Fin 1)) k) = 1#1; rw [lift_unit h j k, hp])

/-! ## A gather of one entry per row -/

section RowTake
variable {α : Type}

/-- The dimension numbers of a gather of one entry per row of an R × N operand at R × 1 × 1 start indices: the rows
    are the batching axis of both, the columns are collapsed and named by the start index. -/
abbrev rowTakeDims (R N : Nat) (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- The start-indices index (r, c, 0) of result index (r, c). -/
abbrev rowTakeIdx {R : Nat} (y : (⟨2, ![R, 1]⟩ : Shape).Idx) : (⟨3, ![R, 1, 1]⟩ : Shape).Idx :=
  fun a => match a with | ⟨0, _⟩ => ⟨(y 0).val, idx2_lt0 y⟩ | ⟨1, _⟩ => ⟨(y 1).val, idx2_lt1 y⟩ | ⟨2, _⟩ => ⟨0, Nat.one_pos⟩

/-- On the row axis the operand index is the result's row: a batching axis has no start and no offset. -/
theorem rowTake_axis0 {R N w : Nat}
    (wf : GatherDims.WF ⟨2, ![R, N]⟩ ⟨3, ![R, 1, 1]⟩ ⟨2, ![R, 1]⟩ [] [1] [0] [1] [0] 2 ![1, 1])
    (idx : IVec ⟨3, ![R, 1, 1]⟩ w) (y : (⟨2, ![R, 1]⟩ : Shape).Idx) :
    (rowTakeDims R N wf).start y idx 0 + (rowTakeDims R N wf).batchCoord y 0 + (rowTakeDims R N wf).offCoord y 0 = (y 0).val := by
  rw [GatherDims.start_batching _ _ _ _ (List.mem_singleton.mpr rfl),
    GatherDims.offCoord_eq_zero _ _ _ (fun h => ((GatherDims.mem_sKept _ _).mp h).2 (List.mem_singleton.mpr rfl))]
  simp only [Nat.zero_add, Nat.add_zero]
  unfold GatherDims.batchCoord
  rw [dif_pos (show (0 : Fin 2) ∈ (rowTakeDims R N wf).operandBatchingDims from List.mem_singleton.mpr rfl)]
  rfl

/-- On the column axis the operand index is the clamped start index: a collapsed axis has no batch coordinate and no
    offset. -/
theorem rowTake_axis1 {R N w : Nat}
    (wf : GatherDims.WF ⟨2, ![R, N]⟩ ⟨3, ![R, 1, 1]⟩ ⟨2, ![R, 1]⟩ [] [1] [0] [1] [0] 2 ![1, 1])
    (idx : IVec ⟨3, ![R, 1, 1]⟩ w) (y : (⟨2, ![R, 1]⟩ : Shape).Idx) :
    (rowTakeDims R N wf).start y idx 1 + (rowTakeDims R N wf).batchCoord y 1 + (rowTakeDims R N wf).offCoord y 1
      = min (idx (rowTakeIdx y)).toInt.toNat (N - 1) := by
  rw [GatherDims.batchCoord_eq_zero _ _ _ (fun h => Nat.one_ne_zero (congrArg Fin.val (List.mem_singleton.mp h))),
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (rowTakeDims R N wf).startIndexMap from List.mem_singleton.mpr rfl)]
  have hsi : (rowTakeDims R N wf).siIdx y ⟨List.idxOf (1 : Fin 2) (rowTakeDims R N wf).startIndexMap,
      List.idxOf_lt_length_iff.2 (List.mem_singleton.mpr rfl)⟩ = rowTakeIdx y := by
    funext b; refine Fin.ext ?_
    match b with
    | ⟨0, _⟩ => rfl
    | ⟨1, _⟩ => rfl
    | ⟨2, _⟩ => rfl
  rw [hsi]
  rfl

/-- The gather read at (r, c): the operand in row r at the column the start index (r, c, 0) names, read signed and
    clamped into [0, N − 1]. -/
theorem gather_rowTake_apply {R N w : Nat} (hN : 0 < N)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (y : (⟨2, ![R, 1]⟩ : Shape).Idx) :
    Host.gather (rowTakeDims R N wf) x idx y
      = x (ix2 (⟨(y 0).val, idx2_lt0 y⟩ : Fin R) (⟨min (idx (rowTakeIdx y)).toInt.toNat (N - 1), by omega⟩ : Fin N)) := by
  unfold Host.gather
  congr 1
  funext a
  refine Fin.ext ?_
  match a with
  | ⟨0, _⟩ => exact rowTake_axis0 wf idx y
  | ⟨1, _⟩ => exact rowTake_axis1 wf idx y

end RowTake

/-! ## A target word in range -/

/-- A 32-bit word below 10000 is not negative as a signed number, lies in [0, 9999], and is its own clamp into
    [0, 9999]. -/
theorem inRange_word (t : BitVec 32) (ht : t.toNat < 10000) :
    IntOp.cmpi .slt t 0#32 = 0#1 ∧ IntOp.cmpi .sge t 0#32 = 1#1 ∧ IntOp.cmpi .sle t 9999#32 = 1#1
      ∧ min t.toInt.toNat (10000 - 1) = t.toNat := by
  have h31 : t.toNat < 2 ^ 31 := by omega
  have h0 : (0#32 : BitVec 32).toNat < 2 ^ 31 := by decide
  have h9 : (9999#32 : BitVec 32).toNat < 2 ^ 31 := by decide
  refine ⟨?_, ?_, ?_, ?_⟩
  · refine eq_zero_of_ne_one (fun h => ?_)
    have := (StableHlo.Predicate.slt_iff_toNat h31 h0).1 h
    simp at this
  · exact (StableHlo.Predicate.sge_iff_toNat h31 h0).2 (by simp)
  · exact (StableHlo.Predicate.sle_iff_toNat h31 h9).2 (by have : (9999#32 : BitVec 32).toNat = 9999 := rfl; omega)
  · rw [StableHlo.Predicate.toInt_eq_toNat_of_lt h31, Int.toNat_natCast]; omega

/-! ## The part logits re-laid, and their log-softmax array -/

/-- Entry (j, k) of the 1536 × 10000 array is entry (j / 6, j % 6, k) of the 256 × 6 × 10000 one: its row-major
    position is 10000 j + k. -/
theorem idx_v0 (j : Fin 1536) (k : Fin 10000) :
    idx_main_v0 (ix2 j k)
      = ix3 (⟨j.val / 6, by have := j.isLt; omega⟩ : Fin 256) (⟨j.val % 6, Nat.mod_lt _ (by norm_num)⟩ : Fin 6) k := by
  funext a; apply Fin.ext
  have hk := k.isLt
  match a with
  | ⟨0, _⟩ => show (j.val * 10000 + k.val) / 60000 = j.val / 6; omega
  | ⟨1, _⟩ => show (j.val * 10000 + k.val) / 10000 % 6 = j.val % 6; omega
  | ⟨2, _⟩ => show (j.val * 10000 + k.val) % 10000 = k.val; omega

/-- Row j of the re-laid array is part row j. -/
theorem v0_at (x2 : FVec Ideal S256x6x10000 .f32) (j : Fin 1536) (k : Fin 10000) :
    val_main_v0 (F := Ideal) x2 (ix2 j k) = partRow x2 j k := by
  rw [val_main_v0_apply, idx_v0]
  rfl

/-- The row maxima: max(−∞, the fold of max from −∞ over the row). -/
theorem rowMax_at (x2 : FVec Ideal S256x6x10000 .f32) (j : Fin 1536) :
    val_main_call6_v2 (F := Ideal) x2 (ix1 j) = rowMax (partRow x2 j) := by
  have hm : val_main_call6_v0 (F := Ideal) x2 (ix1 j) = rowMax (partRow x2 j) := by
    unfold val_main_call6_v0
    refine (hostMax_row (val_main_v0 (F := Ideal) x2) (val_main_call6_cst (F := Ideal)) reducesTo_S1536x10000_S1536_d1 (by decide) h_S_
      ofBits_negInf j).trans ?_
    unfold rowMax
    exact congrArg (fun f => Finset.fold max (⊥ : EReal) f (Finset.univ : Finset (Fin 10000))) (funext fun k => v0_at x2 j k)
  rw [val_main_call6_v2_apply, val_main_call6_v1_apply, val_main_call6_cst_0_apply, hm]
  show max (Ideal.ofBits .f32 0xFF800000#32) _ = _
  rw [ofBits_negInf]
  exact max_eq_right bot_le

/-- The log-softmax array at (j, k): (x − M) − log Σ exp(x − M) on part row j. -/
theorem logSoftmax_at (x2 : FVec Ideal S256x6x10000 .f32) (j : Fin 1536) (k : Fin 10000) :
    val_main_v41 (F := Ideal) x2 (ix2 j k)
      = (partRow x2 j k - rowMax (partRow x2 j)) - Ideal.log (sumExp (partRow x2 j)) := by
  have h4 : ∀ k : Fin 10000, val_main_call6_v4 (F := Ideal) x2 (ix2 j k) = rowMax (partRow x2 j) := fun k => by
    rw [val_main_call6_v4_apply, val_main_call6_v3_apply]
    refine Eq.trans (congrArg (val_main_call6_v2 (F := Ideal) x2) ?_) (rowMax_at x2 j)
    funext a; match a with | ⟨0, _⟩ => rfl
  have h5 : ∀ k : Fin 10000, val_main_call6_v5 (F := Ideal) x2 (ix2 j k) = partRow x2 j k - rowMax (partRow x2 j) := fun k => by
    show FloatOps.subf (F := Ideal) (φ := .f32) (val_main_v0 (F := Ideal) x2 (ix2 j k)) (val_main_call6_v4 (F := Ideal) x2 (ix2 j k)) = _
    rw [v0_at, h4, Ideal.subf_def]
  have h7 : val_main_call6_v7 (F := Ideal) x2 (ix1 j) = sumExp (partRow x2 j) := by
    rw [val_main_call6_v7_apply, val_main_call6_cst_1_apply]
    show Ideal.ofBits .f32 0x00000000#32 + _ = _
    rw [Ideal.ofBits_zero_f32, zero_add]
    unfold sumExp
    refine Finset.sum_congr rfl (fun k _ => ?_)
    have e : idx_main_call6_v7 (ix1 j) k = ix2 j k := by
      funext a; match a with | ⟨0, _⟩ => rfl | ⟨1, _⟩ => rfl
    refine (congrArg (val_main_call6_v6 (F := Ideal) x2) e).trans ?_
    show FloatOps.hostUnary (F := Ideal) (φ := .f32) .exp (val_main_call6_v5 (F := Ideal) x2 (ix2 j k)) = _
    rw [h5, Ideal.hostUnary_exp_def]
  have h10 : val_main_call6_v10 (F := Ideal) x2 (ix2 j k) = Ideal.log (sumExp (partRow x2 j)) := by
    rw [val_main_call6_v10_apply]
    show FloatOps.hostUnary (F := Ideal) (φ := .f32) .log (val_main_call6_v8 (F := Ideal) x2 (idx_main_call6_v10 (ix2 j k))) = _
    have e : idx_main_call6_v8 (idx_main_call6_v10 (ix2 j k)) = ix1 j := by
      funext a; match a with | ⟨0, _⟩ => rfl
    rw [val_main_call6_v8_apply, (congrArg (val_main_call6_v7 (F := Ideal) x2) e).trans h7, Ideal.hostUnary_log_def]
  show FloatOps.subf (F := Ideal) (φ := .f32) (val_main_call6_v5 (F := Ideal) x2 (ix2 j k)) (val_main_call6_v10 (F := Ideal) x2 (ix2 j k)) = _
  rw [h5, h10, Ideal.subf_def]

/-! ## The repeated targets, and the take along the class axis -/

/-- Entry j of the repeated targets is the target of batch j / 6. -/
theorem v42_at (x4 : IVec S256 32) (j : Fin 1536) :
    val_main_v42 (F := Ideal) x4 (ix2 j (0 : Fin 1)) = x4 (ix1 (⟨j.val / 6, by have := j.isLt; omega⟩ : Fin 256)) := by
  rw [val_main_v42_apply, val_main_v2_apply, val_main_v1_apply]
  refine congrArg x4 (funext fun a => ?_)
  match a with | ⟨0, _⟩ => rfl

/-- The normalised start index of row j is the target itself: it is not negative. -/
theorem v5_at (x4 : IVec S256 32) (j : Fin 1536)
    (h : (x4 (ix1 (⟨j.val / 6, by have := j.isLt; omega⟩ : Fin 256))).toNat < 10000) :
    val_main_call7_v5 (F := Ideal) x4 (ix3 j (0 : Fin 1) (0 : Fin 1))
      = x4 (ix1 (⟨j.val / 6, by have := j.isLt; omega⟩ : Fin 256)) := by
  have hidx : idx_main_call7_v5 (ix3 j (0 : Fin 1) (0 : Fin 1)) = ix2 j (0 : Fin 1) := by
    funext a; apply Fin.ext
    match a with
    | ⟨0, _⟩ => show ((j.val * 1 + 0) * 1 + 0) / 1 = j.val; omega
    | ⟨1, _⟩ => rfl
  rw [val_main_call7_v5_apply, hidx]
  show Scalar.select (IntOp.cmpi .slt (val_main_v42 (F := Ideal) x4 (ix2 j (0 : Fin 1))) (val_main_call7_v0 (F := Ideal) (ix2 j (0 : Fin 1))))
    (val_main_call7_v3 (F := Ideal) x4 (ix2 j (0 : Fin 1))) (val_main_v42 (F := Ideal) x4 (ix2 j (0 : Fin 1))) = _
  rw [val_main_call7_v0_apply, val_main_call7_c_apply, v42_at, (inRange_word _ h).1, select_zero]

/-- Both range tests pass at row j. -/
theorem v11_at (x4 : IVec S256 32) (j : Fin 1536)
    (h : (x4 (ix1 (⟨j.val / 6, by have := j.isLt; omega⟩ : Fin 256))).toNat < 10000) :
    val_main_call7_v11 (F := Ideal) x4 (ix3 j (0 : Fin 1) (0 : Fin 1)) = 1#1 := by
  show IntOp.andi
    (IntOp.cmpi .sge (val_main_call7_v5 (F := Ideal) x4 (ix3 j (0 : Fin 1) (0 : Fin 1))) (val_main_call7_v6 (F := Ideal) (ix3 j (0 : Fin 1) (0 : Fin 1))))
    (IntOp.cmpi .sle (val_main_call7_v5 (F := Ideal) x4 (ix3 j (0 : Fin 1) (0 : Fin 1))) (val_main_call7_v9 (F := Ideal) (ix3 j (0 : Fin 1) (0 : Fin 1)))) = 1#1
  rw [val_main_call7_v6_apply, val_main_call7_c_2_apply, val_main_call7_v9_apply, val_main_call7_v8_apply,
    val_main_call7_c_1_apply, v5_at x4 j h, (inRange_word _ h).2.1, (inRange_word _ h).2.2.1]
  rfl

/-- So their conjunction over the unit axis is 1. -/
theorem v12_at (x4 : IVec S256 32) (j : Fin 1536)
    (h : (x4 (ix1 (⟨j.val / 6, by have := j.isLt; omega⟩ : Fin 256))).toNat < 10000) :
    val_main_call7_v12 (F := Ideal) x4 (ix2 j (0 : Fin 1)) = 1#1 := by
  unfold val_main_call7_v12
  exact hostAnd_unit (val_main_call7_v11 (F := Ideal) x4) (val_main_call7_c_3 (F := Ideal)) reducesTo_S1536x1x1_S1536x1_d2 (by decide) h_S_
    rfl j (v11_at x4 j h)

/-- The gather reads, in row j, the log-softmax array at the row's class. -/
theorem v13_at (x2 : FVec Ideal S256x6x10000 .f32) (x4 : IVec S256 32) (j : Fin 1536)
    (h : (x4 (ix1 (⟨j.val / 6, by have := j.isLt; omega⟩ : Fin 256))).toNat < 10000) :
    val_main_call7_v13 (F := Ideal) x2 x4 (ix2 j (0 : Fin 1)) = val_main_v41 (F := Ideal) x2 (ix2 j (tgtPart x4 j)) := by
  unfold val_main_call7_v13
  refine (gather_rowTake_apply (R := 1536) (N := 10000) (by norm_num) gather_S1536x10000_S1536x1x1_S1536x1_n_1_0_0_1_2_11_wf
    (val_main_v41 (F := Ideal) x2) (val_main_call7_v5 (F := Ideal) x4) (ix2 j (0 : Fin 1))).trans ?_
  refine congrArg (val_main_v41 (F := Ideal) x2) ?_
  have hidx : rowTakeIdx (ix2 j (0 : Fin 1)) = ix3 j (0 : Fin 1) (0 : Fin 1) := by
    funext a; match a with | ⟨0, _⟩ => rfl | ⟨1, _⟩ => rfl | ⟨2, _⟩ => rfl
  funext a; apply Fin.ext
  match a with
  | ⟨0, _⟩ => rfl
  | ⟨1, _⟩ =>
    show min (val_main_call7_v5 (F := Ideal) x4 (rowTakeIdx (ix2 j (0 : Fin 1)))).toInt.toNat (10000 - 1)
      = (x4 (ix1 (⟨j.val / 6, by have := j.isLt; omega⟩ : Fin 256))).toNat % 10000
    rw [hidx, v5_at x4 j h, (inRange_word _ h).2.2.2, Nat.mod_eq_of_lt h]

/-! ## The three statements -/

/-- The part rows' negated gathered log-softmax entry (the cross-entropy's copy), for an in-range target. -/
theorem v45_apply (x2 : FVec Ideal S256x6x10000 .f32) (x4 : IVec S256 32) (j : Fin 1536)
    (h : (x4 (ix1 (⟨j.val / 6, by have := j.isLt; omega⟩ : Fin 256))).toNat < 10000) :
    val_main_v45 (F := Ideal) x2 x4 (ix1 j) = nllR (partRow x2 j) (tgtPart x4 j) := by
  have hidx : idx_main_v44 (ix1 j) = ix2 j (0 : Fin 1) := by
    funext a; apply Fin.ext
    match a with
    | ⟨0, _⟩ => show j.val / 1 = j.val; omega
    | ⟨1, _⟩ => rfl
  show FloatOps.hostNegf (F := Ideal) (φ := .f32) (val_main_v44 (F := Ideal) x2 x4 (ix1 j)) = _
  rw [val_main_v44_apply, hidx]
  show FloatOps.hostNegf (F := Ideal) (φ := .f32) (Scalar.select (val_main_call7_v12 (F := Ideal) x4 (ix2 j (0 : Fin 1)))
    (val_main_call7_v13 (F := Ideal) x2 x4 (ix2 j (0 : Fin 1))) (val_main_call7_v14 (F := Ideal) (ix2 j (0 : Fin 1)))) = _
  rw [v12_at x4 j h, select_one, v13_at x2 x4 j h, logSoftmax_at, Ideal.hostNegf_def, Ideal.negf_def]
  rfl

/-- Minus the part rows' log-softmax mean. -/
theorem v49_apply (x2 : FVec Ideal S256x6x10000 .f32) (j : Fin 1536) :
    val_main_v49 (F := Ideal) x2 (ix1 j) = smoothR (partRow x2 j) := by
  have hsum : val_main_v46 (F := Ideal) x2 (ix1 j)
      = 0 + ∑ k : Fin 10000, ((partRow x2 j k - rowMax (partRow x2 j)) - Ideal.log (sumExp (partRow x2 j))) := by
    rw [val_main_v46_apply, val_main_cst_11_apply]
    show Ideal.ofBits .f32 0x00000000#32 + _ = _
    rw [Ideal.ofBits_zero_f32]
    refine congrArg (fun s => (0 : EReal) + s) (Finset.sum_congr rfl (fun k _ => ?_))
    have e : idx_main_v46 (ix1 j) k = ix2 j k := by
      funext a; match a with | ⟨0, _⟩ => rfl | ⟨1, _⟩ => rfl
    exact (congrArg (val_main_v41 (F := Ideal) x2) e).trans (logSoftmax_at x2 j k)
  show FloatOps.hostNegf (F := Ideal) (φ := .f32) (FloatOps.hostDivf (F := Ideal) (φ := .f32) (val_main_v46 (F := Ideal) x2 (ix1 j)) (val_main_v47 (F := Ideal) (ix1 j))) = _
  rw [hsum, val_main_v47_apply, val_main_cst_12_apply, Ideal.hostNegf_def, Ideal.negf_def, Ideal.hostDivf_def]
  show -(Ideal.div _ (Ideal.ofBits .f32 0x461C4000#32)) = _
  rw [ofBits_tenThousand]
  rfl

/-- The ranking term's copy of the part rows' negative log-likelihoods is the cross-entropy's. -/
theorem v7_eq_v45 (x2 : FVec Ideal S256x6x10000 .f32) (x4 : IVec S256 32) :
    val_main_v7 (F := Ideal) x2 x4 = val_main_v45 (F := Ideal) x2 x4 := by
  rfl

end Cert.ReferenceIdeal.Ref1536

end
-- ==== Proof.RefTail.lean ====
/-
  The reference program's result as `Tail.tail` of its six statistics vectors.  The stages after the six vectors are the operations of `tail` one for one, so unfolding them gives the
  equation.
-/
import proofs.«430306_j64080912056667_3_alg».proof.Proof.RefRead
import proofs.«430306_j64080912056667_3_alg».proof.Proof.Tail
import Idealize.ShloMosaic.Lib.ValueIdx
import Idealize.ShloMosaic.Lib.Pipeline.Value
import Idealize.ShloMosaic.PureOps.Ideal.Laws

set_option maxRecDepth 16384

noncomputable section

namespace Cert.ReferenceIdeal.RefTail

open Cert.ReferenceIdeal Cert.ReferenceIdeal.Gen Cert.ReferenceIdeal.ReadP
open Idealize.ShloMosaic Idealize.ShloMosaic.TcCoe Idealize.SL.Sem Idealize.ShloMosaic.StableHlo Idealize.ShloMosaic.ValueIdx

theorem result_eq (x0 x1 : FVec Ideal S256x10000 .f32) (x2 : FVec Ideal S256x6x10000 .f32) (x3 : FVec Ideal S256x6 .f32)
    (x4 : IVec S256 32) :
    val_main_v76 (F := Ideal) x0 x1 x2 x3 x4
      = Cert.ReferenceIdeal.Tail.tail (val_main_v13 (F := Ideal) x0 x4) (val_main_v17 (F := Ideal) x0)
          (val_main_v29 (F := Ideal) x1 x4) (val_main_v33 (F := Ideal) x1)
          (val_main_v45 (F := Ideal) x2 x4) (val_main_v49 (F := Ideal) x2) (val_main_v7 (F := Ideal) x2 x4) x3 := by
  unfold val_main_v76 val_main_v75 val_main_v74
  -- the raw loss
  unfold val_main_v24 val_main_cst_4 val_main_v23 val_main_cst_3 val_main_v22 val_main_v21 val_main_v20 val_main_cst_2
    val_main_v19 val_main_v18 val_main_cst_1
  -- the concat loss
  unfold val_main_v40 val_main_cst_10 val_main_v39 val_main_cst_9 val_main_v38 val_main_v37 val_main_v36 val_main_cst_8
    val_main_v35 val_main_v34 val_main_cst_7
  -- the part loss
  unfold val_main_v56 val_main_cst_16 val_main_v55 val_main_cst_15 val_main_v54 val_main_v53 val_main_v52 val_main_cst_14
    val_main_v51 val_main_v50 val_main_cst_13
  -- the ranking term
  unfold val_main_v73 val_main_cst_19 val_main_v72 val_main_cst_18 val_main_v71 val_main_call8_v0 val_main_call8_cst
    val_main_v70 val_main_v69 val_main_v68 val_main_v67 val_main_v66 val_main_v65 val_main_v64 val_main_cst_17 val_main_v63
    val_main_v62 val_main_v61 val_main_v60 val_main_v59 val_main_v58 val_main_v57 val_main_v8
  unfold Cert.ReferenceIdeal.Tail.tail Cert.ReferenceIdeal.Tail.loss256 Cert.ReferenceIdeal.Tail.loss1536
    Cert.ReferenceIdeal.Tail.rank
  rfl

end Cert.ReferenceIdeal.RefTail

end
-- ==== Proof.PreDecode.lean ====
/-
  What the precondition says of the arguments.  The predicate is a conjunction of six whole-array tests: |x| < +∞ for
  every entry of each of the four float arrays, 0 ≤ t for every target (signed), t < 10000 for every target (signed).
  From it: every entry of the three logits arrays is a real number, and every target word, read as a natural number,
  is below 10000 (a word that is non-negative as a signed number and below 10000 is below 10000 as a natural number).
-/
import proofs.«430306_j64080912056667_3_alg».proof.Pre_finite_inputs
import proofs.«430306_j64080912056667_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreV

open Cert.Pre_finite_inputs Idealize.ShloMosaic Idealize.ShloMosaic.ValueIdx

/-- A shape of rank 0 has exactly one index: the empty tuple. -/
local instance scalarIdx_subsingleton : Subsingleton S_.Idx := ⟨fun a b => funext fun d => d.elim0⟩

/-- The word 0x7F800000 (sign 0, exponent all ones, fraction 0) denotes +∞. -/
theorem top_word : Ideal.ofBits .f32 0x7F800000#32 = (⊤ : EReal) := by simp [Ideal.ofBits, Ideal.ieee]

/-- On the extended reals |x| = max x (-x), and |x| < +∞ excludes exactly x = -∞ (where |x| = +∞) and x = +∞:
    what remains is a real number. -/
theorem real_of_abs_lt_top (x : EReal)
    (h : Ideal.cmp .olt (max x (-x)) (Ideal.ofBits .f32 0x7F800000#32) = 1#1) : ∃ r : ℝ, x = (r : EReal) := by
  rw [top_word] at h
  induction x using EReal.rec with
  | bot => simp [Ideal.cmp] at h
  | coe r => exact ⟨r, rfl⟩
  | top => simp [Ideal.cmp] at h

/-- A 32-bit word t with 0 ≤ t and t < 10000 as SIGNED numbers: were its top bit set, its signed value t - 2³² would be
    negative; so the signed value is the unsigned one, and that is below 10000. -/
theorem nat_lt_of_signed (t : BitVec 32) (h0 : IntOp.cmpi .sge t 0#32 = 1#1) (h1 : IntOp.cmpi .slt t 10000#32 = 1#1) :
    t.toNat < 10000 := by
  simp only [IntOp.cmpi, StableHlo.Predicate.ofBool_eq_one_iff, BitVec.sle, BitVec.slt, decide_eq_true_eq] at h0 h1
  have e0 : (0#32 : BitVec 32).toInt = 0 := by decide
  have e1 : (10000#32 : BitVec 32).toInt = 10000 := by decide
  rw [e0] at h0
  rw [e1] at h1
  rw [BitVec.toInt_eq_toNat_cond] at h0 h1
  have := t.isLt
  split_ifs at h0 h1 <;> omega

theorem decode (x0 x1 : FVec Ideal S256x10000 .f32) (x2 : FVec Ideal S256x6x10000 .f32) (x3 : FVec Ideal S256x6 .f32)
    (x4 : IVec S256 32)
    (h : Cert.Pre_finite_inputs.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ b : Fin 256, (x4 (ix1 b)).toNat < 10000) := by
  -- the predicate's one value, at the one index of its rank-0 result
  have h' := congrFun h ix0
  dsimp only [Cert.Pre_finite_inputs.fn, Cert.Pre_finite_inputs.fn_part1] at h'
  -- a conjunction of two bits is 1 exactly when both are: peel the six tests off, last first
  have both : ∀ (a b : IVec S_ 1), andi a b ix0 = 1#1 → a ix0 = 1#1 ∧ b ix0 = 1#1 := fun a b e => IntOp.andi_eq_one.1 e
  obtain ⟨h5, hlt⟩ := both _ _ h'
  obtain ⟨h4, hge⟩ := both _ _ h5
  obtain ⟨h3, hx3⟩ := both _ _ h4
  obtain ⟨h2, hx2⟩ := both _ _ h3
  obtain ⟨hx0, hx1⟩ := both _ _ h2
  -- each test is an "and" over a whole array that came out 1, so the tested bit is 1 at every entry; the compared
  -- constant is the same at every entry, so the bit at entry i is the comparison of entry i with that constant
  refine ⟨fun i => ?_, fun i => ?_, fun i => ?_, fun b => ?_⟩
  · exact real_of_abs_lt_top (x0 i) (Host.reduce_andi_all _ _ _ _ ix0 hx0 i)
  · exact real_of_abs_lt_top (x1 i) (Host.reduce_andi_all _ _ _ _ ix0 hx1 i)
  · exact real_of_abs_lt_top (x2 i) (Host.reduce_andi_all _ _ _ _ ix0 hx2 i)
  · exact nat_lt_of_signed (x4 (ix1 b)) (Host.reduce_andi_all _ _ _ _ ix0 hge (ix1 b))
      (Host.reduce_andi_all _ _ _ _ ix0 hlt (ix1 b))

end Cert.PreV

end
-- ==== Proof.lean ====
/-
  The certificate's claim.  Both programs compute, from the raw logits, the concat logits, the part logits, the
  proposals' scores and the targets, the sum of three label-smoothed cross-entropies and a pairwise ranking hinge.
  They differ only in how a row's two statistics are formed: with M the row's maximum and S the sum of the shifted
  exponentials, the kernel stores (log S + M) − x_t and (log S + M) − (Σ_k x_k)·(1/10000) from two Pallas regions
  (the target entry picked out by a one-hot mask), while the reference forms the log-softmax rows, gathers entry t
  and averages.  On rows of finite reals and targets in 0 … 9999 the two pairs agree (Spec), both programs then do
  the same arithmetic on the six statistics vectors (Tail), so the results are equal.  The kernel's result is read
  off the run of its two regions and five host stretches (KRun, KRegion0, KRegion1, KTail), the reference's off its
  run (RefRun, RefRead, Ref256, Ref1536, RefTail); the precondition gives finiteness and the targets' range
  (PreDecode).  The frames are the generated ones; the idealization's three rewrites each name the literal
  9.99999974e-5 as 1/10000.
-/
import proofs.«430306_j64080912056667_3_alg».proof.Defs
import proofs.«430306_j64080912056667_3_alg».proof.Proof.Gen.Kernel
import proofs.«430306_j64080912056667_3_alg».proof.Proof.Gen.Kernel.Skeleton
import proofs.«430306_j64080912056667_3_alg».proof.Proof.Gen.Kernel.Launch
import proofs.«430306_j64080912056667_3_alg».proof.Proof.Gen.Kernel.Points
import proofs.«430306_j64080912056667_3_alg».proof.Proof.Gen.Kernel.Frame
import proofs.«430306_j64080912056667_3_alg».proof.Proof.Gen.KernelIdeal
import proofs.«430306_j64080912056667_3_alg».proof.Proof.Gen.KernelIdeal.Skeleton
import proofs.«430306_j64080912056667_3_alg».proof.Proof.Gen.KernelIdeal.Launch
import proofs.«430306_j64080912056667_3_alg».proof.Proof.Gen.KernelIdeal.Points
import proofs.«430306_j64080912056667_3_alg».proof.Proof.Gen.KernelIdeal.Frame
import proofs.«430306_j64080912056667_3_alg».proof.Proof.Gen.ReferenceIdeal
import proofs.«430306_j64080912056667_3_alg».proof.Proof.Gen.Pre_finite_inputs
import proofs.«430306_j64080912056667_3_alg».proof.Proof.Spec
import proofs.«430306_j64080912056667_3_alg».proof.Proof.Tail
import proofs.«430306_j64080912056667_3_alg».proof.Proof.KRun
import proofs.«430306_j64080912056667_3_alg».proof.Proof.KRegion0
import proofs.«430306_j64080912056667_3_alg».proof.Proof.KRegion1
import proofs.«430306_j64080912056667_3_alg».proof.Proof.KTail
import proofs.«430306_j64080912056667_3_alg».proof.Proof.RefRun
import proofs.«430306_j64080912056667_3_alg».proof.Proof.RefRead
import proofs.«430306_j64080912056667_3_alg».proof.Proof.Ref256
import proofs.«430306_j64080912056667_3_alg».proof.Proof.Ref1536
import proofs.«430306_j64080912056667_3_alg».proof.Proof.RefTail
import proofs.«430306_j64080912056667_3_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx Cert.NTS

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The three ledger entries: the certificate's table gives "inv_10000" the value 1/10000. -/
theorem preserves : Cert.preserves_Kernel_KernelIdeal :=
  ⟨IdealRules.named_const.statement Cert.KernelIdeal.κ "inv_10000" .f32 0x38D1B717#32 ((1 / 10000 : ℝ) : EReal) rfl,
   IdealRules.named_const.statement Cert.KernelIdeal.κ "inv_10000" .f32 0x38D1B717#32 ((1 / 10000 : ℝ) : EReal) rfl,
   IdealRules.named_const.statement Cert.KernelIdeal.κ "inv_10000" .f32 0x38D1B717#32 ((1 / 10000 : ℝ) : EReal) rfl⟩

/-- The two results are equal: each is `tail` of its program's six statistics vectors and of the scores, and the
    vectors agree entry by entry by the row identities, every row finite and every target in range. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W7 (F := Ideal) m ρ c (Proc.devRef .tc Cert.KernelIdeal.main_v60),
    Cert.KernelIdeal.GenR.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨hf0, hf1, hf2, hT⟩ := Cert.PreV.decode _ _ _ _ _ (hpre c)
  show _ = Cert.KernelIdeal.Gen.W7 (F := Ideal) m ρ c (Proc.devRef .tc Cert.KernelIdeal.main_v60)
  rw [Cert.ReferenceIdeal.RefTail.result_eq, Cert.KernelIdeal.KTail.result_eq,
    (hagree c).1, (hagree c).2.1, (hagree c).2.2.1, (hagree c).2.2.2.1, (hagree c).2.2.2.2,
    Cert.ReferenceIdeal.Ref1536.v7_eq_v45]
  have e1 : Cert.ReferenceIdeal.ReadP.val_main_v13 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg4))
      = Cert.KernelIdeal.KTail.row0_256 (Cert.KernelIdeal.Gen.W4 (F := Ideal) m ρ c (Proc.devRef .tc Cert.KernelIdeal.main_v3_0)) := by
    funext i
    obtain ⟨j, rfl⟩ : ∃ j : Fin 256, i = ix1 j := ⟨i 0, eq_ix1 i⟩
    rw [Cert.ReferenceIdeal.Ref256.v13_apply _ _ _ (hT j), Cert.KernelIdeal.KTail.row0_256_apply,
      Cert.KernelIdeal.Reg0.raw_nll m ρ c j hT]
    exact (nll_eq _ (fun k => hf0 (ix2 j k)) _).symm
  have e2 : Cert.ReferenceIdeal.ReadP.val_main_v17 (F := Ideal) (m ((c.tc : Thread Cert.KernelIdeal.nD Cert.KernelIdeal.τ).loc Cert.KernelIdeal.main_arg0))
      = Cert.KernelIdeal.KTail.row1_256 (Cert.KernelIdeal.Gen.W4 (F := Ideal) m ρ c (Proc.devRef .tc Cert.KernelIdeal.main_v3_0)) := by
    funext i
    obtain ⟨j, rfl⟩ : ∃ j : Fin 256, i = ix1 j := ⟨i 0, eq_ix1 i⟩
    rw [Cert.ReferenceIdeal.Ref256.v17_apply, Cert.KernelIdeal.KTail.row1_256_apply,
      Cert.KernelIdeal.Reg0.raw_smooth m ρ c j]
    exact (smooth_eq _ (fun k => hf0 (ix2 j k))).symm
  have e3 : Cert.ReferenceIdeal.ReadP.val_main_v29 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg4))
      = Cert.KernelIdeal.KTail.row0_256 (Cert.KernelIdeal.Gen.W4 (F := Ideal) m ρ c (Proc.devRef .tc Cert.KernelIdeal.main_v3_1)) := by
    funext i
    obtain ⟨j, rfl⟩ : ∃ j : Fin 256, i = ix1 j := ⟨i 0, eq_ix1 i⟩
    rw [Cert.ReferenceIdeal.Ref256.v29_apply _ _ _ (hT j), Cert.KernelIdeal.KTail.row0_256_apply,
      Cert.KernelIdeal.Reg0.cat_nll m ρ c j hT]
    exact (nll_eq _ (fun k => hf1 (ix2 j k)) _).symm
  have e4 : Cert.ReferenceIdeal.ReadP.val_main_v33 (F := Ideal) (m ((c.tc : Thread Cert.KernelIdeal.nD Cert.KernelIdeal.τ).loc Cert.KernelIdeal.main_arg1))
      = Cert.KernelIdeal.KTail.row1_256 (Cert.KernelIdeal.Gen.W4 (F := Ideal) m ρ c (Proc.devRef .tc Cert.KernelIdeal.main_v3_1)) := by
    funext i
    obtain ⟨j, rfl⟩ : ∃ j : Fin 256, i = ix1 j := ⟨i 0, eq_ix1 i⟩
    rw [Cert.ReferenceIdeal.Ref256.v33_apply, Cert.KernelIdeal.KTail.row1_256_apply,
      Cert.KernelIdeal.Reg0.cat_smooth m ρ c j]
    exact (smooth_eq _ (fun k => hf1 (ix2 j k))).symm
  have e5 : Cert.ReferenceIdeal.ReadP.val_main_v45 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg4))
      = Cert.KernelIdeal.KTail.row0_1536 (Cert.KernelIdeal.Gen.W4 (F := Ideal) m ρ c (Proc.devRef .tc Cert.KernelIdeal.main_v6)) := by
    funext i
    obtain ⟨j, rfl⟩ : ∃ j : Fin 1536, i = ix1 j := ⟨i 0, eq_ix1 i⟩
    rw [Cert.ReferenceIdeal.Ref1536.v45_apply _ _ _ (hT _), Cert.KernelIdeal.KTail.row0_1536_apply,
      Cert.KernelIdeal.Reg1.part_nll m ρ c j hT]
    exact (nll_eq _ (fun k => hf2 _) _).symm
  have e6 : Cert.ReferenceIdeal.ReadP.val_main_v49 (F := Ideal) (m ((c.tc : Thread Cert.KernelIdeal.nD Cert.KernelIdeal.τ).loc Cert.KernelIdeal.main_arg2))
      = Cert.KernelIdeal.KTail.row1_1536 (Cert.KernelIdeal.Gen.W4 (F := Ideal) m ρ c (Proc.devRef .tc Cert.KernelIdeal.main_v6)) := by
    funext i
    obtain ⟨j, rfl⟩ : ∃ j : Fin 1536, i = ix1 j := ⟨i 0, eq_ix1 i⟩
    rw [Cert.ReferenceIdeal.Ref1536.v49_apply, Cert.KernelIdeal.KTail.row1_1536_apply,
      Cert.KernelIdeal.Reg1.part_smooth m ρ c j]
    exact (smooth_eq _ (fun k => hf2 _)).symm
  rw [e1, e2, e3, e4, e5, e6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
